-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x512 : Shape := ⟨3, ![2, 256, 512]⟩
abbrev S512x512 : Shape := ⟨2, ![512, 512]⟩
abbrev S1x1x512 : Shape := ⟨3, ![1, 1, 512]⟩
abbrev S64x64 : Shape := ⟨2, ![64, 64]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1x1x512 : S_.BroadcastsInDim S1x1x512 (![] : Fin 0 → Fin S1x1x512.rank)
  reducesTo_S1x1x512_S_d0_1_2 : S1x1x512.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg4 : FVec F S512x512 .f32) (main_arg5 : FVec F S1x1x512 .f32) (main_arg6 : FVec F S64x64 .f32) (main_arg7 : FVec F S64x64 .f32) (main_arg8 : FVec F S64x64 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1x1x512 .f32 := Host.absf main_arg5
  let main_cst_8 : FVec F S_ .f32 := constant S_ .f32 0x7F800000#32
  let main_v25 : FVec F S1x1x512 .f32 := broadcastInDim S1x1x512 ![] bcast_S_S1x1x512 main_cst_8
  let main_v26 : IVec S1x1x512 1 := cmpf .olt main_v24 main_v25
  let main_c_9 : IVec S_ 1 := constantI S_ 1 1#1
  let main_v27 : IVec S_ 1 := (fun x v => Host.reduce IntOp.andi x v reducesTo_S1x1x512_S_d0_1_2 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S2x256x512 .f32) (main_arg1 : FVec F S512x512 .f32) (main_arg2 : FVec F S512x512 .f32) (main_arg3 : FVec F S512x512 .f32) (main_arg4 : FVec F S512x512 .f32) (main_arg5 : FVec F S1x1x512 .f32) (main_arg6 : FVec F S64x64 .f32) (main_arg7 : FVec F S64x64 .f32) (main_arg8 : FVec F S64x64 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S2x256x512 : Shape := ⟨3, ![2, 256, 512]⟩
abbrev S512x512 : Shape := ⟨2, ![512, 512]⟩
abbrev S1x1x512 : Shape := ⟨3, ![1, 1, 512]⟩
abbrev S64x64 : Shape := ⟨2, ![64, 64]⟩
abbrev S1x512 : Shape := ⟨2, ![1, 512]⟩
abbrev S1x256x512 : Shape := ⟨3, ![1, 256, 512]⟩
abbrev S256x512 : Shape := ⟨2, ![256, 512]⟩
abbrev S2x256x8x64 : Shape := ⟨4, ![2, 256, 8, 64]⟩
abbrev S2x8x256x64 : Shape := ⟨4, ![2, 8, 256, 64]⟩
abbrev S16x256x64 : Shape := ⟨3, ![16, 256, 64]⟩
abbrev S16x256x256 : Shape := ⟨3, ![16, 256, 256]⟩
abbrev S1x128x64 : Shape := ⟨3, ![1, 128, 64]⟩
abbrev S1x256x64 : Shape := ⟨3, ![1, 256, 64]⟩
abbrev S1x128x256 : Shape := ⟨3, ![1, 128, 256]⟩
abbrev S256x64 : Shape := ⟨2, ![256, 64]⟩
abbrev S128x64 : Shape := ⟨2, ![128, 64]⟩
abbrev S128x1 : Shape := ⟨2, ![128, 1]⟩
abbrev S1x64 : Shape := ⟨2, ![1, 64]⟩
abbrev S64x128 : Shape := ⟨2, ![64, 128]⟩
abbrev S128x128 : Shape := ⟨2, ![128, 128]⟩
abbrev S1x128 : Shape := ⟨2, ![1, 128]⟩
abbrev S1x128x128 : Shape := ⟨3, ![1, 128, 128]⟩
abbrev S128x128x1 : Shape := ⟨3, ![128, 128, 1]⟩
abbrev S128x128x64 : Shape := ⟨3, ![128, 128, 64]⟩

abbrev nBuf : Space → Nat
  | .hbm => 29
  | .vmem => 39
  | .smem => 0
  | _ => 0

abbrev bufTy : (tb : Table) → Fin (tcTables nBuf tb) → BufTy
  | .hbm, ⟨0, _⟩ => ⟨S2x256x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1x1x512, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S1x512, .f32⟩
  | .hbm, ⟨10, _⟩ => ⟨S2x256x512, .f32⟩
  | .hbm, ⟨11, _⟩ => ⟨S2x256x512, .f32⟩
  | .hbm, ⟨12, _⟩ => ⟨S2x256x512, .f32⟩
  | .hbm, ⟨13, _⟩ => ⟨S2x256x8x64, .f32⟩
  | .hbm, ⟨14, _⟩ => ⟨S2x8x256x64, .f32⟩
  | .hbm, ⟨15, _⟩ => ⟨S16x256x64, .f32⟩
  | .hbm, ⟨16, _⟩ => ⟨S2x256x8x64, .f32⟩
  | .hbm, ⟨17, _⟩ => ⟨S2x8x256x64, .f32⟩
  | .hbm, ⟨18, _⟩ => ⟨S16x256x64, .f32⟩
  | .hbm, ⟨19, _⟩ => ⟨S2x256x8x64, .f32⟩
  | .hbm, ⟨20, _⟩ => ⟨S2x8x256x64, .f32⟩
  | .hbm, ⟨21, _⟩ => ⟨S16x256x64, .f32⟩
  | .hbm, ⟨22, _⟩ => ⟨S16x256x64, .f32⟩
  | .hbm, ⟨23, _⟩ => ⟨S16x256x256, .f32⟩
  | .hbm, ⟨24, _⟩ => ⟨S2x8x256x64, .f32⟩
  | .hbm, ⟨25, _⟩ => ⟨S2x256x8x64, .f32⟩
  | .hbm, ⟨26, _⟩ => ⟨S2x256x512, .f32⟩
  | .hbm, ⟨27, _⟩ => ⟨S2x256x512, .f32⟩
  | .hbm, ⟨28, _⟩ => ⟨S2x256x512, .f32⟩
  | .local _ .vmem, ⟨0, _⟩ => ⟨S1x256x512, .f32⟩
  | .local _ .vmem, ⟨1, _⟩ => ⟨S1x256x512, .f32⟩
  | .local _ .vmem, ⟨2, _⟩ => ⟨S512x512, .f32⟩
  | .local _ .vmem, ⟨3, _⟩ => ⟨S1x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x512, .f32⟩
  | .local _ .vmem, ⟨9, _⟩ => ⟨S1x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S512x512, .f32⟩
  | .local _ .vmem, ⟨15, _⟩ => ⟨S1x512, .f32⟩
  | .local _ .vmem, ⟨16, _⟩ => ⟨S1x256x512, .f32⟩
  | .local _ .vmem, ⟨17, _⟩ => ⟨S1x256x512, .f32⟩
  | .local _ .vmem, ⟨18, _⟩ => ⟨S1x128x64, .f32⟩
  | .local _ .vmem, ⟨19, _⟩ => ⟨S1x128x64, .f32⟩
  | .local _ .vmem, ⟨20, _⟩ => ⟨S1x256x64, .f32⟩
  | .local _ .vmem, ⟨21, _⟩ => ⟨S1x256x64, .f32⟩
  | .local _ .vmem, ⟨22, _⟩ => ⟨S1x256x64, .f32⟩
  | .local _ .vmem, ⟨23, _⟩ => ⟨S1x256x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S1x128x64, .f32⟩
  | .local _ .vmem, ⟨28, _⟩ => ⟨S1x128x64, .f32⟩
  | .local _ .vmem, ⟨29, _⟩ => ⟨S1x128x256, .f32⟩
  | .local _ .vmem, ⟨30, _⟩ => ⟨S1x128x256, .f32⟩
  | .local _ .vmem, ⟨31, _⟩ => ⟨S256x64, .f32⟩
  | .local _ .vmem, ⟨32, _⟩ => ⟨S256x64, .f32⟩
  | .local _ .vmem, ⟨33, _⟩ => ⟨S128x64, .f32⟩
  | .local _ .vmem, ⟨34, _⟩ => ⟨S1x256x512, .f32⟩
  | .local _ .vmem, ⟨35, _⟩ => ⟨S1x256x512, .f32⟩
  | .local _ .vmem, ⟨36, _⟩ => ⟨S512x512, .f32⟩
  | .local _ .vmem, ⟨37, _⟩ => ⟨S1x256x512, .f32⟩
  | .local _ .vmem, ⟨38, _⟩ => ⟨S1x256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc3_stg7_1 : Ref sig .tc := ⟨.vmem, 30, rfl⟩
abbrev cc3_scratch0 : Ref sig .tc := ⟨.vmem, 31, rfl⟩
abbrev cc3_scratch1 : Ref sig .tc := ⟨.vmem, 32, rfl⟩
abbrev cc3_scratch2 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28
abbrev cc3_sem7_0 : DmaSem sig := 29
abbrev cc3_sem7_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 2], ![false, false]⟩

@[reducible] def k3_t1_loop : Scf.Loop 32 :=
  let c0_i32 : BitVec 32 := 0#32
  let c2_i32 : BitVec 32 := 2#32
  let v391 : BitVec 32 := Scalar.addi c0_i32 c2_i32
  let c1_i32 : BitVec 32 := 1#32
  ⟨c0_i32, v391, c1_i32⟩
def k3_mult1 (k3_t1 : Fin k3_t1_loop.trips) : BitVec 32 :=
  let c0_i32 : BitVec 32 := 0#32
  let c1_i32 : BitVec 32 := 1#32
  let arg13 : BitVec 32 := Scf.iv c0_i32 c1_i32 k3_t1
  let c128_i32 : BitVec 32 := 128#32
  let v401 : BitVec 32 := Scalar.muli arg13 c128_i32
  v401
def k3_off1 (k3_t1 : Fin k3_t1_loop.trips) : Fin 3 → Nat :=
  let c0_21 : Index := 0#32
  let c0_i32 : BitVec 32 := 0#32
  let c1_i32 : BitVec 32 := 1#32
  let arg13 : BitVec 32 := Scf.iv c0_i32 c1_i32 k3_t1
  let c128_i32 : BitVec 32 := 128#32
  let v401 : BitVec 32 := Scalar.muli arg13 c128_i32
  let v402 : BitVec 32 := v401
  let v403 : Index := Scalar.indexCast v402
  let c0_22 : Index := 0#32
  ![0, v403.toNat, 0]
def k3_off2 (k3_t1 : Fin k3_t1_loop.trips) : Fin 2 → Nat :=
  let c0_i32 : BitVec 32 := 0#32
  let c1_i32 : BitVec 32 := 1#32
  let arg13 : BitVec 32 := Scf.iv c0_i32 c1_i32 k3_t1
  let c128_i32 : BitVec 32 := 128#32
  let v401 : BitVec 32 := Scalar.muli arg13 c128_i32
  let v402 : BitVec 32 := v401
  let v795 : Index := Scalar.indexCast v402
  let c0_26 : Index := 0#32
  ![v795.toNat, 0]
@[reducible] def k3_t2_loop : Scf.Loop 32 :=
  let c0_i32_12 : BitVec 32 := 0#32
  let c2_i32_13 : BitVec 32 := 2#32
  let v396 : BitVec 32 := Scalar.addi c0_i32_12 c2_i32_13
  let c1_i32_14 : BitVec 32 := 1#32
  ⟨c0_i32_12, v396, c1_i32_14⟩
def k3_mult2 (k3_t2 : Fin k3_t2_loop.trips) : BitVec 32 :=
  let c0_i32_12 : BitVec 32 := 0#32
  let c1_i32_14 : BitVec 32 := 1#32
  let arg13 : BitVec 32 := Scf.iv c0_i32_12 c1_i32_14 k3_t2
  let c128_i32 : BitVec 32 := 128#32
  let v401 : BitVec 32 := Scalar.muli arg13 c128_i32
  v401
def k3_off3 (k3_t2 : Fin k3_t2_loop.trips) : Fin 2 → Nat :=
  let c0_i32_12 : BitVec 32 := 0#32
  let c1_i32_14 : BitVec 32 := 1#32
  let arg13 : BitVec 32 := Scf.iv c0_i32_12 c1_i32_14 k3_t2
  let c128_i32 : BitVec 32 := 128#32
  let v401 : BitVec 32 := Scalar.muli arg13 c128_i32
  let v402 : BitVec 32 := v401
  let v403 : Index := Scalar.indexCast v402
  let c0_21 : Index := 0#32
  ![v403.toNat, 0]
def k3_off4 (k3_t2 : Fin k3_t2_loop.trips) : Fin 3 → Nat :=
  let c0_26 : Index := 0#32
  let c0_27 : Index := 0#32
  let c0_i32_12 : BitVec 32 := 0#32
  let c1_i32_14 : BitVec 32 := 1#32
  let arg13 : BitVec 32 := Scf.iv c0_i32_12 c1_i32_14 k3_t2
  let c128_i32 : BitVec 32 := 128#32
  let v401 : BitVec 32 := Scalar.muli arg13 c128_i32
  let v402 : BitVec 32 := v401
  let v861 : Index := Scalar.indexCast v402
  ![0, 0, v861.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x256x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x128x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x128x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S1x1x512_S1x512 : S1x1x512.ShapeCasts S1x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S1x256x512 : S256x512.ShapeCasts S1x256x512
  shapeCasts_S2x256x512_S2x256x8x64 : S2x256x512.ShapeCasts S2x256x8x64
  transposes_S2x256x8x64_S2x8x256x64_0_2_1_3 : S2x256x8x64.Transposes [0, 2, 1, 3] S2x8x256x64
  shapeCasts_S2x8x256x64_S16x256x64 : S2x8x256x64.ShapeCasts S16x256x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  slices_S128x64_o0_0_S128x1 : S128x64.Slices ![0, 0] S128x1
  slices_S64x64_o0_0_S1x64 : S64x64.Slices ![0, 0] S1x64
  broadcasts_S128x1_S128x64 : S128x1.Broadcasts S128x64
  broadcasts_S1x64_S128x64 : S1x64.Broadcasts S128x64
  slices_S128x64_o0_1_S128x1 : S128x64.Slices ![0, 1] S128x1
  slices_S64x64_o1_0_S1x64 : S64x64.Slices ![1, 0] S1x64
  slices_S128x64_o0_2_S128x1 : S128x64.Slices ![0, 2] S128x1
  slices_S64x64_o2_0_S1x64 : S64x64.Slices ![2, 0] S1x64
  slices_S128x64_o0_3_S128x1 : S128x64.Slices ![0, 3] S128x1
  slices_S64x64_o3_0_S1x64 : S64x64.Slices ![3, 0] S1x64
  slices_S128x64_o0_4_S128x1 : S128x64.Slices ![0, 4] S128x1
  slices_S64x64_o4_0_S1x64 : S64x64.Slices ![4, 0] S1x64
  slices_S128x64_o0_5_S128x1 : S128x64.Slices ![0, 5] S128x1
  slices_S64x64_o5_0_S1x64 : S64x64.Slices ![5, 0] S1x64
  slices_S128x64_o0_6_S128x1 : S128x64.Slices ![0, 6] S128x1
  slices_S64x64_o6_0_S1x64 : S64x64.Slices ![6, 0] S1x64
  slices_S128x64_o0_7_S128x1 : S128x64.Slices ![0, 7] S128x1
  slices_S64x64_o7_0_S1x64 : S64x64.Slices ![7, 0] S1x64
  slices_S128x64_o0_8_S128x1 : S128x64.Slices ![0, 8] S128x1
  slices_S64x64_o8_0_S1x64 : S64x64.Slices ![8, 0] S1x64
  slices_S128x64_o0_9_S128x1 : S128x64.Slices ![0, 9] S128x1
  slices_S64x64_o9_0_S1x64 : S64x64.Slices ![9, 0] S1x64
  slices_S128x64_o0_10_S128x1 : S128x64.Slices ![0, 10] S128x1
  slices_S64x64_o10_0_S1x64 : S64x64.Slices ![10, 0] S1x64
  slices_S128x64_o0_11_S128x1 : S128x64.Slices ![0, 11] S128x1
  slices_S64x64_o11_0_S1x64 : S64x64.Slices ![11, 0] S1x64
  slices_S128x64_o0_12_S128x1 : S128x64.Slices ![0, 12] S128x1
  slices_S64x64_o12_0_S1x64 : S64x64.Slices ![12, 0] S1x64
  slices_S128x64_o0_13_S128x1 : S128x64.Slices ![0, 13] S128x1
  slices_S64x64_o13_0_S1x64 : S64x64.Slices ![13, 0] S1x64
  slices_S128x64_o0_14_S128x1 : S128x64.Slices ![0, 14] S128x1
  slices_S64x64_o14_0_S1x64 : S64x64.Slices ![14, 0] S1x64
  slices_S128x64_o0_15_S128x1 : S128x64.Slices ![0, 15] S128x1
  slices_S64x64_o15_0_S1x64 : S64x64.Slices ![15, 0] S1x64
  slices_S128x64_o0_16_S128x1 : S128x64.Slices ![0, 16] S128x1
  slices_S64x64_o16_0_S1x64 : S64x64.Slices ![16, 0] S1x64
  slices_S128x64_o0_17_S128x1 : S128x64.Slices ![0, 17] S128x1
  slices_S64x64_o17_0_S1x64 : S64x64.Slices ![17, 0] S1x64
  slices_S128x64_o0_18_S128x1 : S128x64.Slices ![0, 18] S128x1
  slices_S64x64_o18_0_S1x64 : S64x64.Slices ![18, 0] S1x64
  slices_S128x64_o0_19_S128x1 : S128x64.Slices ![0, 19] S128x1
  slices_S64x64_o19_0_S1x64 : S64x64.Slices ![19, 0] S1x64
  slices_S128x64_o0_20_S128x1 : S128x64.Slices ![0, 20] S128x1
  slices_S64x64_o20_0_S1x64 : S64x64.Slices ![20, 0] S1x64
  slices_S128x64_o0_21_S128x1 : S128x64.Slices ![0, 21] S128x1
  slices_S64x64_o21_0_S1x64 : S64x64.Slices ![21, 0] S1x64
  slices_S128x64_o0_22_S128x1 : S128x64.Slices ![0, 22] S128x1
  slices_S64x64_o22_0_S1x64 : S64x64.Slices ![22, 0] S1x64
  slices_S128x64_o0_23_S128x1 : S128x64.Slices ![0, 23] S128x1
  slices_S64x64_o23_0_S1x64 : S64x64.Slices ![23, 0] S1x64
  slices_S128x64_o0_24_S128x1 : S128x64.Slices ![0, 24] S128x1
  slices_S64x64_o24_0_S1x64 : S64x64.Slices ![24, 0] S1x64
  slices_S128x64_o0_25_S128x1 : S128x64.Slices ![0, 25] S128x1
  slices_S64x64_o25_0_S1x64 : S64x64.Slices ![25, 0] S1x64
  slices_S128x64_o0_26_S128x1 : S128x64.Slices ![0, 26] S128x1
  slices_S64x64_o26_0_S1x64 : S64x64.Slices ![26, 0] S1x64
  slices_S128x64_o0_27_S128x1 : S128x64.Slices ![0, 27] S128x1
  slices_S64x64_o27_0_S1x64 : S64x64.Slices ![27, 0] S1x64
  slices_S128x64_o0_28_S128x1 : S128x64.Slices ![0, 28] S128x1
  slices_S64x64_o28_0_S1x64 : S64x64.Slices ![28, 0] S1x64
  slices_S128x64_o0_29_S128x1 : S128x64.Slices ![0, 29] S128x1
  slices_S64x64_o29_0_S1x64 : S64x64.Slices ![29, 0] S1x64
  slices_S128x64_o0_30_S128x1 : S128x64.Slices ![0, 30] S128x1
  slices_S64x64_o30_0_S1x64 : S64x64.Slices ![30, 0] S1x64
  slices_S128x64_o0_31_S128x1 : S128x64.Slices ![0, 31] S128x1
  slices_S64x64_o31_0_S1x64 : S64x64.Slices ![31, 0] S1x64
  slices_S128x64_o0_32_S128x1 : S128x64.Slices ![0, 32] S128x1
  slices_S64x64_o32_0_S1x64 : S64x64.Slices ![32, 0] S1x64
  slices_S128x64_o0_33_S128x1 : S128x64.Slices ![0, 33] S128x1
  slices_S64x64_o33_0_S1x64 : S64x64.Slices ![33, 0] S1x64
  slices_S128x64_o0_34_S128x1 : S128x64.Slices ![0, 34] S128x1
  slices_S64x64_o34_0_S1x64 : S64x64.Slices ![34, 0] S1x64
  slices_S128x64_o0_35_S128x1 : S128x64.Slices ![0, 35] S128x1
  slices_S64x64_o35_0_S1x64 : S64x64.Slices ![35, 0] S1x64
  slices_S128x64_o0_36_S128x1 : S128x64.Slices ![0, 36] S128x1
  slices_S64x64_o36_0_S1x64 : S64x64.Slices ![36, 0] S1x64
  slices_S128x64_o0_37_S128x1 : S128x64.Slices ![0, 37] S128x1
  slices_S64x64_o37_0_S1x64 : S64x64.Slices ![37, 0] S1x64
  slices_S128x64_o0_38_S128x1 : S128x64.Slices ![0, 38] S128x1
  slices_S64x64_o38_0_S1x64 : S64x64.Slices ![38, 0] S1x64
  slices_S128x64_o0_39_S128x1 : S128x64.Slices ![0, 39] S128x1
  slices_S64x64_o39_0_S1x64 : S64x64.Slices ![39, 0] S1x64
  slices_S128x64_o0_40_S128x1 : S128x64.Slices ![0, 40] S128x1
  slices_S64x64_o40_0_S1x64 : S64x64.Slices ![40, 0] S1x64
  slices_S128x64_o0_41_S128x1 : S128x64.Slices ![0, 41] S128x1
  slices_S64x64_o41_0_S1x64 : S64x64.Slices ![41, 0] S1x64
  slices_S128x64_o0_42_S128x1 : S128x64.Slices ![0, 42] S128x1
  slices_S64x64_o42_0_S1x64 : S64x64.Slices ![42, 0] S1x64
  slices_S128x64_o0_43_S128x1 : S128x64.Slices ![0, 43] S128x1
  slices_S64x64_o43_0_S1x64 : S64x64.Slices ![43, 0] S1x64
  slices_S128x64_o0_44_S128x1 : S128x64.Slices ![0, 44] S128x1
  slices_S64x64_o44_0_S1x64 : S64x64.Slices ![44, 0] S1x64
  slices_S128x64_o0_45_S128x1 : S128x64.Slices ![0, 45] S128x1
  slices_S64x64_o45_0_S1x64 : S64x64.Slices ![45, 0] S1x64
  slices_S128x64_o0_46_S128x1 : S128x64.Slices ![0, 46] S128x1
  slices_S64x64_o46_0_S1x64 : S64x64.Slices ![46, 0] S1x64
  slices_S128x64_o0_47_S128x1 : S128x64.Slices ![0, 47] S128x1
  slices_S64x64_o47_0_S1x64 : S64x64.Slices ![47, 0] S1x64
  slices_S128x64_o0_48_S128x1 : S128x64.Slices ![0, 48] S128x1
  slices_S64x64_o48_0_S1x64 : S64x64.Slices ![48, 0] S1x64
  slices_S128x64_o0_49_S128x1 : S128x64.Slices ![0, 49] S128x1
  slices_S64x64_o49_0_S1x64 : S64x64.Slices ![49, 0] S1x64
  slices_S128x64_o0_50_S128x1 : S128x64.Slices ![0, 50] S128x1
  slices_S64x64_o50_0_S1x64 : S64x64.Slices ![50, 0] S1x64
  slices_S128x64_o0_51_S128x1 : S128x64.Slices ![0, 51] S128x1
  slices_S64x64_o51_0_S1x64 : S64x64.Slices ![51, 0] S1x64
  slices_S128x64_o0_52_S128x1 : S128x64.Slices ![0, 52] S128x1
  slices_S64x64_o52_0_S1x64 : S64x64.Slices ![52, 0] S1x64
  slices_S128x64_o0_53_S128x1 : S128x64.Slices ![0, 53] S128x1
  slices_S64x64_o53_0_S1x64 : S64x64.Slices ![53, 0] S1x64
  slices_S128x64_o0_54_S128x1 : S128x64.Slices ![0, 54] S128x1
  slices_S64x64_o54_0_S1x64 : S64x64.Slices ![54, 0] S1x64
  slices_S128x64_o0_55_S128x1 : S128x64.Slices ![0, 55] S128x1
  slices_S64x64_o55_0_S1x64 : S64x64.Slices ![55, 0] S1x64
  slices_S128x64_o0_56_S128x1 : S128x64.Slices ![0, 56] S128x1
  slices_S64x64_o56_0_S1x64 : S64x64.Slices ![56, 0] S1x64
  slices_S128x64_o0_57_S128x1 : S128x64.Slices ![0, 57] S128x1
  slices_S64x64_o57_0_S1x64 : S64x64.Slices ![57, 0] S1x64
  slices_S128x64_o0_58_S128x1 : S128x64.Slices ![0, 58] S128x1
  slices_S64x64_o58_0_S1x64 : S64x64.Slices ![58, 0] S1x64
  slices_S128x64_o0_59_S128x1 : S128x64.Slices ![0, 59] S128x1
  slices_S64x64_o59_0_S1x64 : S64x64.Slices ![59, 0] S1x64
  slices_S128x64_o0_60_S128x1 : S128x64.Slices ![0, 60] S128x1
  slices_S64x64_o60_0_S1x64 : S64x64.Slices ![60, 0] S1x64
  slices_S128x64_o0_61_S128x1 : S128x64.Slices ![0, 61] S128x1
  slices_S64x64_o61_0_S1x64 : S64x64.Slices ![61, 0] S1x64
  slices_S128x64_o0_62_S128x1 : S128x64.Slices ![0, 62] S128x1
  slices_S64x64_o62_0_S1x64 : S64x64.Slices ![62, 0] S1x64
  slices_S128x64_o0_63_S128x1 : S128x64.Slices ![0, 63] S128x1
  slices_S64x64_o63_0_S1x64 : S64x64.Slices ![63, 0] S1x64
  h_S128x64 : 0 < S128x64.numel
  shapeCasts_S128x64_S128x64 : S128x64.ShapeCasts S128x64
  inb_S128x64_S128x64_0_0 : ∀ a, (![0, 0] : Fin 2 → Nat) a + S128x64.size a ≤ S128x64.size a
  transposes_S128x64_p1_0_S64x128 : S128x64.Transposes [1, 0] S64x128
  slices_S64x128_o0_0_S1x128 : S64x128.Slices ![0, 0] S1x128
  broadcasts_S128x1_S128x128 : S128x1.Broadcasts S128x128
  broadcasts_S1x128_S128x128 : S1x128.Broadcasts S128x128
  slices_S64x128_o1_0_S1x128 : S64x128.Slices ![1, 0] S1x128
  slices_S64x128_o2_0_S1x128 : S64x128.Slices ![2, 0] S1x128
  slices_S64x128_o3_0_S1x128 : S64x128.Slices ![3, 0] S1x128
  slices_S64x128_o4_0_S1x128 : S64x128.Slices ![4, 0] S1x128
  slices_S64x128_o5_0_S1x128 : S64x128.Slices ![5, 0] S1x128
  slices_S64x128_o6_0_S1x128 : S64x128.Slices ![6, 0] S1x128
  slices_S64x128_o7_0_S1x128 : S64x128.Slices ![7, 0] S1x128
  slices_S64x128_o8_0_S1x128 : S64x128.Slices ![8, 0] S1x128
  slices_S64x128_o9_0_S1x128 : S64x128.Slices ![9, 0] S1x128
  slices_S64x128_o10_0_S1x128 : S64x128.Slices ![10, 0] S1x128
  slices_S64x128_o11_0_S1x128 : S64x128.Slices ![11, 0] S1x128
  slices_S64x128_o12_0_S1x128 : S64x128.Slices ![12, 0] S1x128
  slices_S64x128_o13_0_S1x128 : S64x128.Slices ![13, 0] S1x128
  slices_S64x128_o14_0_S1x128 : S64x128.Slices ![14, 0] S1x128
  slices_S64x128_o15_0_S1x128 : S64x128.Slices ![15, 0] S1x128
  slices_S64x128_o16_0_S1x128 : S64x128.Slices ![16, 0] S1x128
  slices_S64x128_o17_0_S1x128 : S64x128.Slices ![17, 0] S1x128
  slices_S64x128_o18_0_S1x128 : S64x128.Slices ![18, 0] S1x128
  slices_S64x128_o19_0_S1x128 : S64x128.Slices ![19, 0] S1x128
  slices_S64x128_o20_0_S1x128 : S64x128.Slices ![20, 0] S1x128
  slices_S64x128_o21_0_S1x128 : S64x128.Slices ![21, 0] S1x128
  slices_S64x128_o22_0_S1x128 : S64x128.Slices ![22, 0] S1x128
  slices_S64x128_o23_0_S1x128 : S64x128.Slices ![23, 0] S1x128
  slices_S64x128_o24_0_S1x128 : S64x128.Slices ![24, 0] S1x128
  slices_S64x128_o25_0_S1x128 : S64x128.Slices ![25, 0] S1x128
  slices_S64x128_o26_0_S1x128 : S64x128.Slices ![26, 0] S1x128
  slices_S64x128_o27_0_S1x128 : S64x128.Slices ![27, 0] S1x128
  slices_S64x128_o28_0_S1x128 : S64x128.Slices ![28, 0] S1x128
  slices_S64x128_o29_0_S1x128 : S64x128.Slices ![29, 0] S1x128
  slices_S64x128_o30_0_S1x128 : S64x128.Slices ![30, 0] S1x128
  slices_S64x128_o31_0_S1x128 : S64x128.Slices ![31, 0] S1x128
  slices_S64x128_o32_0_S1x128 : S64x128.Slices ![32, 0] S1x128
  slices_S64x128_o33_0_S1x128 : S64x128.Slices ![33, 0] S1x128
  slices_S64x128_o34_0_S1x128 : S64x128.Slices ![34, 0] S1x128
  slices_S64x128_o35_0_S1x128 : S64x128.Slices ![35, 0] S1x128
  slices_S64x128_o36_0_S1x128 : S64x128.Slices ![36, 0] S1x128
  slices_S64x128_o37_0_S1x128 : S64x128.Slices ![37, 0] S1x128
  slices_S64x128_o38_0_S1x128 : S64x128.Slices ![38, 0] S1x128
  slices_S64x128_o39_0_S1x128 : S64x128.Slices ![39, 0] S1x128
  slices_S64x128_o40_0_S1x128 : S64x128.Slices ![40, 0] S1x128
  slices_S64x128_o41_0_S1x128 : S64x128.Slices ![41, 0] S1x128
  slices_S64x128_o42_0_S1x128 : S64x128.Slices ![42, 0] S1x128
  slices_S64x128_o43_0_S1x128 : S64x128.Slices ![43, 0] S1x128
  slices_S64x128_o44_0_S1x128 : S64x128.Slices ![44, 0] S1x128
  slices_S64x128_o45_0_S1x128 : S64x128.Slices ![45, 0] S1x128
  slices_S64x128_o46_0_S1x128 : S64x128.Slices ![46, 0] S1x128
  slices_S64x128_o47_0_S1x128 : S64x128.Slices ![47, 0] S1x128
  slices_S64x128_o48_0_S1x128 : S64x128.Slices ![48, 0] S1x128
  slices_S64x128_o49_0_S1x128 : S64x128.Slices ![49, 0] S1x128
  slices_S64x128_o50_0_S1x128 : S64x128.Slices ![50, 0] S1x128
  slices_S64x128_o51_0_S1x128 : S64x128.Slices ![51, 0] S1x128
  slices_S64x128_o52_0_S1x128 : S64x128.Slices ![52, 0] S1x128
  slices_S64x128_o53_0_S1x128 : S64x128.Slices ![53, 0] S1x128
  slices_S64x128_o54_0_S1x128 : S64x128.Slices ![54, 0] S1x128
  slices_S64x128_o55_0_S1x128 : S64x128.Slices ![55, 0] S1x128
  slices_S64x128_o56_0_S1x128 : S64x128.Slices ![56, 0] S1x128
  slices_S64x128_o57_0_S1x128 : S64x128.Slices ![57, 0] S1x128
  slices_S64x128_o58_0_S1x128 : S64x128.Slices ![58, 0] S1x128
  slices_S64x128_o59_0_S1x128 : S64x128.Slices ![59, 0] S1x128
  slices_S64x128_o60_0_S1x128 : S64x128.Slices ![60, 0] S1x128
  slices_S64x128_o61_0_S1x128 : S64x128.Slices ![61, 0] S1x128
  slices_S64x128_o62_0_S1x128 : S64x128.Slices ![62, 0] S1x128
  slices_S64x128_o63_0_S1x128 : S64x128.Slices ![63, 0] S1x128
  h_S1x128x128 : 0 < S1x128x128.numel
  shapeCasts_S1x128x128_S128x128 : S1x128x128.ShapeCasts S128x128
  shapeCasts_S128x128_S1x128x128 : S128x128.ShapeCasts S1x128x128
  shapeCasts_S128x128_S128x128x1 : S128x128.ShapeCasts S128x128x1
  shapeCasts_S128x64_S1x128x64 : S128x64.ShapeCasts S1x128x64
  broadcasts_S128x128x1_S128x128x64 : S128x128x1.Broadcasts S128x128x64
  broadcasts_S1x128x64_S128x128x64 : S1x128x64.Broadcasts S128x128x64
  reduces_S128x128x64_S128x64 : S128x128x64.Reduces [1] S128x64
  shapeCasts_S16x256x64_S2x8x256x64 : S16x256x64.ShapeCasts S2x8x256x64
  transposes_S2x8x256x64_S2x256x8x64_0_2_1_3 : S2x8x256x64.Transposes [0, 2, 1, 3] S2x256x8x64
  shapeCasts_S2x256x8x64_S2x256x512 : S2x256x8x64.ShapeCasts S2x256x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S2x256x512.size a
  hwx0_0 : ∀ i : grid0.Coords, EltTy.bits .f32 = 32 ∨ (Rect.block (s := S2x256x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S2x256x512.size a
  hwx0_3 : ∀ i : grid0.Coords, EltTy.bits .f32 = 32 ∨ (Rect.block (s := S2x256x512) S1x256x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x256x512.size a
  hwx1_0 : ∀ i : grid1.Coords, EltTy.bits .f32 = 32 ∨ (Rect.block (s := S2x256x512) S1x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x512.size a ≤ S2x256x512.size a
  hwx1_3 : ∀ i : grid1.Coords, EltTy.bits .f32 = 32 ∨ (Rect.block (s := S2x256x512) S1x256x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x512.size a ≤ S2x256x512.size a
  hwx2_0 : ∀ i : grid2.Coords, EltTy.bits .f32 = 32 ∨ (Rect.block (s := S2x256x512) S1x256x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x512.size a ≤ S2x256x512.size a
  hwx2_3 : ∀ i : grid2.Coords, EltTy.bits .f32 = 32 ∨ (Rect.block (s := S2x256x512) S1x256x512.size (cc2_transform_3 i) (hinb2_3 i)).WholeWords (EltTy.packing .f32)
  hrank3 : 0 < grid3.rank
  k3_t1_ok : k3_t1_loop.OK
  k3_mult1_dvd : ∀ k3_t1 : Fin k3_t1_loop.trips, 128 ∣ (k3_mult1 k3_t1).toNat
  k3_off1_inb : ∀ k3_t1 : Fin k3_t1_loop.trips, ∀ a, (k3_off1 k3_t1) a + S1x128x64.size a ≤ S1x256x64.size a
  k3_off2_inb : ∀ k3_t1 : Fin k3_t1_loop.trips, ∀ a, (k3_off2 k3_t1) a + S128x64.size a ≤ S256x64.size a
  k3_t2_ok : k3_t2_loop.OK
  k3_mult2_dvd : ∀ k3_t2 : Fin k3_t2_loop.trips, 128 ∣ (k3_mult2 k3_t2).toNat
  k3_off3_inb : ∀ k3_t2 : Fin k3_t2_loop.trips, ∀ a, (k3_off3 k3_t2) a + S128x64.size a ≤ S256x64.size a
  k3_off4_inb : ∀ k3_t2 : Fin k3_t2_loop.trips, ∀ a, (k3_off4 k3_t2) a + S1x128x128.size a ≤ S1x128x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x64.size a ≤ S16x256x64.size a
  hwx3_0 : ∀ i : grid3.Coords, EltTy.bits .f32 = 32 ∨ (Rect.block (s := S16x256x64) S1x128x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x64.size a ≤ S16x256x64.size a
  hwx3_1 : ∀ i : grid3.Coords, EltTy.bits .f32 = 32 ∨ (Rect.block (s := S16x256x64) S1x256x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256x64.size a ≤ S16x256x64.size a
  hwx3_2 : ∀ i : grid3.Coords, EltTy.bits .f32 = 32 ∨ (Rect.block (s := S16x256x64) S1x256x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x128x64.size a ≤ S16x256x64.size a
  hwx3_6 : ∀ i : grid3.Coords, EltTy.bits .f32 = 32 ∨ (Rect.block (s := S16x256x64) S1x128x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x128x256.size a ≤ S16x256x256.size a
  hwx3_7 : ∀ i : grid3.Coords, EltTy.bits .f32 = 32 ∨ (Rect.block (s := S16x256x256) S1x128x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x512.size a ≤ S2x256x512.size a
  hwx4_0 : ∀ i : grid4.Coords, EltTy.bits .f32 = 32 ∨ (Rect.block (s := S2x256x512) S1x256x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256x512.size a ≤ S2x256x512.size a
  hwx4_2 : ∀ i : grid4.Coords, EltTy.bits .f32 = 32 ∨ (Rect.block (s := S2x256x512) S1x256x512.size (cc4_transform_2 i) (hinb4_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x256x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v6) S1x128x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x256x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x256x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13_0) S1x128x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v13_1) S1x128x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v17) S1x256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x256x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x256x512 : Shape := ⟨3, ![2, 256, 512]⟩
abbrev S512x512 : Shape := ⟨2, ![512, 512]⟩
abbrev S1x1x512 : Shape := ⟨3, ![1, 1, 512]⟩
abbrev S64x64 : Shape := ⟨2, ![64, 64]⟩
abbrev S_ : Shape := ⟨0, ![]⟩
abbrev S2x256x8x64 : Shape := ⟨4, ![2, 256, 8, 64]⟩
abbrev S2x8x256x64 : Shape := ⟨4, ![2, 8, 256, 64]⟩
abbrev S16x256x64 : Shape := ⟨3, ![16, 256, 64]⟩
abbrev S16x256x1x64 : Shape := ⟨4, ![16, 256, 1, 64]⟩
abbrev S1x1x64x64 : Shape := ⟨4, ![1, 1, 64, 64]⟩
abbrev S16x256x64x64 : Shape := ⟨4, ![16, 256, 64, 64]⟩
abbrev S16x1x256x64 : Shape := ⟨4, ![16, 1, 256, 64]⟩
abbrev S16x256x256x64 : Shape := ⟨4, ![16, 256, 256, 64]⟩
abbrev S16x256x256 : Shape := ⟨3, ![16, 256, 256]⟩
abbrev S16x256x256x1 : Shape := ⟨4, ![16, 256, 256, 1]⟩

abbrev nBuf : Space → Nat
  | .hbm => 83
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1x1x512, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S2x256x512, .f32⟩
  | .hbm, ⟨10, _⟩ => ⟨S_, .f32⟩
  | .hbm, ⟨11, _⟩ => ⟨S2x256x512, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S2x256x512, .f32⟩
  | .hbm, ⟨16, _⟩ => ⟨S2x256x8x64, .f32⟩
  | .hbm, ⟨17, _⟩ => ⟨S2x8x256x64, .f32⟩
  | .hbm, ⟨18, _⟩ => ⟨S16x256x64, .f32⟩
  | .hbm, ⟨19, _⟩ => ⟨S2x256x512, .f32⟩
  | .hbm, ⟨20, _⟩ => ⟨S_, .f32⟩
  | .hbm, ⟨21, _⟩ => ⟨S2x256x512, .f32⟩
  | .hbm, ⟨22, _⟩ => ⟨S2x256x512, .f32⟩
  | .hbm, ⟨23, _⟩ => ⟨S2x256x512, .f32⟩
  | .hbm, ⟨24, _⟩ => ⟨S2x256x512, .f32⟩
  | .hbm, ⟨25, _⟩ => ⟨S2x256x512, .f32⟩
  | .hbm, ⟨26, _⟩ => ⟨S2x256x8x64, .f32⟩
  | .hbm, ⟨27, _⟩ => ⟨S2x8x256x64, .f32⟩
  | .hbm, ⟨28, _⟩ => ⟨S16x256x64, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S2x256x512, .f32⟩
  | .hbm, ⟨35, _⟩ => ⟨S2x256x512, .f32⟩
  | .hbm, ⟨36, _⟩ => ⟨S2x256x8x64, .f32⟩
  | .hbm, ⟨37, _⟩ => ⟨S2x8x256x64, .f32⟩
  | .hbm, ⟨38, _⟩ => ⟨S16x256x64, .f32⟩
  | .hbm, ⟨39, _⟩ => ⟨S16x256x1x64, .f32⟩
  | .hbm, ⟨40, _⟩ => ⟨S1x1x64x64, .f32⟩
  | .hbm, ⟨41, _⟩ => ⟨S16x256x64x64, .f32⟩
  | .hbm, ⟨42, _⟩ => ⟨S16x256x64x64, .f32⟩
  | .hbm, ⟨43, _⟩ => ⟨S16x256x64x64, .f32⟩
  | .hbm, ⟨44, _⟩ => ⟨S_, .f32⟩
  | .hbm, ⟨45, _⟩ => ⟨S16x256x64, .f32⟩
  | .hbm, ⟨46, _⟩ => ⟨S16x256x1x64, .f32⟩
  | .hbm, ⟨47, _⟩ => ⟨S1x1x64x64, .f32⟩
  | .hbm, ⟨48, _⟩ => ⟨S16x256x64x64, .f32⟩
  | .hbm, ⟨49, _⟩ => ⟨S16x256x64x64, .f32⟩
  | .hbm, ⟨50, _⟩ => ⟨S16x256x64x64, .f32⟩
  | .hbm, ⟨51, _⟩ => ⟨S_, .f32⟩
  | .hbm, ⟨52, _⟩ => ⟨S16x256x64, .f32⟩
  | .hbm, ⟨53, _⟩ => ⟨S16x256x1x64, .f32⟩
  | .hbm, ⟨54, _⟩ => ⟨S1x1x64x64, .f32⟩
  | .hbm, ⟨55, _⟩ => ⟨S16x256x64x64, .f32⟩
  | .hbm, ⟨56, _⟩ => ⟨S16x256x64x64, .f32⟩
  | .hbm, ⟨57, _⟩ => ⟨S16x256x64x64, .f32⟩
  | .hbm, ⟨58, _⟩ => ⟨S_, .f32⟩
  | .hbm, ⟨59, _⟩ => ⟨S16x256x64, .f32⟩
  | .hbm, ⟨60, _⟩ => ⟨S16x256x1x64, .f32⟩
  | .hbm, ⟨61, _⟩ => ⟨S16x1x256x64, .f32⟩
  | .hbm, ⟨62, _⟩ => ⟨S16x256x256x64, .f32⟩
  | .hbm, ⟨63, _⟩ => ⟨S16x256x256x64, .f32⟩
  | .hbm, ⟨64, _⟩ => ⟨S16x256x256x64, .f32⟩
  | .hbm, ⟨65, _⟩ => ⟨S_, .f32⟩
  | .hbm, ⟨66, _⟩ => ⟨S16x256x256, .f32⟩
  | .hbm, ⟨67, _⟩ => ⟨S_, .f32⟩
  | .hbm, ⟨68, _⟩ => ⟨S16x256x256, .f32⟩
  | .hbm, ⟨69, _⟩ => ⟨S16x256x256, .f32⟩
  | .hbm, ⟨70, _⟩ => ⟨S16x256x256, .f32⟩
  | .hbm, ⟨71, _⟩ => ⟨S16x256x256x1, .f32⟩
  | .hbm, ⟨72, _⟩ => ⟨S16x1x256x64, .f32⟩
  | .hbm, ⟨73, _⟩ => ⟨S16x256x256x64, .f32⟩
  | .hbm, ⟨74, _⟩ => ⟨S16x256x256x64, .f32⟩
  | .hbm, ⟨75, _⟩ => ⟨S16x256x256x64, .f32⟩
  | .hbm, ⟨76, _⟩ => ⟨S_, .f32⟩
  | .hbm, ⟨77, _⟩ => ⟨S16x256x64, .f32⟩
  | .hbm, ⟨78, _⟩ => ⟨S2x8x256x64, .f32⟩
  | .hbm, ⟨79, _⟩ => ⟨S2x256x8x64, .f32⟩
  | .hbm, ⟨80, _⟩ => ⟨S2x256x512, .f32⟩
  | .hbm, ⟨81, _⟩ => ⟨S2x256x512, .f32⟩
  | .hbm, ⟨82, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  bcast_S_S2x256x512 : S_.BroadcastsInDim S2x256x512 (![] : Fin 0 → Fin S2x256x512.rank)
  bcast_S1x1x512_S2x256x512_0_1_2 : S1x1x512.BroadcastsInDim S2x256x512 (![0, 1, 2] : Fin 3 → Fin S2x256x512.rank)
  shapeCasts_S2x256x512_S2x256x8x64 : S2x256x512.ShapeCasts S2x256x8x64
  transposes_S2x256x8x64_S2x8x256x64_0_2_1_3 : S2x256x8x64.Transposes [0, 2, 1, 3] S2x8x256x64
  shapeCasts_S2x8x256x64_S16x256x64 : S2x8x256x64.ShapeCasts S16x256x64
  bcast_S16x256x64_S16x256x1x64_0_1_3 : S16x256x64.BroadcastsInDim S16x256x1x64 (![0, 1, 3] : Fin 3 → Fin S16x256x1x64.rank)
  bcast_S64x64_S1x1x64x64_2_3 : S64x64.BroadcastsInDim S1x1x64x64 (![2, 3] : Fin 2 → Fin S1x1x64x64.rank)
  bcast_S16x256x1x64_S16x256x64x64_0_1_2_3 : S16x256x1x64.BroadcastsInDim S16x256x64x64 (![0, 1, 2, 3] : Fin 4 → Fin S16x256x64x64.rank)
  bcast_S1x1x64x64_S16x256x64x64_0_1_2_3 : S1x1x64x64.BroadcastsInDim S16x256x64x64 (![0, 1, 2, 3] : Fin 4 → Fin S16x256x64x64.rank)
  reducesTo_S16x256x64x64_S16x256x64_d3 : S16x256x64x64.ReducesTo [3] S16x256x64
  h_S_ : 0 < S_.numel
  bcast_S16x256x64_S16x1x256x64_0_2_3 : S16x256x64.BroadcastsInDim S16x1x256x64 (![0, 2, 3] : Fin 3 → Fin S16x1x256x64.rank)
  bcast_S16x256x1x64_S16x256x256x64_0_1_2_3 : S16x256x1x64.BroadcastsInDim S16x256x256x64 (![0, 1, 2, 3] : Fin 4 → Fin S16x256x256x64.rank)
  bcast_S16x1x256x64_S16x256x256x64_0_1_2_3 : S16x1x256x64.BroadcastsInDim S16x256x256x64 (![0, 1, 2, 3] : Fin 4 → Fin S16x256x256x64.rank)
  reducesTo_S16x256x256x64_S16x256x256_d3 : S16x256x256x64.ReducesTo [3] S16x256x256
  bcast_S16x256x256_S16x256x256x1_0_1_2 : S16x256x256.BroadcastsInDim S16x256x256x1 (![0, 1, 2] : Fin 3 → Fin S16x256x256x1.rank)
  bcast_S16x256x256x1_S16x256x256x64_0_1_2_3 : S16x256x256x1.BroadcastsInDim S16x256x256x64 (![0, 1, 2, 3] : Fin 4 → Fin S16x256x256x64.rank)
  reducesTo_S16x256x256x64_S16x256x64_d2 : S16x256x256x64.ReducesTo [2] S16x256x64
  shapeCasts_S16x256x64_S2x8x256x64 : S16x256x64.ShapeCasts S2x8x256x64
  transposes_S2x8x256x64_S2x256x8x64_0_2_1_3 : S2x8x256x64.Transposes [0, 2, 1, 3] S2x256x8x64
  shapeCasts_S2x256x8x64_S2x256x512 : S2x256x8x64.ShapeCasts S2x256x512
  dot_S2x256x512_S512x512_S2x256x512_2_1_01_0_n_n_wf : DotDims.WF S2x256x512 S512x512 S2x256x512 [2] [1] [0, 1] [0] [] []

variable [Facts₀]

def dot_S2x256x512_S512x512_S2x256x512_2_1_01_0_n_n : DotDims S2x256x512 S512x512 S2x256x512 where
  lhsContracting := [2]
  rhsContracting := [1]
  lhsNonContracting := [0, 1]
  rhsNonContracting := [0]
  lhsBatch := []
  rhsBatch := []
  wf := dot_S2x256x512_S512x512_S2x256x512_2_1_01_0_n_n_wf

class Facts : Prop extends Facts₀ where

variable [Facts]
-- ==== Proof.Kernel.R0.lean ====
/-
  Region 0 of the idealized kernel program: the first projection call, at a parameter `V` (the buffer
  contents when the region is entered). A grid point `b` (a batch) reads the block `x[b]` (256×512),
  the whole weight matrix and the whole row `lam`, and writes the block `log1p(max(x[b]·Wᵀ, 0)) - lam`.
  Here: the blocks, what the body leaves in the output's buffer (one store covering it), the body's
  triple, the pipeline's proof data and the body obligation at every point.
-/
import proofs.«421917_j23888608101009_3_alg».proof.Proof.Gen.Kernel.Launch
import proofs.«421917_j23888608101009_3_alg».proof.Proof.Gen.Kernel.Skeleton
import proofs.«421917_j23888608101009_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1x256x512 := Rect.unit (s := S1x256x512) ![0, 0, 0] S1x256x512.size inb_S1x256x512_S1x256x512_0_0_0
abbrev r0_w : Rect S512x512 := Rect.unit (s := S512x512) ![0, 0] S512x512.size inb_S512x512_S512x512_0_0
abbrev r0_l : Rect S1x512 := Rect.unit (s := S1x512) ![0, 0] S1x512.size inb_S1x512_S1x512_0_0

/-- The output's staging buffer after the body, from the input blocks: its one store. -/
def out0_3 (x0 : Vec F S1x256x512 .f32) (x1 : Vec F S512x512 .f32) (x2 : Vec F S1x512 .f32) : Vec F S1x256x512 .f32 :=
  View.canon [⟨r0_x, k0_pay1 (View.ld x0 r0_x) (View.ld x1 r0_w) (View.ld x2 r0_l)⟩]

theorem cover0_3 (p0 : Vec F S1x256x512 .f32) (y : S1x256x512.Idx) :
    ∃ pc ∈ ([⟨r0_x, p0⟩] : List (View.Piece (Elt F) S1x256x512 .f32)), y ∈ pc.1.set :=
  View.cover_of_tiled [⟨r0_x, p0⟩] S1x256x512.size (by rfl) y

set_option maxHeartbeats 1000000 in
/-- The body on whole staging memrefs, the inputs' at `x0 x1 x2` and the output's at anything, runs to the
    continuation holding the inputs' as they were and the output's at `out0_3` of the inputs'. -/
theorem sound_kernel0 (c : Dev nD) (E : Set ℕ) (i : grid0.Coords)
    (arg1 : Memref sig .tc .vmem S1x256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x256x512 .f32) (harg4 : arg4.IsWhole)
    (x0 : Vec F S1x256x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.Kernel.R1.lean ====
/-
  Region 1 of the idealized kernel program: the second projection call, at a parameter `V` (the buffer
  contents when the region is entered). A grid point `b` (a batch) reads the block `x[b]` (256×512),
  the whole weight matrix and the whole row `lam`, and writes the block `log1p(max(x[b]·Wᵀ, 0)) - lam`.
  Here: the blocks, what the body leaves in the output's buffer (one store covering it), the body's
  triple, the pipeline's proof data and the body obligation at every point.
-/
import proofs.«421917_j23888608101009_3_alg».proof.Proof.Gen.Kernel.Launch
import proofs.«421917_j23888608101009_3_alg».proof.Proof.Gen.Kernel.Skeleton
import proofs.«421917_j23888608101009_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1x256x512 := Rect.unit (s := S1x256x512) ![0, 0, 0] S1x256x512.size inb_S1x256x512_S1x256x512_0_0_0
abbrev r1_w : Rect S512x512 := Rect.unit (s := S512x512) ![0, 0] S512x512.size inb_S512x512_S512x512_0_0
abbrev r1_l : Rect S1x512 := Rect.unit (s := S1x512) ![0, 0] S1x512.size inb_S1x512_S1x512_0_0

/-- The output's staging buffer after the body, from the input blocks: its one store. -/
def out1_3 (x0 : Vec F S1x256x512 .f32) (x1 : Vec F S512x512 .f32) (x2 : Vec F S1x512 .f32) : Vec F S1x256x512 .f32 :=
  View.canon [⟨r1_x, k1_pay1 (View.ld x0 r1_x) (View.ld x1 r1_w) (View.ld x2 r1_l)⟩]

theorem cover1_3 (p0 : Vec F S1x256x512 .f32) (y : S1x256x512.Idx) :
    ∃ pc ∈ ([⟨r1_x, p0⟩] : List (View.Piece (Elt F) S1x256x512 .f32)), y ∈ pc.1.set :=
  View.cover_of_tiled [⟨r1_x, p0⟩] S1x256x512.size (by rfl) y

set_option maxHeartbeats 1000000 in
/-- The body on whole staging memrefs, the inputs' at `x0 x1 x2` and the output's at anything, runs to the
    continuation holding the inputs' as they were and the output's at `out1_3` of the inputs'. -/
theorem sound_kernel1 (c : Dev nD) (E : Set ℕ) (i : grid1.Coords)
    (arg1 : Memref sig .tc .vmem S1x256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x256x512 .f32) (harg4 : arg4.IsWhole)
    (x0 : Vec F S1x256x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.Kernel.R2.lean ====
/-
  Region 2 of the idealized kernel program: the third projection call, at a parameter `V` (the buffer
  contents when the region is entered). A grid point `b` (a batch) reads the block `x[b]` (256×512),
  the whole weight matrix and the whole row `lam`, and writes the block `log1p(max(x[b]·Wᵀ, 0)) - lam`.
  Here: the blocks, what the body leaves in the output's buffer (one store covering it), the body's
  triple, the pipeline's proof data and the body obligation at every point.
-/
import proofs.«421917_j23888608101009_3_alg».proof.Proof.Gen.Kernel.Launch
import proofs.«421917_j23888608101009_3_alg».proof.Proof.Gen.Kernel.Skeleton
import proofs.«421917_j23888608101009_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1x256x512 := Rect.unit (s := S1x256x512) ![0, 0, 0] S1x256x512.size inb_S1x256x512_S1x256x512_0_0_0
abbrev r2_w : Rect S512x512 := Rect.unit (s := S512x512) ![0, 0] S512x512.size inb_S512x512_S512x512_0_0
abbrev r2_l : Rect S1x512 := Rect.unit (s := S1x512) ![0, 0] S1x512.size inb_S1x512_S1x512_0_0

/-- The output's staging buffer after the body, from the input blocks: its one store. -/
def out2_3 (x0 : Vec F S1x256x512 .f32) (x1 : Vec F S512x512 .f32) (x2 : Vec F S1x512 .f32) : Vec F S1x256x512 .f32 :=
  View.canon [⟨r2_x, k2_pay1 (View.ld x0 r2_x) (View.ld x1 r2_w) (View.ld x2 r2_l)⟩]

theorem cover2_3 (p0 : Vec F S1x256x512 .f32) (y : S1x256x512.Idx) :
    ∃ pc ∈ ([⟨r2_x, p0⟩] : List (View.Piece (Elt F) S1x256x512 .f32)), y ∈ pc.1.set :=
  View.cover_of_tiled [⟨r2_x, p0⟩] S1x256x512.size (by rfl) y

set_option maxHeartbeats 1000000 in
/-- The body on whole staging memrefs, the inputs' at `x0 x1 x2` and the output's at anything, runs to the
    continuation holding the inputs' as they were and the output's at `out2_3` of the inputs'. -/
theorem sound_kernel2 (c : Dev nD) (E : Set ℕ) (i : grid2.Coords)
    (arg1 : Memref sig .tc .vmem S1x256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x256x512 .f32) (harg4 : arg4.IsWhole)
    (x0 : Vec F S1x256x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.Kernel.R3Chain.lean ====
/-
  The tropical attention kernel's arithmetic, as the chains of the body's pure pieces (generic in the
  float instance). The body computes, in a straight line of 64 unrolled steps each, three running maxima
  (the tropical linear maps of the query block, of a 128-row key block and of a 128-row value block) and,
  per key block, a running maximum and a running minimum of `q[i,d] - k[j,d]` over `d`; the score block is
  `0 - (max - min)`; the context is a running maximum over the key blocks of `max_j (score[i,j] + v[j,d])`.
-/
import proofs.«421917_j23888608101009_3_alg».proof.Proof.Gen.Kernel.Skeleton

noncomputable section

namespace Cert.Kernel.Frm

open Cert.Kernel Cert.Kernel.Gen
open Idealize.ShloMosaic

variable {F : FTy → Type} [FloatOps F]

/-- The query block (128 rows) under the tropical linear map with `w`: the seven stretches of the running maximum. -/
def tlq (x0 : Vec F S1x128x64 .f32) (w : Vec F S64x64 .f32) : FVec F S128x64 .f32 :=
  let v1 := k3_pay124 x0
  let v3 := k3_pay125 w
  let v106 := k3_pay128 v1 v3 (k3_pay126 x0 w) (k3_pay127 x0 w)
  let v166 := k3_pay130 v1 v3 v106 (k3_pay129 v1 v3)
  let v226 := k3_pay132 v1 v3 v166 (k3_pay131 v1 v3)
  let v286 := k3_pay134 v1 v3 v226 (k3_pay133 v1 v3)
  let v346 := k3_pay136 v1 v3 v286 (k3_pay135 v1 v3)
  k3_pay138 v1 v3 v346 (k3_pay137 v1 v3)

/-- A 128-row key block under the tropical linear map with `w`. -/
def tlk (kb : Vec F S1x128x64 .f32) (w : Vec F S64x64 .f32) : FVec F S128x64 .f32 :=
  let v405 := k3_pay3 kb
  let v409 := k3_pay5 w
  let v512 := k3_pay8 v405 v409 (k3_pay6 w kb) (k3_pay7 kb)
  let v572 := k3_pay10 v405 v409 v512 (k3_pay9 v405)
  let v632 := k3_pay12 v405 v409 v572 (k3_pay11 v405)
  let v692 := k3_pay14 v405 v409 v632 (k3_pay13 v405)
  let v752 := k3_pay16 v405 v409 v692 (k3_pay15 v405)
  k3_pay18 v405 v409 v752 (k3_pay17 v405)

/-- A 128-row value block under the tropical linear map with `w`. -/
def tlv (vb : Vec F S1x128x64 .f32) (w : Vec F S64x64 .f32) : FVec F S128x64 .f32 :=
  let v408 := k3_pay4 vb
  let v799 := k3_pay19 w
  let v866 := k3_pay23 v408 v799 (k3_pay20 w v408) (k3_pay21 v408) (k3_pay22 w)
  let v926 := k3_pay26 v408 v799 v866 (k3_pay24 v408) (k3_pay25 v799)
  let v986 := k3_pay29 v408 v799 v926 (k3_pay27 v408) (k3_pay28 v799)
  let v1046 := k3_pay32 v408 v799 v986 (k3_pay30 v408) (k3_pay31 v799)
  let v1106 := k3_pay35 v408 v799 v1046 (k3_pay33 v408) (k3_pay34 v799)
  let v1166 := k3_pay38 v408 v799 v1106 (k3_pay36 v408) (k3_pay37 v799)
  k3_pay139 v408 v799 v1166 (k3_pay39 v408) (k3_pay40 v799)

/-- What the last stretch of the spread's running maximum and minimum takes: the transposed key block and the
    three carried values. -/
structure Spread (F : FTy → Type) [FloatOps F] where
  kT : FVec F S64x128 .f32
  a : FVec F S128x128 .f32
  b : FVec F S128x128 .f32
  c : FVec F S128x128 .f32

/-- The running maximum and minimum of `q[i,d] - k[j,d]` over `d`, up to the last stretch: `q` the mapped query
    block, `kp` the mapped key block. -/
def spread (q : FVec F S128x64 .f32) (kp : Vec F S128x64 .f32) : Spread F :=
  let v407 := k3_pay41 kp
  let v453 := k3_pay50 kp
  let v454 := k3_pay51 q
  let v513 := k3_pay61 q v407 (k3_pay48 q kp) v453 v454
  let v514 := k3_pay62 q v407 (k3_pay49 q kp) v453 v454
  let v573 := k3_pay73 q
  let v574 := k3_pay74 v407
  let v632 := k3_pay84 q v407 (k3_pay71 q v407 v513) v573 v574
  let v633 := k3_pay85 q v407 (k3_pay72 q v407 v514) v573 v574
  let v634 := k3_pay86 q
  let v694 := k3_pay97 q v407
  let v751 := k3_pay106 q v407 (k3_pay95 q v407 v632 v634) v694
  let v752 := k3_pay107 q v407 (k3_pay96 q v407 v633 v634) v694
  let v753 := k3_pay108 q
  let v754 := k3_pay109 v407
  ⟨v407, k3_pay118 q v407 v752 v753 v754, k3_pay119 q v407, k3_pay120 q v407 v751 v753 v754⟩

/-- The score block of the query block against one key block (128 × 128). -/
def scoreBlk (q : FVec F S128x64 .f32) (kp : Vec F S128x64 .f32) : FVec F S128x128 .f32 :=
  k3_pay121 q (spread q kp).kT (spread q kp).a (spread q kp).b (spread q kp).c

/-- The same as the piece stored into the score window's buffer. -/
def scorePiece (q : FVec F S128x64 .f32) (kp : Vec F S128x64 .f32) : FVec F S1x128x128 .f32 :=
  k3_pay122 q (spread q kp).kT (spread q kp).a (spread q kp).b (spread q kp).c

/-- Scores plus values, before the maximum over the key rows (128 × 128 × 64). -/
def ctxPre (q : FVec F S128x64 .f32) (kp vp : Vec F S128x64 .f32) : FVec F S128x128x64 .f32 :=
  k3_pay123 q vp (spread q kp).kT (spread q kp).a (spread q kp).b (spread q kp).c

/-- The context accumulator after the two key blocks, from its reset. -/
def ctxAcc (q : FVec F S128x64 .f32) (kp0 vp0 kp1 vp1 : Vec F S128x64 .f32) : FVec F S128x64 .f32 :=
  k3_pay1 (ctxPre q kp1 vp1) (k3_pay1 (ctxPre q kp0 vp0) (k3_pay140 (F := F)))

end Cert.Kernel.Frm

end
-- ==== Proof.Kernel.R3.lean ====
/-
  Region 3 of the idealized kernel program: the tropical attention call, at a parameter `V` (the buffer
  contents when the region is entered). A grid point (a head and one of its two 128-row query tiles) reads
  the tile's query block, the head's 256 key rows and 256 value rows and the three 64×64 weight matrices. The
  body maps the query tile by the max-plus linear map, fills two scratch buffers with the mapped key and value
  rows in two 128-row halves, resets a third to -∞, and then, for each 128-row key block, stores that block's
  128×128 scores into its half of the score block and folds the block's max-plus contribution into the third
  scratch buffer, whose contents it finally stores as the context block. The two loops have two trips each
  and are run trip after trip, so what every buffer holds at the end is named: the score block is two pieces,
  the later key block's first; the context block is one piece. A load of a scratch half after both halves were
  stored reads the half's own store.
  Here: the blocks, what the body leaves in the two output buffers as the chains of R3Chain, the body's
  triple, the pipeline's proof data (the three scratch buffers ride in the region's invariant, whole at some
  contents) and the body obligation at every point.
-/
import proofs.«421917_j23888608101009_3_alg».proof.Proof.Gen.Kernel.Launch
import proofs.«421917_j23888608101009_3_alg».proof.Proof.Gen.Kernel.Skeleton
import proofs.«421917_j23888608101009_3_alg».proof.Proof.Gen.Kernel.Points
import proofs.«421917_j23888608101009_3_alg».proof.Proof.Gen.Kernel.Loops
import proofs.«421917_j23888608101009_3_alg».proof.Proof.Kernel.R3Chain
import Idealize.ShloMosaic.Lib.Pipeline.FrameBody
import Idealize.ShloMosaic.Lib.Pipeline.RowLoads
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! The body's rectangles: whole blocks, the two 128-row halves of the key and value blocks and of the two
    row-block scratch buffers, the two 128-column halves of the score block. -/
abbrev r3_q : Rect S1x128x64 := Rect.unit (s := S1x128x64) ![0, 0, 0] S1x128x64.size inb_S1x128x64_S1x128x64_0_0_0
abbrev r3_w : Rect S64x64 := Rect.unit (s := S64x64) ![0, 0] S64x64.size inb_S64x64_S64x64_0_0
abbrev r3_kv0 : Rect S1x256x64 := Rect.unit (s := S1x256x64) ![0, 0, 0] S1x128x64.size (by decide)
abbrev r3_kv1 : Rect S1x256x64 := Rect.unit (s := S1x256x64) ![0, 128, 0] S1x128x64.size (by decide)
abbrev r3_a0 : Rect S1x128x256 := Rect.unit (s := S1x128x256) ![0, 0, 0] S1x128x128.size (by decide)
abbrev r3_a1 : Rect S1x128x256 := Rect.unit (s := S1x128x256) ![0, 0, 128] S1x128x128.size (by decide)

/-- The mapped query block, and the mapped key and value blocks of key block 0 and 1, from the input blocks. -/
def q3 (x0 : Vec F S1x128x64 .f32) (x3 : Vec F S64x64 .f32) : FVec F S128x64 .f32 := tlq (View.ld x0 r3_q) (View.ld x3 r3_w)
def k3_0 (x1 : Vec F S1x256x64 .f32) (x4 : Vec F S64x64 .f32) : FVec F S128x64 .f32 := tlk (View.ld x1 r3_kv0) (View.ld x4 r3_w)
def k3_1 (x1 : Vec F S1x256x64 .f32) (x4 : Vec F S64x64 .f32) : FVec F S128x64 .f32 := tlk (View.ld x1 r3_kv1) (View.ld x4 r3_w)
def v3_0 (x2 : Vec F S1x256x64 .f32) (x5 : Vec F S64x64 .f32) : FVec F S128x64 .f32 := tlv (View.ld x2 r3_kv0) (View.ld x5 r3_w)
def v3_1 (x2 : Vec F S1x256x64 .f32) (x5 : Vec F S64x64 .f32) : FVec F S128x64 .f32 := tlv (View.ld x2 r3_kv1) (View.ld x5 r3_w)

/-- The context window's staging buffer after the body: one store of the accumulator after both key blocks. -/
def out3_6 (x0 : Vec F S1x128x64 .f32) (x1 x2 : Vec F S1x256x64 .f32) (x3 x4 x5 : Vec F S64x64 .f32) : Vec F S1x128x64 .f32 :=
  View.canon [⟨r3_q, k3_pay2 (ctxAcc (q3 x0 x3) (k3_0 x1 x4) (v3_0 x2 x5) (k3_1 x1 x4) (v3_1 x2 x5))⟩]

/-- The score window's staging buffer after the body: the two key blocks' score pieces, the later first. -/
def out3_7 (x0 : Vec F S1x128x64 .f32) (x1 : Vec F S1x256x64 .f32) (x3 x4 : Vec F S64x64 .f32) : Vec F S1x128x256 .f32 :=
  View.canon [⟨r3_a1, scorePiece (q3 x0 x3) (k3_1 x1 x4)⟩, ⟨r3_a0, scorePiece (q3 x0 x3) (k3_0 x1 x4)⟩]

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 3 t) (iblk3 V c 4 t) := by dsimp only [dat3]

theorem cover3_6 (p0 : Vec F S1x128x64 .f32) (y : S1x128x64.Idx) :
    ∃ pc ∈ ([⟨r3_q, p0⟩] : List (View.Piece (Elt F) S1x128x64 .f32)), y ∈ pc.1.set :=
  View.cover_of_tiled [⟨r3_q, p0⟩] S1x128x64.size (by rfl) y

theorem cover3_7 (p1 p0 : Vec F S1x128x128 .f32) (y : S1x128x256.Idx) :
    ∃ pc ∈ ([⟨r3_a1, p1⟩, ⟨r3_a0, p0⟩] : List (View.Piece (Elt F) S1x128x256 .f32)), y ∈ pc.1.set :=
  View.cover_of_tiled [⟨r3_a1, p1⟩, ⟨r3_a0, p0⟩] S1x128x128.size (by rfl) y

/-- Rows 0–127 of a 256-row buffer read back after its two 128-row stores, the later one into rows 128–255: the
    earlier store's payload. -/
theorem readCov_lo {κ : Kind} {sp : Space} (v : View sig κ sp S256x64 .f32) (inb1) (inb0) (inbL)
    (w1 : (Rect.unit (s := S256x64) ![128, 0] S128x64.size inb1).shape.Idx → Elt F .f32)
    (w0 : (Rect.unit (s := S256x64) ![0, 0] S128x64.size inb0).shape.Idx → Elt F .f32) :
    v.readCov [(⟨Rect.unit (s := S256x64) ![128, 0] S128x64.size inb1, w1⟩ : View.Piece (Elt F) S256x64 .f32), ⟨Rect.unit (s := S256x64) ![0, 0] S128x64.size inb0, w0⟩]
        (Rect.unit (s := S256x64) ![0, 0] S128x64.size inbL).toLoadRect = w0 :=
  (View.readCov_cons_of_rows_disjoint (m := 256) (n := 64) (k := 128) (k' := 128) v 128 0 (Or.inr (Nat.le_refl _)) w1 _ inb1 inbL).trans
    (View.readCov_cons_toLoadRect v (Rect.unit (s := S256x64) ![0, 0] S128x64.size inb0) w0 [])

set_option maxHeartbeats 4000000 in
set_option sl_exec.unrollTrips 2 in
/-- The body on whole staging memrefs and whole scratch buffers, the inputs' at `x0 … x5` and the rest at anything,
    runs to the continuation holding the inputs' as they were, the context window's at `out3_6` and the score
    window's at `out3_7` of the inputs', and the three scratch buffers at something. -/
theorem sound_kernel3 (c : Dev nD) (E : Set ℕ) (i : grid3.Coords)
    (arg2 : Memref sig .tc .vmem S1x128x64 .f32) (harg2 : arg2.IsWhole) (arg3 : Memref sig .tc .vmem S1x256x64 .f32) (harg3 : arg3.IsWhole)
    (arg4 : Memref sig .tc .vmem S1x256x64 .f32) (harg4 : arg4.IsWhole) (arg5 : Memref sig .tc .vmem S64x64 .f32) (harg5 : arg5.IsWhole)
    (arg6 : Memref sig .tc .vmem S64x64 .f32) (harg6 : arg6.IsWhole) (arg7 : Memref sig .tc .vmem S64x64 .f32) (harg7 : arg7.IsWhole)
    (arg8 : Memref sig .tc .vmem S1x128x64 .f32) (harg8 : arg8.IsWhole) (arg9 : Memref sig .tc .vmem S1x128x256 .f32) (harg9 : arg9.IsWhole)
    (arg10 : Memref sig .tc .vmem S256x64 .f32) (harg10 : arg10.IsWhole) (arg11 : Memref sig .tc .vmem S256x64 .f32) (harg11 : arg11.IsWhole)
    (arg12 : Memref sig .tc .vmem S128x64 .f32) (harg12 : arg12.IsWhole)
    (x0 : Vec F S1x128x64 .f32) (x1 : Vec F S1x256x64 .f32) (x2 : Vec F S1x256x64 .f32) (x3 : Vec F S64x64 .f32) (x4 : Vec F S64x64 .f32) (x5 : Vec F S64x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out3_6 x0 x1 x2 x3 x4 x5) ∗ owns (c : Thread nD τ) arg9 fullShare (out3_7 x0 x1 x3 x4)
            ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc3__trop_attn_kernel i arg2 harg2 arg3 harg3 arg4 harg4 arg5 harg5 arg6 harg6 arg7 harg7 arg8 harg8 arg9 harg9 arg10 harg10 arg11 harg11 arg12 harg12) K := by
  simp only [cc3__trop_attn_kernel_eq_skeleton]; unfold cc3__trop_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, ⟨%d12, %f12, -, H12⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [View.read_writes_eq_canon _ _ _ (cover3_6 _)]
    unfold out3_6
    refine congrArg (fun z : FVec F S128x64 .f32 => View.canon ([⟨r3_q, k3_pay2 z⟩] : List (View.Piece (Elt F) S1x128x64 .f32))) ?_
    sl_unfold_run_names
    simp only [View.readCov_cons_toLoadRect]
    generalize hk : arg10.view.readCov (Val := Elt F) _ _ = kp
    generalize hv : arg11.view.readCov (Val := Elt F) _ _ = vp
    obtain rfl := hk.symm.trans (readCov_lo _ _ _ _ _ _)
    obtain rfl := hv.symm.trans (readCov_lo _ _ _ _ _ _)
    rfl
  isplitl [H9]
  · iexists _; isplitr
    swap; · iexact H9
    ipureintro
    rw [View.read_writes_eq_canon _ _ _ (cover3_7 _ _)]
    unfold out3_7
    refine congrArg₂ (fun a b => View.canon [⟨r3_a1, a⟩, ⟨r3_a0, b⟩]) ?_ ?_
    · sl_unfold_run_names
      simp only [View.readCov_cons_toLoadRect]
      rfl
    · sl_unfold_run_names
      generalize hk : arg10.view.readCov (Val := Elt F) _ _ = kp
      obtain rfl := hk.symm.trans (readCov_lo _ _ _ _ _ _)
      rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The region's invariant with the kernel's three scratch buffers taken out of the scoped rest, each owned whole at
    some contents. -/
theorem Phi3_eq (c : Dev nD) (t : Fin (cfg3.N + 1)) :
    (dat3 V c).Φ t = iprop((((∃ d, owns (c : Thread nD τ) (Memref.whole cc3_scratch0) fullShare d)
        ∗ (∃ d, owns (c : Thread nD τ) (Memref.whole cc3_scratch1) fullShare d)
        ∗ (∃ d, owns (c : Thread nD τ) (Memref.whole cc3_scratch2) fullShare d))
        ∗ Pipeline.scopedRestBut (Ix := Unit) (Name := ℕ) (U := UR sig nD τ) (Lvl := ℕ) (Val := Elt F) spec3 c [cc3_scratch0, cc3_scratch1, cc3_scratch2])
      ∗ ∃ r, prngReg c r) := by
  show Pipeline.ΦA spec3 c = _
  unfold Pipeline.ΦA
  rw [scopedRest3_split]
  simp only [owns_whole]

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl,
    after3_0, after3_1, after3_2, after3_3, after3_4, after3_5, after3_6, after3_7, Phi3_eq, Phi3_eq]
  iintro ⟨⟨⟨⟨⟨%s0, Hs0⟩, ⟨%s1, Hs1⟩, ⟨%s2, Hs2⟩⟩, Hrest⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [Hs0]; · iexists _; iexact Hs0
  isplitl [Hs1]; · iexists _; iexact Hs1
  isplitl [Hs2]; · iexists _; iexact Hs2
  iintro ⟨H0, H1, H2, H3, H4, H5, H6, H7, Hs0, Hs1, Hs2⟩
  isplitl [Hs0 Hs1 Hs2 Hrest Hr]
  · isplitr [Hr]
    · isplitr [Hrest]
      · isplitl [Hs0]; · iexact Hs0
        isplitl [Hs1]; · iexact Hs1
        iexact Hs2
      · iexact Hrest
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.Kernel.R4.lean ====
/-
  Region 4 of the idealized kernel program: the output projection call, at a parameter `V` (the buffer
  contents when the region is entered). A grid point `b` (a batch) reads the block `x[b]` (256×512) and
  the whole weight matrix, and writes the block `x[b]·Wᵀ` (operands rounded to bf16, accumulated in f32).
  Here: the blocks, what the body leaves in the output's buffer (one store covering it), the body's
  triple, the pipeline's proof data and the body obligation at every point.
-/
import proofs.«421917_j23888608101009_3_alg».proof.Proof.Gen.Kernel.Launch
import proofs.«421917_j23888608101009_3_alg».proof.Proof.Gen.Kernel.Skeleton
import proofs.«421917_j23888608101009_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S1x256x512 := Rect.unit (s := S1x256x512) ![0, 0, 0] S1x256x512.size inb_S1x256x512_S1x256x512_0_0_0
abbrev r4_w : Rect S512x512 := Rect.unit (s := S512x512) ![0, 0] S512x512.size inb_S512x512_S512x512_0_0

/-- The output's staging buffer after the body, from the input blocks: its one store. -/
def out4_2 (x0 : Vec F S1x256x512 .f32) (x1 : Vec F S512x512 .f32) : Vec F S1x256x512 .f32 :=
  View.canon [⟨r4_x, k4_pay1 (View.ld x0 r4_x) (View.ld x1 r4_w)⟩]

theorem cover4_2 (p0 : Vec F S1x256x512 .f32) (y : S1x256x512.Idx) :
    ∃ pc ∈ ([⟨r4_x, p0⟩] : List (View.Piece (Elt F) S1x256x512 .f32)), y ∈ pc.1.set :=
  View.cover_of_tiled [⟨r4_x, p0⟩] S1x256x512.size (by rfl) y

set_option maxHeartbeats 1000000 in
/-- The body on whole staging memrefs, the inputs' at `x0 x1` and the output's at anything, runs to the
    continuation holding the inputs' as they were and the output's at `out4_2` of the inputs'. -/
theorem sound_kernel4 (c : Dev nD) (E : Set ℕ) (i : grid4.Coords)
    (arg1 : Memref sig .tc .vmem S1x256x512 .f32) (harg1 : arg1.IsWhole) (arg2 : Memref sig .tc .vmem S512x512 .f32) (harg2 : arg2.IsWhole)
    (arg3 : Memref sig .tc .vmem S1x256x512 .f32) (harg3 : arg3.IsWhole)
    (x0 : Vec F S1x256x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__out_kernel i arg1 harg1 arg2 harg2 arg3 harg3) K := by
  simp only [cc4__out_kernel_eq_skeleton]; unfold cc4__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core `c`: the arrays as the region finds them; after the body at point `t`
    each input's buffer at its block and the output's at `out4_2` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.Kernel.Run.lean ====
/-
  The run of the idealized kernel program: its eight segments from the launch to the return. A host stretch
  of one operation, the three projection regions, a host stretch of nine operations (the heads split off),
  the attention region, a host stretch of four operations (the heads merged, `expm1`), the output projection.
  Here: the buffer contents at every segment boundary as a fold from the launch memory (a host stretch's
  `StableHlo.after`; a region's arrays at what its write-backs leave, every other buffer as entered), each
  argument array read back through the fold to its launch contents, every pipeline's proof data at its
  region's entry contents, a segment record per region over the thread state "every unscoped buffer at the
  boundary's contents, the generator register at some state, nothing owed", and the launch over the segments:
  every weakly fair execution terminates and every final memory holds each unscoped buffer at the last
  boundary's contents; the arguments, in particular, as launched.
-/
import proofs.«421917_j23888608101009_3_alg».proof.Proof.Gen.Kernel.Regions
import proofs.«421917_j23888608101009_3_alg».proof.Proof.Kernel.R0
import proofs.«421917_j23888608101009_3_alg».proof.Proof.Kernel.R1
import proofs.«421917_j23888608101009_3_alg».proof.Proof.Kernel.R2
import proofs.«421917_j23888608101009_3_alg».proof.Proof.Kernel.R3
import proofs.«421917_j23888608101009_3_alg».proof.Proof.Kernel.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 (m : (ℓ : Loc nD τ sig) → Buf (Elt F) ℓ) (ρ : Dev nD → PrngReg) : Dev nD → Valuation τ sig (Elt F) := fun c b => m (c, b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: no write-back lands in it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references (region 0's exit contents, region 1's entry). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves region 1 as it entered: no write-back lands in it. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- The same read at the TensorCore's references (region 1's exit contents, region 2's entry). -/
abbrev V3 : (c : Dev nD) → (b : Ref sig .tc) → Buf (Elt F) ((c : Thread nD τ).loc b) := fun c b => W3 m ρ c b
/-- At region 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves region 2 as it entered: no write-back lands in it. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch `hostOps3` (region 3's entry). -/
abbrev W5 : Dev nD → Valuation τ sig (Elt F) := fun c => StableHlo.after hostOps3 (W4 m ρ c)
/-- The same read at the TensorCore's references (what region 3's proof data take). -/
abbrev V5 : (c : Dev nD) → (b : Ref sig .tc) → Buf (Elt F) ((c : Thread nD τ).loc b) := fun c b => W5 m ρ c b

/-- At region 3's exit: its arrays at what the pipeline leaves (the inputs as entered, each output's write-backs
    folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input window's array leaves region 3 as it entered: no write-back lands in it. -/
theorem W6_in (c : Dev nD) (w : Fin cfg3.W) (hin : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hin _).trans (A_eq3 (V5 m ρ) c w))
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves, and every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4` (region 4's entry). -/
abbrev W7 : Dev nD → Valuation τ sig (Elt F) := fun c => StableHlo.after hostOps4 (W6 m ρ c)
/-- The same read at the TensorCore's references (what region 4's proof data take). -/
abbrev V7 : (c : Dev nD) → (b : Ref sig .tc) → Buf (Elt F) ((c : Thread nD τ).loc b) := fun c b => W7 m ρ c b

/-- At region 4's exit: its arrays at what the pipeline leaves (the inputs as entered, each output's write-backs
    folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- An input window's array leaves region 4 as it entered: no write-back lands in it. -/
theorem W8_in (c : Dev nD) (w : Fin cfg4.W) (hin : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hin _).trans (A_eq4 (V7 m ρ) c w))
/-- The same read at the TensorCore's references (region 4's exit contents: the last boundary). -/
abbrev V8 : (c : Dev nD) → (b : Ref sig .tc) → Buf (Elt F) ((c : Thread nD τ).loc b) := fun c b => W8 m ρ c b
/-- At region 4's exit each of its arrays holds what the pipeline leaves, and every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-! ### The arguments end as launched: no host operation writes one, and a region reads it through an input
    window or does not touch it, so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps4 _ hostOps4_writes (by decide)
    _ = W5 m ρ c (Proc.devRef .tc main_arg0) := W6_of_ne m ρ c main_arg0 (by decide)
    _ = W4 m ρ c (Proc.devRef .tc main_arg0) := StableHlo.after_of_writes_sub hostOps3 _ hostOps3_writes (by decide)
    _ = W3 m ρ c (Proc.devRef .tc main_arg0) := W4_in m ρ c 0 rfl
    _ = W2 m ρ c (Proc.devRef .tc main_arg0) := W3_in m ρ c 0 rfl
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps4 _ hostOps4_writes (by decide)
    _ = W5 m ρ c (Proc.devRef .tc main_arg1) := W6_of_ne m ρ c main_arg1 (by decide)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 1 rfl
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_in m ρ c 1 rfl
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps4 _ hostOps4_writes (by decide)
    _ = W5 m ρ c (Proc.devRef .tc main_arg3) := W6_of_ne m ρ c main_arg3 (by decide)
    _ = W4 m ρ c (Proc.devRef .tc main_arg3) := StableHlo.after_of_writes_sub hostOps3 _ hostOps3_writes (by decide)
    _ = W3 m ρ c (Proc.devRef .tc main_arg3) := W4_in m ρ c 1 rfl
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_in m ρ c 1 rfl
    _ = W6 m ρ c (Proc.devRef .tc main_arg4) := StableHlo.after_of_writes_sub hostOps4 _ hostOps4_writes (by decide)
    _ = W5 m ρ c (Proc.devRef .tc main_arg4) := W6_of_ne m ρ c main_arg4 (by decide)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps4 _ hostOps4_writes (by decide)
    _ = W5 m ρ c (Proc.devRef .tc main_arg5) := W6_of_ne m ρ c main_arg5 (by decide)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps4 _ hostOps4_writes (by decide)
    _ = W5 m ρ c (Proc.devRef .tc main_arg6) := W6_in m ρ c 3 rfl
    _ = W4 m ρ c (Proc.devRef .tc main_arg6) := StableHlo.after_of_writes_sub hostOps3 _ hostOps3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps4 _ hostOps4_writes (by decide)
    _ = W5 m ρ c (Proc.devRef .tc main_arg7) := W6_in m ρ c 4 rfl
    _ = W4 m ρ c (Proc.devRef .tc main_arg7) := StableHlo.after_of_writes_sub hostOps3 _ hostOps3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps4 _ hostOps4_writes (by decide)
    _ = W5 m ρ c (Proc.devRef .tc main_arg8) := W6_in m ρ c 5 rfl
    _ = W4 m ρ c (Proc.devRef .tc main_arg8) := StableHlo.after_of_writes_sub hostOps3 _ hostOps3_writes (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments

Each is entered from every unscoped buffer at its entry contents and left at its exit contents. Its arrays are
split out of the unscoped buffers and put back at the exit contents; the generator register goes into the class
invariant and comes out; nothing is owed; the kernel has no semaphore of its own. -/

set_option backward.isDefEq.respectTransparency.types false in
/-- Region 0 over the thread state: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered at `W5`, left at `W6`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered at `W7`, left at `W8`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: the program runs (terminates, no fault) and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_main m ρ)

end Cert.Kernel.Frm

end
-- ==== Proof.KernelIdeal.R0.lean ====
/-
  Region 0 of the idealized kernel program: the first projection call, at a parameter `V` (the buffer
  contents when the region is entered). A grid point `b` (a batch) reads the block `x[b]` (256×512),
  the whole weight matrix and the whole row `lam`, and writes the block `log1p(max(x[b]·Wᵀ, 0)) - lam`.
  Here: the blocks, what the body leaves in the output's buffer (one store covering it), the body's
  triple, the pipeline's proof data and the body obligation at every point.
-/
import proofs.«421917_j23888608101009_3_alg».proof.Proof.Gen.KernelIdeal.Launch
import proofs.«421917_j23888608101009_3_alg».proof.Proof.Gen.KernelIdeal.Skeleton
import proofs.«421917_j23888608101009_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S1x256x512 := Rect.unit (s := S1x256x512) ![0, 0, 0] S1x256x512.size inb_S1x256x512_S1x256x512_0_0_0
abbrev r0_w : Rect S512x512 := Rect.unit (s := S512x512) ![0, 0] S512x512.size inb_S512x512_S512x512_0_0
abbrev r0_l : Rect S1x512 := Rect.unit (s := S1x512) ![0, 0] S1x512.size inb_S1x512_S1x512_0_0

/-- The output's staging buffer after the body, from the input blocks: its one store. -/
def out0_3 (x0 : Vec F S1x256x512 .f32) (x1 : Vec F S512x512 .f32) (x2 : Vec F S1x512 .f32) : Vec F S1x256x512 .f32 :=
  View.canon [⟨r0_x, k0_pay1 (View.ld x0 r0_x) (View.ld x1 r0_w) (View.ld x2 r0_l)⟩]

theorem cover0_3 (p0 : Vec F S1x256x512 .f32) (y : S1x256x512.Idx) :
    ∃ pc ∈ ([⟨r0_x, p0⟩] : List (View.Piece (Elt F) S1x256x512 .f32)), y ∈ pc.1.set :=
  View.cover_of_tiled [⟨r0_x, p0⟩] S1x256x512.size (by rfl) y

set_option maxHeartbeats 1000000 in
/-- The body on whole staging memrefs, the inputs' at `x0 x1 x2` and the output's at anything, runs to the
    continuation holding the inputs' as they were and the output's at `out0_3` of the inputs'. -/
theorem sound_kernel0 (c : Dev nD) (E : Set ℕ) (i : grid0.Coords)
    (arg1 : Memref sig .tc .vmem S1x256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x256x512 .f32) (harg4 : arg4.IsWhole)
    (x0 : Vec F S1x256x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t`
    each input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdeal.R1.lean ====
/-
  Region 1 of the idealized kernel program: the second projection call, at a parameter `V` (the buffer
  contents when the region is entered). A grid point `b` (a batch) reads the block `x[b]` (256×512),
  the whole weight matrix and the whole row `lam`, and writes the block `log1p(max(x[b]·Wᵀ, 0)) - lam`.
  Here: the blocks, what the body leaves in the output's buffer (one store covering it), the body's
  triple, the pipeline's proof data and the body obligation at every point.
-/
import proofs.«421917_j23888608101009_3_alg».proof.Proof.Gen.KernelIdeal.Launch
import proofs.«421917_j23888608101009_3_alg».proof.Proof.Gen.KernelIdeal.Skeleton
import proofs.«421917_j23888608101009_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1x256x512 := Rect.unit (s := S1x256x512) ![0, 0, 0] S1x256x512.size inb_S1x256x512_S1x256x512_0_0_0
abbrev r1_w : Rect S512x512 := Rect.unit (s := S512x512) ![0, 0] S512x512.size inb_S512x512_S512x512_0_0
abbrev r1_l : Rect S1x512 := Rect.unit (s := S1x512) ![0, 0] S1x512.size inb_S1x512_S1x512_0_0

/-- The output's staging buffer after the body, from the input blocks: its one store. -/
def out1_3 (x0 : Vec F S1x256x512 .f32) (x1 : Vec F S512x512 .f32) (x2 : Vec F S1x512 .f32) : Vec F S1x256x512 .f32 :=
  View.canon [⟨r1_x, k1_pay1 (View.ld x0 r1_x) (View.ld x1 r1_w) (View.ld x2 r1_l)⟩]

theorem cover1_3 (p0 : Vec F S1x256x512 .f32) (y : S1x256x512.Idx) :
    ∃ pc ∈ ([⟨r1_x, p0⟩] : List (View.Piece (Elt F) S1x256x512 .f32)), y ∈ pc.1.set :=
  View.cover_of_tiled [⟨r1_x, p0⟩] S1x256x512.size (by rfl) y

set_option maxHeartbeats 1000000 in
/-- The body on whole staging memrefs, the inputs' at `x0 x1 x2` and the output's at anything, runs to the
    continuation holding the inputs' as they were and the output's at `out1_3` of the inputs'. -/
theorem sound_kernel1 (c : Dev nD) (E : Set ℕ) (i : grid1.Coords)
    (arg1 : Memref sig .tc .vmem S1x256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x256x512 .f32) (harg4 : arg4.IsWhole)
    (x0 : Vec F S1x256x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t`
    each input's buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KernelIdeal.R2.lean ====
/-
  Region 2 of the idealized kernel program: the third projection call, at a parameter `V` (the buffer
  contents when the region is entered). A grid point `b` (a batch) reads the block `x[b]` (256×512),
  the whole weight matrix and the whole row `lam`, and writes the block `log1p(max(x[b]·Wᵀ, 0)) - lam`.
  Here: the blocks, what the body leaves in the output's buffer (one store covering it), the body's
  triple, the pipeline's proof data and the body obligation at every point.
-/
import proofs.«421917_j23888608101009_3_alg».proof.Proof.Gen.KernelIdeal.Launch
import proofs.«421917_j23888608101009_3_alg».proof.Proof.Gen.KernelIdeal.Skeleton
import proofs.«421917_j23888608101009_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1x256x512 := Rect.unit (s := S1x256x512) ![0, 0, 0] S1x256x512.size inb_S1x256x512_S1x256x512_0_0_0
abbrev r2_w : Rect S512x512 := Rect.unit (s := S512x512) ![0, 0] S512x512.size inb_S512x512_S512x512_0_0
abbrev r2_l : Rect S1x512 := Rect.unit (s := S1x512) ![0, 0] S1x512.size inb_S1x512_S1x512_0_0

/-- The output's staging buffer after the body, from the input blocks: its one store. -/
def out2_3 (x0 : Vec F S1x256x512 .f32) (x1 : Vec F S512x512 .f32) (x2 : Vec F S1x512 .f32) : Vec F S1x256x512 .f32 :=
  View.canon [⟨r2_x, k2_pay1 (View.ld x0 r2_x) (View.ld x1 r2_w) (View.ld x2 r2_l)⟩]

theorem cover2_3 (p0 : Vec F S1x256x512 .f32) (y : S1x256x512.Idx) :
    ∃ pc ∈ ([⟨r2_x, p0⟩] : List (View.Piece (Elt F) S1x256x512 .f32)), y ∈ pc.1.set :=
  View.cover_of_tiled [⟨r2_x, p0⟩] S1x256x512.size (by rfl) y

set_option maxHeartbeats 1000000 in
/-- The body on whole staging memrefs, the inputs' at `x0 x1 x2` and the output's at anything, runs to the
    continuation holding the inputs' as they were and the output's at `out2_3` of the inputs'. -/
theorem sound_kernel2 (c : Dev nD) (E : Set ℕ) (i : grid2.Coords)
    (arg1 : Memref sig .tc .vmem S1x256x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1x256x512 .f32) (harg4 : arg4.IsWhole)
    (x0 : Vec F S1x256x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__proj_kernel i arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t`
    each input's buffer at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KernelIdeal.R3Chain.lean ====
/-
  The tropical attention kernel's arithmetic, as the chains of the body's pure pieces (generic in the
  float instance). The body computes, in a straight line of 64 unrolled steps each, three running maxima
  (the tropical linear maps of the query block, of a 128-row key block and of a 128-row value block) and,
  per key block, a running maximum and a running minimum of `q[i,d] - k[j,d]` over `d`; the score block is
  `0 - (max - min)`; the context is a running maximum over the key blocks of `max_j (score[i,j] + v[j,d])`.
-/
import proofs.«421917_j23888608101009_3_alg».proof.Proof.Gen.KernelIdeal.Skeleton

noncomputable section

namespace Cert.KernelIdeal.Frm

open Cert.KernelIdeal Cert.KernelIdeal.Gen
open Idealize.ShloMosaic

variable {F : FTy → Type} [FloatOps F]

/-- The query block (128 rows) under the tropical linear map with `w`: the seven stretches of the running maximum. -/
def tlq (x0 : Vec F S1x128x64 .f32) (w : Vec F S64x64 .f32) : FVec F S128x64 .f32 :=
  let v1 := k3_pay124 x0
  let v3 := k3_pay125 w
  let v106 := k3_pay128 v1 v3 (k3_pay126 x0 w) (k3_pay127 x0 w)
  let v166 := k3_pay130 v1 v3 v106 (k3_pay129 v1 v3)
  let v226 := k3_pay132 v1 v3 v166 (k3_pay131 v1 v3)
  let v286 := k3_pay134 v1 v3 v226 (k3_pay133 v1 v3)
  let v346 := k3_pay136 v1 v3 v286 (k3_pay135 v1 v3)
  k3_pay138 v1 v3 v346 (k3_pay137 v1 v3)

/-- A 128-row key block under the tropical linear map with `w`. -/
def tlk (kb : Vec F S1x128x64 .f32) (w : Vec F S64x64 .f32) : FVec F S128x64 .f32 :=
  let v405 := k3_pay3 kb
  let v409 := k3_pay5 w
  let v512 := k3_pay8 v405 v409 (k3_pay6 w kb) (k3_pay7 kb)
  let v572 := k3_pay10 v405 v409 v512 (k3_pay9 v405)
  let v632 := k3_pay12 v405 v409 v572 (k3_pay11 v405)
  let v692 := k3_pay14 v405 v409 v632 (k3_pay13 v405)
  let v752 := k3_pay16 v405 v409 v692 (k3_pay15 v405)
  k3_pay18 v405 v409 v752 (k3_pay17 v405)

/-- A 128-row value block under the tropical linear map with `w`. -/
def tlv (vb : Vec F S1x128x64 .f32) (w : Vec F S64x64 .f32) : FVec F S128x64 .f32 :=
  let v408 := k3_pay4 vb
  let v799 := k3_pay19 w
  let v866 := k3_pay23 v408 v799 (k3_pay20 w v408) (k3_pay21 v408) (k3_pay22 w)
  let v926 := k3_pay26 v408 v799 v866 (k3_pay24 v408) (k3_pay25 v799)
  let v986 := k3_pay29 v408 v799 v926 (k3_pay27 v408) (k3_pay28 v799)
  let v1046 := k3_pay32 v408 v799 v986 (k3_pay30 v408) (k3_pay31 v799)
  let v1106 := k3_pay35 v408 v799 v1046 (k3_pay33 v408) (k3_pay34 v799)
  let v1166 := k3_pay38 v408 v799 v1106 (k3_pay36 v408) (k3_pay37 v799)
  k3_pay139 v408 v799 v1166 (k3_pay39 v408) (k3_pay40 v799)

/-- What the last stretch of the spread's running maximum and minimum takes: the transposed key block and the
    three carried values. -/
structure Spread (F : FTy → Type) [FloatOps F] where
  kT : FVec F S64x128 .f32
  a : FVec F S128x128 .f32
  b : FVec F S128x128 .f32
  c : FVec F S128x128 .f32

/-- The running maximum and minimum of `q[i,d] - k[j,d]` over `d`, up to the last stretch: `q` the mapped query
    block, `kp` the mapped key block. -/
def spread (q : FVec F S128x64 .f32) (kp : Vec F S128x64 .f32) : Spread F :=
  let v407 := k3_pay41 kp
  let v453 := k3_pay50 kp
  let v454 := k3_pay51 q
  let v513 := k3_pay61 q v407 (k3_pay48 q kp) v453 v454
  let v514 := k3_pay62 q v407 (k3_pay49 q kp) v453 v454
  let v573 := k3_pay73 q
  let v574 := k3_pay74 v407
  let v632 := k3_pay84 q v407 (k3_pay71 q v407 v513) v573 v574
  let v633 := k3_pay85 q v407 (k3_pay72 q v407 v514) v573 v574
  let v634 := k3_pay86 q
  let v694 := k3_pay97 q v407
  let v751 := k3_pay106 q v407 (k3_pay95 q v407 v632 v634) v694
  let v752 := k3_pay107 q v407 (k3_pay96 q v407 v633 v634) v694
  let v753 := k3_pay108 q
  let v754 := k3_pay109 v407
  ⟨v407, k3_pay118 q v407 v752 v753 v754, k3_pay119 q v407, k3_pay120 q v407 v751 v753 v754⟩

/-- The score block of the query block against one key block (128 × 128). -/
def scoreBlk (q : FVec F S128x64 .f32) (kp : Vec F S128x64 .f32) : FVec F S128x128 .f32 :=
  k3_pay121 q (spread q kp).kT (spread q kp).a (spread q kp).b (spread q kp).c

/-- The same as the piece stored into the score window's buffer. -/
def scorePiece (q : FVec F S128x64 .f32) (kp : Vec F S128x64 .f32) : FVec F S1x128x128 .f32 :=
  k3_pay122 q (spread q kp).kT (spread q kp).a (spread q kp).b (spread q kp).c

/-- Scores plus values, before the maximum over the key rows (128 × 128 × 64). -/
def ctxPre (q : FVec F S128x64 .f32) (kp vp : Vec F S128x64 .f32) : FVec F S128x128x64 .f32 :=
  k3_pay123 q vp (spread q kp).kT (spread q kp).a (spread q kp).b (spread q kp).c

/-- The context accumulator after the two key blocks, from its reset. -/
def ctxAcc (q : FVec F S128x64 .f32) (kp0 vp0 kp1 vp1 : Vec F S128x64 .f32) : FVec F S128x64 .f32 :=
  k3_pay1 (ctxPre q kp1 vp1) (k3_pay1 (ctxPre q kp0 vp0) (k3_pay140 (F := F)))

end Cert.KernelIdeal.Frm

end
-- ==== Proof.KernelIdeal.R3.lean ====
/-
  Region 3 of the idealized kernel program: the tropical attention call, at a parameter `V` (the buffer
  contents when the region is entered). A grid point (a head and one of its two 128-row query tiles) reads
  the tile's query block, the head's 256 key rows and 256 value rows and the three 64×64 weight matrices. The
  body maps the query tile by the max-plus linear map, fills two scratch buffers with the mapped key and value
  rows in two 128-row halves, resets a third to -∞, and then, for each 128-row key block, stores that block's
  128×128 scores into its half of the score block and folds the block's max-plus contribution into the third
  scratch buffer, whose contents it finally stores as the context block. The two loops have two trips each
  and are run trip after trip, so what every buffer holds at the end is named: the score block is two pieces,
  the later key block's first; the context block is one piece. A load of a scratch half after both halves were
  stored reads the half's own store.
  Here: the blocks, what the body leaves in the two output buffers as the chains of R3Chain, the body's
  triple, the pipeline's proof data (the three scratch buffers ride in the region's invariant, whole at some
  contents) and the body obligation at every point.
-/
import proofs.«421917_j23888608101009_3_alg».proof.Proof.Gen.KernelIdeal.Launch
import proofs.«421917_j23888608101009_3_alg».proof.Proof.Gen.KernelIdeal.Skeleton
import proofs.«421917_j23888608101009_3_alg».proof.Proof.Gen.KernelIdeal.Points
import proofs.«421917_j23888608101009_3_alg».proof.Proof.Gen.KernelIdeal.Loops
import proofs.«421917_j23888608101009_3_alg».proof.Proof.KernelIdeal.R3Chain
import Idealize.ShloMosaic.Lib.Pipeline.FrameBody
import Idealize.ShloMosaic.Lib.Pipeline.RowLoads
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! The body's rectangles: whole blocks, the two 128-row halves of the key and value blocks and of the two
    row-block scratch buffers, the two 128-column halves of the score block. -/
abbrev r3_q : Rect S1x128x64 := Rect.unit (s := S1x128x64) ![0, 0, 0] S1x128x64.size inb_S1x128x64_S1x128x64_0_0_0
abbrev r3_w : Rect S64x64 := Rect.unit (s := S64x64) ![0, 0] S64x64.size inb_S64x64_S64x64_0_0
abbrev r3_kv0 : Rect S1x256x64 := Rect.unit (s := S1x256x64) ![0, 0, 0] S1x128x64.size (by decide)
abbrev r3_kv1 : Rect S1x256x64 := Rect.unit (s := S1x256x64) ![0, 128, 0] S1x128x64.size (by decide)
abbrev r3_a0 : Rect S1x128x256 := Rect.unit (s := S1x128x256) ![0, 0, 0] S1x128x128.size (by decide)
abbrev r3_a1 : Rect S1x128x256 := Rect.unit (s := S1x128x256) ![0, 0, 128] S1x128x128.size (by decide)

/-- The mapped query block, and the mapped key and value blocks of key block 0 and 1, from the input blocks. -/
def q3 (x0 : Vec F S1x128x64 .f32) (x3 : Vec F S64x64 .f32) : FVec F S128x64 .f32 := tlq (View.ld x0 r3_q) (View.ld x3 r3_w)
def k3_0 (x1 : Vec F S1x256x64 .f32) (x4 : Vec F S64x64 .f32) : FVec F S128x64 .f32 := tlk (View.ld x1 r3_kv0) (View.ld x4 r3_w)
def k3_1 (x1 : Vec F S1x256x64 .f32) (x4 : Vec F S64x64 .f32) : FVec F S128x64 .f32 := tlk (View.ld x1 r3_kv1) (View.ld x4 r3_w)
def v3_0 (x2 : Vec F S1x256x64 .f32) (x5 : Vec F S64x64 .f32) : FVec F S128x64 .f32 := tlv (View.ld x2 r3_kv0) (View.ld x5 r3_w)
def v3_1 (x2 : Vec F S1x256x64 .f32) (x5 : Vec F S64x64 .f32) : FVec F S128x64 .f32 := tlv (View.ld x2 r3_kv1) (View.ld x5 r3_w)

/-- The context window's staging buffer after the body: one store of the accumulator after both key blocks. -/
def out3_6 (x0 : Vec F S1x128x64 .f32) (x1 x2 : Vec F S1x256x64 .f32) (x3 x4 x5 : Vec F S64x64 .f32) : Vec F S1x128x64 .f32 :=
  View.canon [⟨r3_q, k3_pay2 (ctxAcc (q3 x0 x3) (k3_0 x1 x4) (v3_0 x2 x5) (k3_1 x1 x4) (v3_1 x2 x5))⟩]

/-- The score window's staging buffer after the body: the two key blocks' score pieces, the later first. -/
def out3_7 (x0 : Vec F S1x128x64 .f32) (x1 : Vec F S1x256x64 .f32) (x3 x4 : Vec F S64x64 .f32) : Vec F S1x128x256 .f32 :=
  View.canon [⟨r3_a1, scorePiece (q3 x0 x3) (k3_1 x1 x4)⟩, ⟨r3_a0, scorePiece (q3 x0 x3) (k3_0 x1 x4)⟩]

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
    | ⟨7, _⟩ => out3_7 (iblk3 V c 0 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 3 t) (iblk3 V c 4 t) := by dsimp only [dat3]

theorem cover3_6 (p0 : Vec F S1x128x64 .f32) (y : S1x128x64.Idx) :
    ∃ pc ∈ ([⟨r3_q, p0⟩] : List (View.Piece (Elt F) S1x128x64 .f32)), y ∈ pc.1.set :=
  View.cover_of_tiled [⟨r3_q, p0⟩] S1x128x64.size (by rfl) y

theorem cover3_7 (p1 p0 : Vec F S1x128x128 .f32) (y : S1x128x256.Idx) :
    ∃ pc ∈ ([⟨r3_a1, p1⟩, ⟨r3_a0, p0⟩] : List (View.Piece (Elt F) S1x128x256 .f32)), y ∈ pc.1.set :=
  View.cover_of_tiled [⟨r3_a1, p1⟩, ⟨r3_a0, p0⟩] S1x128x128.size (by rfl) y

/-- Rows 0–127 of a 256-row buffer read back after its two 128-row stores, the later one into rows 128–255: the
    earlier store's payload. -/
theorem readCov_lo {κ : Kind} {sp : Space} (v : View sig κ sp S256x64 .f32) (inb1) (inb0) (inbL)
    (w1 : (Rect.unit (s := S256x64) ![128, 0] S128x64.size inb1).shape.Idx → Elt F .f32)
    (w0 : (Rect.unit (s := S256x64) ![0, 0] S128x64.size inb0).shape.Idx → Elt F .f32) :
    v.readCov [(⟨Rect.unit (s := S256x64) ![128, 0] S128x64.size inb1, w1⟩ : View.Piece (Elt F) S256x64 .f32), ⟨Rect.unit (s := S256x64) ![0, 0] S128x64.size inb0, w0⟩]
        (Rect.unit (s := S256x64) ![0, 0] S128x64.size inbL).toLoadRect = w0 :=
  (View.readCov_cons_of_rows_disjoint (m := 256) (n := 64) (k := 128) (k' := 128) v 128 0 (Or.inr (Nat.le_refl _)) w1 _ inb1 inbL).trans
    (View.readCov_cons_toLoadRect v (Rect.unit (s := S256x64) ![0, 0] S128x64.size inb0) w0 [])

set_option maxHeartbeats 4000000 in
set_option sl_exec.unrollTrips 2 in
/-- The body on whole staging memrefs and whole scratch buffers, the inputs' at `x0 … x5` and the rest at anything,
    runs to the continuation holding the inputs' as they were, the context window's at `out3_6` and the score
    window's at `out3_7` of the inputs', and the three scratch buffers at something. -/
theorem sound_kernel3 (c : Dev nD) (E : Set ℕ) (i : grid3.Coords)
    (arg2 : Memref sig .tc .vmem S1x128x64 .f32) (harg2 : arg2.IsWhole) (arg3 : Memref sig .tc .vmem S1x256x64 .f32) (harg3 : arg3.IsWhole)
    (arg4 : Memref sig .tc .vmem S1x256x64 .f32) (harg4 : arg4.IsWhole) (arg5 : Memref sig .tc .vmem S64x64 .f32) (harg5 : arg5.IsWhole)
    (arg6 : Memref sig .tc .vmem S64x64 .f32) (harg6 : arg6.IsWhole) (arg7 : Memref sig .tc .vmem S64x64 .f32) (harg7 : arg7.IsWhole)
    (arg8 : Memref sig .tc .vmem S1x128x64 .f32) (harg8 : arg8.IsWhole) (arg9 : Memref sig .tc .vmem S1x128x256 .f32) (harg9 : arg9.IsWhole)
    (arg10 : Memref sig .tc .vmem S256x64 .f32) (harg10 : arg10.IsWhole) (arg11 : Memref sig .tc .vmem S256x64 .f32) (harg11 : arg11.IsWhole)
    (arg12 : Memref sig .tc .vmem S128x64 .f32) (harg12 : arg12.IsWhole)
    (x0 : Vec F S1x128x64 .f32) (x1 : Vec F S1x256x64 .f32) (x2 : Vec F S1x256x64 .f32) (x3 : Vec F S64x64 .f32) (x4 : Vec F S64x64 .f32) (x5 : Vec F S64x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out3_6 x0 x1 x2 x3 x4 x5) ∗ owns (c : Thread nD τ) arg9 fullShare (out3_7 x0 x1 x3 x4)
            ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc3__trop_attn_kernel i arg2 harg2 arg3 harg3 arg4 harg4 arg5 harg5 arg6 harg6 arg7 harg7 arg8 harg8 arg9 harg9 arg10 harg10 arg11 harg11 arg12 harg12) K := by
  simp only [cc3__trop_attn_kernel_eq_skeleton]; unfold cc3__trop_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, ⟨%d12, %f12, -, H12⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [View.read_writes_eq_canon _ _ _ (cover3_6 _)]
    unfold out3_6
    refine congrArg (fun z : FVec F S128x64 .f32 => View.canon ([⟨r3_q, k3_pay2 z⟩] : List (View.Piece (Elt F) S1x128x64 .f32))) ?_
    sl_unfold_run_names
    simp only [View.readCov_cons_toLoadRect]
    generalize hk : arg10.view.readCov (Val := Elt F) _ _ = kp
    generalize hv : arg11.view.readCov (Val := Elt F) _ _ = vp
    obtain rfl := hk.symm.trans (readCov_lo _ _ _ _ _ _)
    obtain rfl := hv.symm.trans (readCov_lo _ _ _ _ _ _)
    rfl
  isplitl [H9]
  · iexists _; isplitr
    swap; · iexact H9
    ipureintro
    rw [View.read_writes_eq_canon _ _ _ (cover3_7 _ _)]
    unfold out3_7
    refine congrArg₂ (fun a b => View.canon [⟨r3_a1, a⟩, ⟨r3_a0, b⟩]) ?_ ?_
    · sl_unfold_run_names
      simp only [View.readCov_cons_toLoadRect]
      rfl
    · sl_unfold_run_names
      generalize hk : arg10.view.readCov (Val := Elt F) _ _ = kp
      obtain rfl := hk.symm.trans (readCov_lo _ _ _ _ _ _)
      rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The region's invariant with the kernel's three scratch buffers taken out of the scoped rest, each owned whole at
    some contents. -/
theorem Phi3_eq (c : Dev nD) (t : Fin (cfg3.N + 1)) :
    (dat3 V c).Φ t = iprop((((∃ d, owns (c : Thread nD τ) (Memref.whole cc3_scratch0) fullShare d)
        ∗ (∃ d, owns (c : Thread nD τ) (Memref.whole cc3_scratch1) fullShare d)
        ∗ (∃ d, owns (c : Thread nD τ) (Memref.whole cc3_scratch2) fullShare d))
        ∗ Pipeline.scopedRestBut (Ix := Unit) (Name := ℕ) (U := UR sig nD τ) (Lvl := ℕ) (Val := Elt F) spec3 c [cc3_scratch0, cc3_scratch1, cc3_scratch2])
      ∗ ∃ r, prngReg c r) := by
  show Pipeline.ΦA spec3 c = _
  unfold Pipeline.ΦA
  rw [scopedRest3_split]
  simp only [owns_whole]

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl,
    after3_0, after3_1, after3_2, after3_3, after3_4, after3_5, after3_6, after3_7, Phi3_eq, Phi3_eq]
  iintro ⟨⟨⟨⟨⟨%s0, Hs0⟩, ⟨%s1, Hs1⟩, ⟨%s2, Hs2⟩⟩, Hrest⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [Hs0]; · iexists _; iexact Hs0
  isplitl [Hs1]; · iexists _; iexact Hs1
  isplitl [Hs2]; · iexists _; iexact Hs2
  iintro ⟨H0, H1, H2, H3, H4, H5, H6, H7, Hs0, Hs1, Hs2⟩
  isplitl [Hs0 Hs1 Hs2 Hrest Hr]
  · isplitr [Hr]
    · isplitr [Hrest]
      · isplitl [Hs0]; · iexact Hs0
        isplitl [Hs1]; · iexact Hs1
        iexact Hs2
      · iexact Hrest
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KernelIdeal.R4.lean ====
/-
  Region 4 of the idealized kernel program: the output projection call, at a parameter `V` (the buffer
  contents when the region is entered). A grid point `b` (a batch) reads the block `x[b]` (256×512) and
  the whole weight matrix, and writes the block `x[b]·Wᵀ` (operands rounded to bf16, accumulated in f32).
  Here: the blocks, what the body leaves in the output's buffer (one store covering it), the body's
  triple, the pipeline's proof data and the body obligation at every point.
-/
import proofs.«421917_j23888608101009_3_alg».proof.Proof.Gen.KernelIdeal.Launch
import proofs.«421917_j23888608101009_3_alg».proof.Proof.Gen.KernelIdeal.Skeleton
import proofs.«421917_j23888608101009_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S1x256x512 := Rect.unit (s := S1x256x512) ![0, 0, 0] S1x256x512.size inb_S1x256x512_S1x256x512_0_0_0
abbrev r4_w : Rect S512x512 := Rect.unit (s := S512x512) ![0, 0] S512x512.size inb_S512x512_S512x512_0_0

/-- The output's staging buffer after the body, from the input blocks: its one store. -/
def out4_2 (x0 : Vec F S1x256x512 .f32) (x1 : Vec F S512x512 .f32) : Vec F S1x256x512 .f32 :=
  View.canon [⟨r4_x, k4_pay1 (View.ld x0 r4_x) (View.ld x1 r4_w)⟩]

theorem cover4_2 (p0 : Vec F S1x256x512 .f32) (y : S1x256x512.Idx) :
    ∃ pc ∈ ([⟨r4_x, p0⟩] : List (View.Piece (Elt F) S1x256x512 .f32)), y ∈ pc.1.set :=
  View.cover_of_tiled [⟨r4_x, p0⟩] S1x256x512.size (by rfl) y

set_option maxHeartbeats 1000000 in
/-- The body on whole staging memrefs, the inputs' at `x0 x1` and the output's at anything, runs to the
    continuation holding the inputs' as they were and the output's at `out4_2` of the inputs'. -/
theorem sound_kernel4 (c : Dev nD) (E : Set ℕ) (i : grid4.Coords)
    (arg1 : Memref sig .tc .vmem S1x256x512 .f32) (harg1 : arg1.IsWhole) (arg2 : Memref sig .tc .vmem S512x512 .f32) (harg2 : arg2.IsWhole)
    (arg3 : Memref sig .tc .vmem S1x256x512 .f32) (harg3 : arg3.IsWhole)
    (x0 : Vec F S1x256x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__out_kernel i arg1 harg1 arg2 harg2 arg3 harg3) K := by
  simp only [cc4__out_kernel_eq_skeleton]; unfold cc4__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core `c`: the arrays as the region finds them; after the body at point `t`
    each input's buffer at its block and the output's at `out4_2` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KernelIdeal.Run.lean ====
/-
  The run of the idealized kernel program: its eight segments from the launch to the return. A host stretch
  of one operation, the three projection regions, a host stretch of nine operations (the heads split off),
  the attention region, a host stretch of four operations (the heads merged, `expm1`), the output projection.
  Here: the buffer contents at every segment boundary as a fold from the launch memory (a host stretch's
  `StableHlo.after`; a region's arrays at what its write-backs leave, every other buffer as entered), each
  argument array read back through the fold to its launch contents, every pipeline's proof data at its
  region's entry contents, a segment record per region over the thread state "every unscoped buffer at the
  boundary's contents, the generator register at some state, nothing owed", and the launch over the segments:
  every weakly fair execution terminates and every final memory holds each unscoped buffer at the last
  boundary's contents; the arguments, in particular, as launched.
-/
import proofs.«421917_j23888608101009_3_alg».proof.Proof.Gen.KernelIdeal.Regions
import proofs.«421917_j23888608101009_3_alg».proof.Proof.KernelIdeal.R0
import proofs.«421917_j23888608101009_3_alg».proof.Proof.KernelIdeal.R1
import proofs.«421917_j23888608101009_3_alg».proof.Proof.KernelIdeal.R2
import proofs.«421917_j23888608101009_3_alg».proof.Proof.KernelIdeal.R3
import proofs.«421917_j23888608101009_3_alg».proof.Proof.KernelIdeal.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 (m : (ℓ : Loc nD τ sig) → Buf (Elt F) ℓ) (ρ : Dev nD → PrngReg) : Dev nD → Valuation τ sig (Elt F) := fun c b => m (c, b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: no write-back lands in it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references (region 0's exit contents, region 1's entry). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves region 1 as it entered: no write-back lands in it. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- The same read at the TensorCore's references (region 1's exit contents, region 2's entry). -/
abbrev V3 : (c : Dev nD) → (b : Ref sig .tc) → Buf (Elt F) ((c : Thread nD τ).loc b) := fun c b => W3 m ρ c b
/-- At region 1's exit each of its arrays holds what the pipeline leaves, and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves region 2 as it entered: no write-back lands in it. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, and every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the host stretch `hostOps3` (region 3's entry). -/
abbrev W5 : Dev nD → Valuation τ sig (Elt F) := fun c => StableHlo.after hostOps3 (W4 m ρ c)
/-- The same read at the TensorCore's references (what region 3's proof data take). -/
abbrev V5 : (c : Dev nD) → (b : Ref sig .tc) → Buf (Elt F) ((c : Thread nD τ).loc b) := fun c b => W5 m ρ c b

/-- At region 3's exit: its arrays at what the pipeline leaves (the inputs as entered, each output's write-backs
    folded), every other buffer as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- An input window's array leaves region 3 as it entered: no write-back lands in it. -/
theorem W6_in (c : Dev nD) (w : Fin cfg3.W) (hin : (cfg3.win w).isOut = false) :
    W6 m ρ c (Proc.devRef .tc (Pipeline.arrRef spec3 w)) = W5 m ρ c (Proc.devRef .tc (Pipeline.arrRef spec3 w)) :=
  (W6_arr m ρ c w).trans (((dat3 (V5 m ρ) c).arrAt_in w hin _).trans (A_eq3 (V5 m ρ) c w))
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves, and every other buffer what it held at entry. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After the host stretch `hostOps4` (region 4's entry). -/
abbrev W7 : Dev nD → Valuation τ sig (Elt F) := fun c => StableHlo.after hostOps4 (W6 m ρ c)
/-- The same read at the TensorCore's references (what region 4's proof data take). -/
abbrev V7 : (c : Dev nD) → (b : Ref sig .tc) → Buf (Elt F) ((c : Thread nD τ).loc b) := fun c b => W7 m ρ c b

/-- At region 4's exit: its arrays at what the pipeline leaves (the inputs as entered, each output's write-backs
    folded), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- An input window's array leaves region 4 as it entered: no write-back lands in it. -/
theorem W8_in (c : Dev nD) (w : Fin cfg4.W) (hin : (cfg4.win w).isOut = false) :
    W8 m ρ c (Proc.devRef .tc (Pipeline.arrRef spec4 w)) = W7 m ρ c (Proc.devRef .tc (Pipeline.arrRef spec4 w)) :=
  (W8_arr m ρ c w).trans (((dat4 (V7 m ρ) c).arrAt_in w hin _).trans (A_eq4 (V7 m ρ) c w))
/-- The same read at the TensorCore's references (region 4's exit contents: the last boundary). -/
abbrev V8 : (c : Dev nD) → (b : Ref sig .tc) → Buf (Elt F) ((c : Thread nD τ).loc b) := fun c b => W8 m ρ c b
/-- At region 4's exit each of its arrays holds what the pipeline leaves, and every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-! ### The arguments end as launched: no host operation writes one, and a region reads it through an input
    window or does not touch it, so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps4 _ hostOps4_writes (by decide)
    _ = W5 m ρ c (Proc.devRef .tc main_arg0) := W6_of_ne m ρ c main_arg0 (by decide)
    _ = W4 m ρ c (Proc.devRef .tc main_arg0) := StableHlo.after_of_writes_sub hostOps3 _ hostOps3_writes (by decide)
    _ = W3 m ρ c (Proc.devRef .tc main_arg0) := W4_in m ρ c 0 rfl
    _ = W2 m ρ c (Proc.devRef .tc main_arg0) := W3_in m ρ c 0 rfl
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps4 _ hostOps4_writes (by decide)
    _ = W5 m ρ c (Proc.devRef .tc main_arg1) := W6_of_ne m ρ c main_arg1 (by decide)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 1 rfl
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps4 _ hostOps4_writes (by decide)
    _ = W5 m ρ c (Proc.devRef .tc main_arg2) := W6_of_ne m ρ c main_arg2 (by decide)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_in m ρ c 1 rfl
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps4 _ hostOps4_writes (by decide)
    _ = W5 m ρ c (Proc.devRef .tc main_arg3) := W6_of_ne m ρ c main_arg3 (by decide)
    _ = W4 m ρ c (Proc.devRef .tc main_arg3) := StableHlo.after_of_writes_sub hostOps3 _ hostOps3_writes (by decide)
    _ = W3 m ρ c (Proc.devRef .tc main_arg3) := W4_in m ρ c 1 rfl
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_in m ρ c 1 rfl
    _ = W6 m ρ c (Proc.devRef .tc main_arg4) := StableHlo.after_of_writes_sub hostOps4 _ hostOps4_writes (by decide)
    _ = W5 m ρ c (Proc.devRef .tc main_arg4) := W6_of_ne m ρ c main_arg4 (by decide)
    _ = W4 m ρ c (Proc.devRef .tc main_arg4) := StableHlo.after_of_writes_sub hostOps3 _ hostOps3_writes (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps4 _ hostOps4_writes (by decide)
    _ = W5 m ρ c (Proc.devRef .tc main_arg5) := W6_of_ne m ρ c main_arg5 (by decide)
    _ = W4 m ρ c (Proc.devRef .tc main_arg5) := StableHlo.after_of_writes_sub hostOps3 _ hostOps3_writes (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps4 _ hostOps4_writes (by decide)
    _ = W5 m ρ c (Proc.devRef .tc main_arg6) := W6_in m ρ c 3 rfl
    _ = W4 m ρ c (Proc.devRef .tc main_arg6) := StableHlo.after_of_writes_sub hostOps3 _ hostOps3_writes (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_writes_sub hostOps4 _ hostOps4_writes (by decide)
    _ = W5 m ρ c (Proc.devRef .tc main_arg7) := W6_in m ρ c 4 rfl
    _ = W4 m ρ c (Proc.devRef .tc main_arg7) := StableHlo.after_of_writes_sub hostOps3 _ hostOps3_writes (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps4 _ hostOps4_writes (by decide)
    _ = W5 m ρ c (Proc.devRef .tc main_arg8) := W6_in m ρ c 5 rfl
    _ = W4 m ρ c (Proc.devRef .tc main_arg8) := StableHlo.after_of_writes_sub hostOps3 _ hostOps3_writes (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends
    with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments

Each is entered from every unscoped buffer at its entry contents and left at its exit contents. Its arrays are
split out of the unscoped buffers and put back at the exit contents; the generator register goes into the class
invariant and comes out; nothing is owed; the kernel has no semaphore of its own. -/

set_option backward.isDefEq.respectTransparency.types false in
/-- Region 0 over the thread state: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered at `W5`, left at `W6`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered at `W7`, left at `W8`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: the program runs (terminates, no fault) and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩) (run_main m ρ)

end Cert.KernelIdeal.Frm

end
-- ==== Proof.Spec.lean ====
/-
  The mathematics both programs compute, over the extended reals, entry by entry.
  * a projection: `log(1 + max(⟨x[b,l,·], W[o,·]⟩, 0)) - lam[o]`;
  * heads: head `h` of 16 reads batch `h / 8` and the 64 columns from `(h % 8) * 64`;
  * the tropical (max-plus) linear map `y[o] = max_i (x[i] + W[o,i])`;
  * the score of a query row against a key row: minus the spread `max_d (q[d]-k[d]) - min_d (q[d]-k[d])`;
  * the context `max_j (s[j] + v[j,d])`; heads merged back, `exp(·) - 1`, and the last product with `Wo`.
-/
import Idealize.ShloMosaic.PureOps.Ideal
import Idealize.ShloMosaic.Lib.ValueIdx

noncomputable section

namespace Cert.Spec

open Idealize.ShloMosaic Idealize.ShloMosaic.ValueIdx

/-- The nine arguments, as functions of coordinates. -/
structure Inputs where
  x : Fin 2 → Fin 256 → Fin 512 → EReal
  Wq : Fin 512 → Fin 512 → EReal
  Wk : Fin 512 → Fin 512 → EReal
  Wv : Fin 512 → Fin 512 → EReal
  Wo : Fin 512 → Fin 512 → EReal
  lam : Fin 512 → EReal
  Tq : Fin 64 → Fin 64 → EReal
  Tk : Fin 64 → Fin 64 → EReal
  Tv : Fin 64 → Fin 64 → EReal

/-- The arguments read off their arrays. -/
def ofArrays (a0 : (⟨3, ![2, 256, 512]⟩ : Shape).Idx → EReal) (a1 a2 a3 a4 : (⟨2, ![512, 512]⟩ : Shape).Idx → EReal)
    (a5 : (⟨3, ![1, 1, 512]⟩ : Shape).Idx → EReal) (a6 a7 a8 : (⟨2, ![64, 64]⟩ : Shape).Idx → EReal) : Inputs where
  x b l k := a0 (ix3 b l k)
  Wq o k := a1 (ix2 o k)
  Wk o k := a2 (ix2 o k)
  Wv o k := a3 (ix2 o k)
  Wo o k := a4 (ix2 o k)
  lam o := a5 (ix3 (0 : Fin 1) (0 : Fin 1) o)
  Tq o i := a6 (ix2 o i)
  Tk o i := a7 (ix2 o i)
  Tv o i := a8 (ix2 o i)

/-- One projected entry. -/
def proj (x : Fin 2 → Fin 256 → Fin 512 → EReal) (W : Fin 512 → Fin 512 → EReal) (lam : Fin 512 → EReal)
    (b : Fin 2) (l : Fin 256) (o : Fin 512) : EReal :=
  Ideal.log1p (max (∑ k : Fin 512, x b l k * W o k) 0) - lam o

/-- The batch a head belongs to, and the column of the model axis its `d`-th feature is. -/
def hb (h : Fin 16) : Fin 2 := ⟨h.val / 8, by omega⟩
def hcol (h : Fin 16) (d : Fin 64) : Fin 512 := ⟨h.val % 8 * 64 + d.val, by omega⟩

/-- The tropical linear map. -/
def tl (x : Fin 64 → EReal) (W : Fin 64 → Fin 64 → EReal) (o : Fin 64) : EReal :=
  Finset.univ.sup fun i : Fin 64 => x i + W o i

/-- The score of a query row against a key row. -/
def score (q k : Fin 64 → EReal) : EReal :=
  -((Finset.univ.sup fun d : Fin 64 => q d - k d) - (Finset.univ.inf fun d : Fin 64 => q d - k d))

/-- The max-plus context of one query row. -/
def ctx (s : Fin 256 → EReal) (v : Fin 256 → Fin 64 → EReal) (d : Fin 64) : EReal :=
  Finset.univ.sup fun j : Fin 256 => s j + v j d

variable (I : Inputs)

/-- Head `h`'s projected and tropically mapped query, key and value rows. -/
def qh (h : Fin 16) (l : Fin 256) : Fin 64 → EReal := tl (fun i => proj I.x I.Wq I.lam (hb h) l (hcol h i)) I.Tq
def kh (h : Fin 16) (l : Fin 256) : Fin 64 → EReal := tl (fun i => proj I.x I.Wk I.lam (hb h) l (hcol h i)) I.Tk
def vh (h : Fin 16) (l : Fin 256) : Fin 64 → EReal := tl (fun i => proj I.x I.Wv I.lam (hb h) l (hcol h i)) I.Tv

/-- The attention scores, the second result. -/
def attn (h : Fin 16) (i j : Fin 256) : EReal := score (qh I h i) (kh I h j)

/-- The context of head `h`, query row `i`. -/
def context (h : Fin 16) (i : Fin 256) (d : Fin 64) : EReal := ctx (fun j => attn I h i j) (fun j => vh I h j) d

/-- Heads merged back along the model axis. -/
def merged (b : Fin 2) (l : Fin 256) (o : Fin 512) : EReal :=
  context I ⟨b.val * 8 + o.val / 64, by omega⟩ l ⟨o.val % 64, by omega⟩

/-- The output, the first result. -/
def out (b : Fin 2) (l : Fin 256) (o : Fin 512) : EReal :=
  ∑ k : Fin 512, (Ideal.exp (merged I b l k) - 1) * I.Wo o k

/-- The two results as arrays. -/
def outArr : (⟨3, ![2, 256, 512]⟩ : Shape).Idx → EReal := fun j => out I (j 0) (j 1) (j 2)
def attnArr : (⟨3, ![16, 256, 256]⟩ : Shape).Idx → EReal := fun j => attn I (j 0) (j 1) (j 2)

end Cert.Spec

end
-- ==== Proof.Val.Host.lean ====
/-
  The kernel program's three host stretches read at an index. The offset row `lam` is reshaped from
  [1,1,512] to [1,512]: entry (0, o) is entry (0, 0, o). The head split (reshape to [2,256,8,64], swap the two
  middle axes, reshape to [16,256,64]) sends entry (h, l, d) of a head array to entry (h / 8, l, (h % 8) * 64 + d)
  of the projected array. The head merge runs the same three steps backwards, entry (b, l, o) of the merged
  array being entry (b * 8 + o / 64, l, o % 64) of the context array, and is followed by `exp(·) - 1`.
-/
import proofs.«421917_j23888608101009_3_alg».proof.Proof.Gen.KernelIdeal.Regions
import proofs.«421917_j23888608101009_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.ShloMosaic.StableHlo

/-!
  The three operation stretches between the kernel regions, read entry by entry.
  * The first flattens the offset row `[1,1,512] → [1,512]`.
  * The second splits the model axis of each projected array into heads: `[2,256,512] → [2,256,8,64]`, the two middle
    axes exchanged, then batch and head fused, `[2,8,256,64] → [16,256,64]`: entry `(h, l, d)` is entry
    `(h / 8, l, (h % 8) * 64 + d)` of the operand.
  * The third undoes it on the context, `[16,256,64] → [2,256,512]`: entry `(b, l, o)` is entry
    `(b * 8 + o / 64, l, o % 64)`, and then takes `exp(·) - 1` entrywise.
  Each is first an equation of whole arrays (the operations composed), then read at an index: a reshape keeps the
  row-major position, a transpose permutes the coordinates.
-/

/-! ## The offset row -/

theorem host0_arr (W : Valuation τ sig (Elt Ideal)) :
    StableHlo.after (hostOps0 (F := Ideal)) W (Proc.devRef .tc main_v0)
      = shapeCast S1x512 (W (Proc.devRef .tc main_arg5)) shapeCasts_S1x1x512_S1x512 := by
  after_results; rfl

theorem host0_v0 (W : Valuation τ sig (Elt Ideal)) (o : Fin 512) :
    StableHlo.after (hostOps0 (F := Ideal)) W (Proc.devRef .tc main_v0) (ix2 (0 : Fin 1) o)
      = W (Proc.devRef .tc main_arg5) (ix3 (0 : Fin 1) (0 : Fin 1) o) := by
  rw [host0_arr]
  exact shapeCast_apply _ shapeCasts_S1x1x512_S1x512 _ _ (by rewrite [Shape.rowMajor_val_three, Shape.rowMajor_val_two]; rfl)

/-! ## Splitting into heads -/

/-- The three layout operations composed: split the model axis, exchange the middle axes, fuse batch and head. -/
def toHeads (x : S2x256x512.Idx → Elt Ideal .f32) : S16x256x64.Idx → Elt Ideal .f32 :=
  shapeCast S16x256x64
    (transpose S2x8x256x64 [0, 2, 1, 3] (shapeCast S2x256x8x64 x shapeCasts_S2x256x512_S2x256x8x64)
      transposes_S2x256x8x64_S2x8x256x64_0_2_1_3)
    shapeCasts_S2x8x256x64_S16x256x64

/-- Entry `(h, l, d)` of the heads array is entry `(h / 8, l, (h % 8) * 64 + d)` of the operand. -/
theorem toHeads_apply (x : S2x256x512.Idx → Elt Ideal .f32) (h : Fin 16) (l : Fin 256) (d : Fin 64) :
    toHeads x (ix3 h l d) = x (ix3 (Cert.Spec.hb h) l (Cert.Spec.hcol h d)) := by
  have hh : h.val < 16 := h.isLt
  have hl : l.val < 256 := l.isLt
  have hd : d.val < 64 := d.isLt
  unfold toHeads
  rw [shapeCast_apply _ shapeCasts_S2x8x256x64_S16x256x64 (ix3 h l d)
      (ix4 (Cert.Spec.hb h) (⟨h.val % 8, by omega⟩ : Fin 8) l d)
      (by rewrite [Shape.rowMajor_val_four, Shape.rowMajor_val_three]
          show ((h.val / 8 * 8 + h.val % 8) * 256 + l.val) * 64 + d.val = (h.val * 256 + l.val) * 64 + d.val
          omega)]
  rw [transpose_apply [0, 2, 1, 3] _ transposes_S2x256x8x64_S2x8x256x64_0_2_1_3
      (ix4 (Cert.Spec.hb h) (⟨h.val % 8, by omega⟩ : Fin 8) l d)
      (ix4 (Cert.Spec.hb h) l (⟨h.val % 8, by omega⟩ : Fin 8) d)
      (fun b => match b with
        | ⟨0, _⟩ => rfl
        | ⟨1, _⟩ => rfl
        | ⟨2, _⟩ => rfl
        | ⟨3, _⟩ => rfl)]
  exact shapeCast_apply _ shapeCasts_S2x256x512_S2x256x8x64 _ (ix3 (Cert.Spec.hb h) l (Cert.Spec.hcol h d))
    (by rewrite [Shape.rowMajor_val_three, Shape.rowMajor_val_four]
        show (h.val / 8 * 256 + l.val) * 512 + (h.val % 8 * 64 + d.val) = ((h.val / 8 * 256 + l.val) * 8 + h.val % 8) * 64 + d.val
        omega)

theorem host3_arr6 (W : Valuation τ sig (Elt Ideal)) :
    StableHlo.after (hostOps3 (F := Ideal)) W (Proc.devRef .tc main_v6) = toHeads (W (Proc.devRef .tc main_v1)) := by
  after_results; rfl
theorem host3_arr9 (W : Valuation τ sig (Elt Ideal)) :
    StableHlo.after (hostOps3 (F := Ideal)) W (Proc.devRef .tc main_v9) = toHeads (W (Proc.devRef .tc main_v2)) := by
  after_results; rfl
theorem host3_arr12 (W : Valuation τ sig (Elt Ideal)) :
    StableHlo.after (hostOps3 (F := Ideal)) W (Proc.devRef .tc main_v12) = toHeads (W (Proc.devRef .tc main_v3)) := by
  after_results; rfl

theorem host3_v6 (W : Valuation τ sig (Elt Ideal)) (h : Fin 16) (l : Fin 256) (d : Fin 64) :
    StableHlo.after (hostOps3 (F := Ideal)) W (Proc.devRef .tc main_v6) (ix3 h l d)
      = W (Proc.devRef .tc main_v1) (ix3 (Cert.Spec.hb h) l (Cert.Spec.hcol h d)) := by
  rw [host3_arr6]; exact toHeads_apply _ h l d
theorem host3_v9 (W : Valuation τ sig (Elt Ideal)) (h : Fin 16) (l : Fin 256) (d : Fin 64) :
    StableHlo.after (hostOps3 (F := Ideal)) W (Proc.devRef .tc main_v9) (ix3 h l d)
      = W (Proc.devRef .tc main_v2) (ix3 (Cert.Spec.hb h) l (Cert.Spec.hcol h d)) := by
  rw [host3_arr9]; exact toHeads_apply _ h l d
theorem host3_v12 (W : Valuation τ sig (Elt Ideal)) (h : Fin 16) (l : Fin 256) (d : Fin 64) :
    StableHlo.after (hostOps3 (F := Ideal)) W (Proc.devRef .tc main_v12) (ix3 h l d)
      = W (Proc.devRef .tc main_v3) (ix3 (Cert.Spec.hb h) l (Cert.Spec.hcol h d)) := by
  rw [host3_arr12]; exact toHeads_apply _ h l d

/-! ## Merging the heads back, and `exp(·) - 1` -/

/-- The three layout operations composed: split batch from head, exchange the middle axes, fuse head and feature. -/
def fromHeads (x : S16x256x64.Idx → Elt Ideal .f32) : S2x256x512.Idx → Elt Ideal .f32 :=
  shapeCast S2x256x512
    (transpose S2x256x8x64 [0, 2, 1, 3] (shapeCast S2x8x256x64 x shapeCasts_S16x256x64_S2x8x256x64)
      transposes_S2x8x256x64_S2x256x8x64_0_2_1_3)
    shapeCasts_S2x256x8x64_S2x256x512

/-- Entry `(b, l, o)` of the merged array is entry `(b * 8 + o / 64, l, o % 64)` of the operand. -/
theorem fromHeads_apply (x : S16x256x64.Idx → Elt Ideal .f32) (b : Fin 2) (l : Fin 256) (o : Fin 512) :
    fromHeads x (ix3 b l o)
      = x (ix3 (⟨b.val * 8 + o.val / 64, by omega⟩ : Fin 16) l (⟨o.val % 64, by omega⟩ : Fin 64)) := by
  have hb : b.val < 2 := b.isLt
  have hl : l.val < 256 := l.isLt
  have ho : o.val < 512 := o.isLt
  unfold fromHeads
  rw [shapeCast_apply _ shapeCasts_S2x256x8x64_S2x256x512 (ix3 b l o)
      (ix4 b l (⟨o.val / 64, by omega⟩ : Fin 8) (⟨o.val % 64, by omega⟩ : Fin 64))
      (by rewrite [Shape.rowMajor_val_four, Shape.rowMajor_val_three]
          show ((b.val * 256 + l.val) * 8 + o.val / 64) * 64 + o.val % 64 = (b.val * 256 + l.val) * 512 + o.val
          omega)]
  rw [transpose_apply [0, 2, 1, 3] _ transposes_S2x8x256x64_S2x256x8x64_0_2_1_3
      (ix4 b l (⟨o.val / 64, by omega⟩ : Fin 8) (⟨o.val % 64, by omega⟩ : Fin 64))
      (ix4 b (⟨o.val / 64, by omega⟩ : Fin 8) l (⟨o.val % 64, by omega⟩ : Fin 64))
      (fun a => match a with
        | ⟨0, _⟩ => rfl
        | ⟨1, _⟩ => rfl
        | ⟨2, _⟩ => rfl
        | ⟨3, _⟩ => rfl)]
  exact shapeCast_apply _ shapeCasts_S16x256x64_S2x8x256x64 _
    (ix3 (⟨b.val * 8 + o.val / 64, by omega⟩ : Fin 16) l (⟨o.val % 64, by omega⟩ : Fin 64))
    (by rewrite [Shape.rowMajor_val_three, Shape.rowMajor_val_four]
        show ((b.val * 8 + o.val / 64) * 256 + l.val) * 64 + o.val % 64 = ((b.val * 8 + o.val / 64) * 256 + l.val) * 64 + o.val % 64
        rfl)

theorem host4_arr17 (W : Valuation τ sig (Elt Ideal)) :
    StableHlo.after (hostOps4 (F := Ideal)) W (Proc.devRef .tc main_v17)
      = Host.expm1 (F := Ideal) (s := S2x256x512) (φ := .f32) (fromHeads (W (Proc.devRef .tc main_v13_0))) := by
  after_results; rfl

theorem host4_v17 (W : Valuation τ sig (Elt Ideal)) (b : Fin 2) (l : Fin 256) (o : Fin 512) :
    StableHlo.after (hostOps4 (F := Ideal)) W (Proc.devRef .tc main_v17) (ix3 b l o)
      = Ideal.exp (W (Proc.devRef .tc main_v13_0)
          (ix3 (⟨b.val * 8 + o.val / 64, by omega⟩ : Fin 16) l (⟨o.val % 64, by omega⟩ : Fin 64))) - 1 := by
  rw [host4_arr17]
  simp only [Host.expm1]
  rw [fromHeads_apply]
  rfl

end Cert.KernelIdeal.Val

end
-- ==== Proof.Val.Proj.lean ====
/-
  The kernel's projection payloads read at one index.  Each of the three projection calls stores
  `log1p(max(x·Wᵀ, 0)) - lam`: the row `l` of the 256×512 block of `x` against the row `o` of the weight
  matrix (the kernel transposes the weights and contracts the left operand's axis 1 with the right
  operand's axis 0), clamped below at zero, through `log1p`, minus the `o`-th entry of the one-row `lam`.
  The last call stores the plain product.  Over the extended reals the narrowing to bf16 is the identity
  and the accumulator is the zero splat, so the matmul entry is the sum over the contracted axis.
-/
import proofs.«421917_j23888608101009_3_alg».proof.Proof.Gen.KernelIdeal.Skeleton
import proofs.«421917_j23888608101009_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The matmul's operand indices, axis by axis -/

theorem lhs_mm_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_mm_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhs_mm_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhs_mm_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The matmul into the zero accumulator, at `(l, o)`: row `l` of the left operand against column `o` of the right. -/
theorem mm_apply (a : FVec Ideal S256x512 .bf16) (b : FVec Ideal S512x512 .bf16) (l : Fin 256) (o : Fin 512) :
    matmul dot_S256x512_S512x512_S256x512_1_0_0_1_n_n none a b (constant (F := Ideal) S256x512 .f32 0x00000000#32) (ix2 l o)
      = ∑ k : Fin 512, a (ix2 l k) * b (ix2 k o) := by
  show FloatOps.matmul _ _ _ _ _ _ = _
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 l o) ((contrEquiv1 dot_S256x512_S512x512_S256x512_1_0_0_1_n_n 512 rfl rfl).symm k) = ix2 l k := funext fun c => Fin.ext (by
    match c with
    | ⟨0, _⟩ => exact lhs_mm_0 _ _
    | ⟨1, _⟩ => exact (lhs_mm_1 _ _).trans hk)
  have er : dot_S256x512_S512x512_S256x512_1_0_0_1_n_n.rhsIdx (ix2 l o) ((contrEquiv1 dot_S256x512_S512x512_S256x512_1_0_0_1_n_n 512 rfl rfl).symm k) = ix2 k o := funext fun c => Fin.ext (by
    match c with
    | ⟨0, _⟩ => exact (rhs_mm_0 _ _).trans hk
    | ⟨1, _⟩ => exact rhs_mm_1 _ _)
  rw [el, er]

/-- The product the kernel forms: the block's row `l` against the weight matrix's row `o`. -/
theorem mm_rows (v0 : Vec Ideal S1x256x512 .f32) (v3 : Vec Ideal S512x512 .f32) (l : Fin 256) (o : Fin 512) :
    matmul dot_S256x512_S512x512_S256x512_1_0_0_1_n_n none
        (truncf .bf16 (shapeCast S256x512 v0 shapeCasts_S1x256x512_S256x512) bitsLt_bf16_f32)
        (transpose S512x512 [1, 0] (truncf .bf16 v3 bitsLt_bf16_f32) transposes_S512x512_p1_0_S512x512)
        (constant (F := Ideal) S256x512 .f32 0x00000000#32) (ix2 l o)
      = ∑ k : Fin 512, v0 (ix3 (0 : Fin 1) l k) * v3 (ix2 o k) := by
  rw [mm_apply]
  refine Finset.sum_congr rfl fun k _ => ?_
  rw [truncf_apply, shapeCast_1ab_ab_apply, transpose_ix2_apply, truncf_apply]

theorem pay_proj0 (v0 : Vec Ideal S1x256x512 .f32) (v3 : Vec Ideal S512x512 .f32) (v10 : Vec Ideal S1x512 .f32) (l : Fin 256) (o : Fin 512) :
    k0_pay1 (F := Ideal) v0 v3 v10 (ix3 (0 : Fin 1) l o)
      = Ideal.log1p (max (∑ k : Fin 512, v0 (ix3 (0 : Fin 1) l k) * v3 (ix2 o k)) 0) - v10 (ix2 (0 : Fin 1) o) := by
  unfold k0_pay1
  rw [shapeCast_ab_1ab_apply, subf_apply, broadcastTo_1b_ab_apply, shapeCast_self]
  show Ideal.log1p (max (matmul (F := Ideal) dot_S256x512_S512x512_S256x512_1_0_0_1_n_n none _ _ _ (ix2 l o)) (Ideal.ofBits .f32 0x00000000#32)) - _ = _
  rw [mm_rows, Ideal.ofBits_zero_f32]

theorem pay_proj1 (v0 : Vec Ideal S1x256x512 .f32) (v3 : Vec Ideal S512x512 .f32) (v10 : Vec Ideal S1x512 .f32) (l : Fin 256) (o : Fin 512) :
    k1_pay1 (F := Ideal) v0 v3 v10 (ix3 (0 : Fin 1) l o)
      = Ideal.log1p (max (∑ k : Fin 512, v0 (ix3 (0 : Fin 1) l k) * v3 (ix2 o k)) 0) - v10 (ix2 (0 : Fin 1) o) := by
  unfold k1_pay1
  rw [shapeCast_ab_1ab_apply, subf_apply, broadcastTo_1b_ab_apply, shapeCast_self]
  show Ideal.log1p (max (matmul (F := Ideal) dot_S256x512_S512x512_S256x512_1_0_0_1_n_n none _ _ _ (ix2 l o)) (Ideal.ofBits .f32 0x00000000#32)) - _ = _
  rw [mm_rows, Ideal.ofBits_zero_f32]

theorem pay_proj2 (v0 : Vec Ideal S1x256x512 .f32) (v3 : Vec Ideal S512x512 .f32) (v10 : Vec Ideal S1x512 .f32) (l : Fin 256) (o : Fin 512) :
    k2_pay1 (F := Ideal) v0 v3 v10 (ix3 (0 : Fin 1) l o)
      = Ideal.log1p (max (∑ k : Fin 512, v0 (ix3 (0 : Fin 1) l k) * v3 (ix2 o k)) 0) - v10 (ix2 (0 : Fin 1) o) := by
  unfold k2_pay1
  rw [shapeCast_ab_1ab_apply, subf_apply, broadcastTo_1b_ab_apply, shapeCast_self]
  show Ideal.log1p (max (matmul (F := Ideal) dot_S256x512_S512x512_S256x512_1_0_0_1_n_n none _ _ _ (ix2 l o)) (Ideal.ofBits .f32 0x00000000#32)) - _ = _
  rw [mm_rows, Ideal.ofBits_zero_f32]

theorem pay_out4 (v0 : Vec Ideal S1x256x512 .f32) (v3 : Vec Ideal S512x512 .f32) (l : Fin 256) (o : Fin 512) :
    k4_pay1 (F := Ideal) v0 v3 (ix3 (0 : Fin 1) l o) = ∑ k : Fin 512, v0 (ix3 (0 : Fin 1) l k) * v3 (ix2 o k) := by
  unfold k4_pay1
  rw [shapeCast_ab_1ab_apply, mm_rows]

end Cert.KernelIdeal.Val

end
-- ==== Proof.Val.Arr0.lean ====
/-
  Region 0's output array as one function of the region's input arrays.  Point `b` of the grid (a batch)
  writes the block `(b, ·, ·)` of the output; that block holds, at `(l, o)`,
  `log1p(max(⟨x[b,l,·], W[o,·]⟩, 0)) - lam[o]`, because the point's `x` block is the batch's slab of `x` and
  its weight and `lam` blocks are the whole arrays.  The two batches' blocks cover the output, so after
  the run the array is the projected array everywhere.
-/
import proofs.«421917_j23888608101009_3_alg».proof.Proof.KernelIdeal.R0
import proofs.«421917_j23888608101009_3_alg».proof.Proof.Val.Proj
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3_0 : (![0, 0, 0] : Fin 3 → Nat) = fun _ => 0 := funext fun a => by fin_cases a <;> rfl
theorem hz2_0 : (![0, 0] : Fin 2 → Nat) = fun _ => 0 := funext fun a => by fin_cases a <;> rfl

/-- The projected array: entry `(b, l, o)` is `log1p(max(⟨x[b,l,·], W[o,·]⟩, 0)) - lam[o]`. -/
abbrev projArr0 (a0 : S2x256x512.Idx → EReal) (a1 : S512x512.Idx → EReal) (a2 : S1x512.Idx → EReal) : S2x256x512.Idx → EReal :=
  fun j => Cert.Spec.proj (fun b l k => a0 (ix3 b l k)) (fun o k => a1 (ix2 o k)) (fun o => a2 (ix2 (0 : Fin 1) o)) (j 0) (j 1) (j 2)

/-- The stored block at `(u, l, o)`, when row `l` of the `x` block is row `(b, l)` of `x` and the weight and
    `lam` blocks read as the arrays do on row `o`: the projected array at `(b, l, o)`. -/
theorem blk0_val (x0 : Vec Ideal S1x256x512 .f32) (x1 : Vec Ideal S512x512 .f32) (x2 : Vec Ideal S1x512 .f32)
    (a0 : S2x256x512.Idx → EReal) (a1 : S512x512.Idx → EReal) (a2 : S1x512.Idx → EReal)
    (b : Fin 2) (u : Fin 1) (l : Fin 256) (o : Fin 512)
    (h0 : ∀ k : Fin 512, x0 (ix3 (0 : Fin 1) l k) = a0 (ix3 b l k))
    (h1 : ∀ k : Fin 512, x1 (ix2 o k) = a1 (ix2 o k))
    (h2 : x2 (ix2 (0 : Fin 1) o) = a2 (ix2 (0 : Fin 1) o)) :
    k0_pay1 (F := Ideal) x0 x1 x2 (ix3 u l o) = projArr0 a0 a1 a2 (ix3 b l o) := by
  obtain rfl : u = 0 := Subsingleton.elim _ _
  rw [pay_proj0]
  show _ = Ideal.log1p (max (∑ k : Fin 512, a0 (ix3 b l k) * a1 (ix2 o k)) 0) - a2 (ix2 (0 : Fin 1) o)
  simp only [h0, h1, h2]

/-- The printed index maps, decided over the grid: the `x` block and the output block are block `b` along the batch
    axis and block 0 along the others; the weights and `lam` are whole. -/
theorem idx_facts0 : ∀ t : Fin cfg0.N, win0_0.index t (0 : Fin 3) = win0_3.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 1 ∧ win0_3.index t (1 : Fin 3) = 0 ∧ win0_3.index t (2 : Fin 3) = 0 :=
  (by decide +kernel : ∀ t : Fin grid0.N, _)

/-- Every batch's block is some point's. -/
theorem idx_onto0 : ∀ q0 : Fin 2, ∃ t : Fin cfg0.N, win0_3.index t = ![q0.val, 0, 0] :=
  (by decide +kernel : ∀ q0 : Fin 2, ∃ t : Fin grid0.N, win0_3.index t = ![q0.val, 0, 0])

/-- What point `t` writes back is block `t` of the projected array of the arrays as the region finds them. -/
theorem flushed0_eq (c : Dev nD) (t : Fin cfg0.N) :
    (dat0 (F := Ideal) V c).flushed 3 t
      = ((cfg0.win 3).blk t).view.read (Elt Ideal) (projArr0 (V c main_arg0) (V c main_arg1) (V c main_v0)) := by
  show (cfg0.win 3).cut (grid0.coords t) ((dat0 V c).after 3 t) = _
  rw [after0_3]
  unfold out0_3
  rw [View.canon_unit_zero hz3_0]
  simp only [View.ld_unit_zero (S := S1x256x512) hz3_0, View.ld_unit_zero (S := S512x512) hz2_0, View.ld_unit_zero (S := S1x512) hz2_0]
  obtain ⟨e0, e1, e2, e3, e4, e5, e6, e7, e8, e9⟩ := idx_facts0 t
  refine funext fun (j : S1x256x512.Idx) => ?_
  obtain ⟨u, l, o, rfl⟩ : ∃ (u : Fin 1) (l : Fin 256) (o : Fin 512), j = ix3 u l o := ⟨j 0, j 1, j 2, eq_ix3 j⟩
  have hu : u.val = 0 := by omega
  have hb : win0_3.index t (0 : Fin 3) < 2 := by omega
  have hemb : ((cfg0.win 3).blk t).view.emb (ix3 u l o) = ix3 (⟨win0_3.index t (0 : Fin 3), hb⟩ : Fin 2) l o := by
    funext a; apply Fin.ext
    match a with
    | ⟨0, _⟩ => show win0_3.index t (0 : Fin 3) * 1 + 1 * u.val = win0_3.index t (0 : Fin 3); omega
    | ⟨1, _⟩ => show win0_3.index t (1 : Fin 3) * 256 + 1 * l.val = l.val; omega
    | ⟨2, _⟩ => show win0_3.index t (2 : Fin 3) * 512 + 1 * o.val = o.val; omega
  show k0_pay1 (F := Ideal) (iblk0 V c 0 t) (iblk0 V c 1 t) (iblk0 V c 2 t) (ix3 u l o)
    = projArr0 (V c main_arg0) (V c main_arg1) (V c main_v0) (((cfg0.win 3).blk t).view.emb (ix3 u l o))
  rw [hemb]
  refine blk0_val _ _ _ _ _ _ _ u l o ?_ ?_ ?_
  · intro k
    show V c main_arg0 (((cfg0.win 0).blk t).view.emb (ix3 (0 : Fin 1) l k)) = V c main_arg0 _
    congr 1; funext a; apply Fin.ext
    match a with
    | ⟨0, _⟩ => show win0_0.index t (0 : Fin 3) * 1 + 1 * 0 = win0_3.index t (0 : Fin 3); omega
    | ⟨1, _⟩ => show win0_0.index t (1 : Fin 3) * 256 + 1 * l.val = l.val; omega
    | ⟨2, _⟩ => show win0_0.index t (2 : Fin 3) * 512 + 1 * k.val = k.val; omega
  · intro k
    show V c main_arg1 (((cfg0.win 1).blk t).view.emb (ix2 o k)) = V c main_arg1 _
    congr 1; funext a; apply Fin.ext
    match a with
    | ⟨0, _⟩ => show win0_1.index t (0 : Fin 2) * 512 + 1 * o.val = o.val; omega
    | ⟨1, _⟩ => show win0_1.index t (1 : Fin 2) * 512 + 1 * k.val = k.val; omega
  · show V c main_v0 (((cfg0.win 2).blk t).view.emb (ix2 (0 : Fin 1) o)) = V c main_v0 _
    congr 1; funext a; apply Fin.ext
    match a with
    | ⟨0, _⟩ => show win0_2.index t (0 : Fin 2) * 1 + 1 * 0 = 0; omega
    | ⟨1, _⟩ => show win0_2.index t (1 : Fin 2) * 512 + 1 * o.val = o.val; omega

/-- An index of the array is in point `t`'s block iff each coordinate is in the block's range on its axis. -/
theorem mem_blk0 (t : Fin cfg0.N) (i : S2x256x512.Idx) :
    i ∈ ((cfg0.win 3).blk t).view.set ↔ ∀ a : Fin 3, win0_3.index t a * S1x256x512.size a ≤ (i a).val ∧ (i a).val < win0_3.index t a * S1x256x512.size a + S1x256x512.size a := by
  show i ∈ ((View.whole main_v1).slice (win0_3.rect t)).set ↔ _
  rw [View.set_slice_whole, Rect.mem_set_unit]
  exact Iff.rfl

/-- Every index of the output is in the block of the point of its batch. -/
theorem cover0 (i : S2x256x512.Idx) :
    ∃ t : Fin cfg0.N, (cfg0.win 3).flush t = true ∧ i ∈ ((cfg0.win 3).blk t).view.set := by
  have hi0 : (i 0).val < 2 := (i 0).isLt
  have hi1 : (i 1).val < 256 := (i 1).isLt
  have hi2 : (i 2).val < 512 := (i 2).isLt
  obtain ⟨t, ht⟩ := idx_onto0 ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-- The output array after the run: the projected array of the arrays as the region finds them. -/
theorem arr0 (c : Dev nD) :
    (dat0 (F := Ideal) V c).arrAt 3 cfg0.N
      = fun j => Cert.Spec.proj (fun b l k => V c main_arg0 (ix3 b l k)) (fun o k => V c main_arg1 (ix2 o k))
          (fun o => V c main_v0 (ix2 (0 : Fin 1) o)) (j 0) (j 1) (j 2) :=
  (dat0 V c).arrAt_eq_of_cover 3 (projArr0 (V c main_arg0) (V c main_arg1) (V c main_v0)) (fun t _ => flushed0_eq V c t) cover0

end Cert.KernelIdeal.Val

end
-- ==== Proof.Val.Arr1.lean ====
/-
  Region 1's output array as one function of the region's input arrays.  Point `b` of the grid (a batch)
  writes the block `(b, ·, ·)` of the output; that block holds, at `(l, o)`,
  `log1p(max(⟨x[b,l,·], W[o,·]⟩, 0)) - lam[o]`, because the point's `x` block is the batch's slab of `x` and
  its weight and `lam` blocks are the whole arrays.  The two batches' blocks cover the output, so after
  the run the array is the projected array everywhere.
-/
import proofs.«421917_j23888608101009_3_alg».proof.Proof.KernelIdeal.R1
import proofs.«421917_j23888608101009_3_alg».proof.Proof.Val.Proj
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3_1 : (![0, 0, 0] : Fin 3 → Nat) = fun _ => 0 := funext fun a => by fin_cases a <;> rfl
theorem hz2_1 : (![0, 0] : Fin 2 → Nat) = fun _ => 0 := funext fun a => by fin_cases a <;> rfl

/-- The projected array: entry `(b, l, o)` is `log1p(max(⟨x[b,l,·], W[o,·]⟩, 0)) - lam[o]`. -/
abbrev projArr1 (a0 : S2x256x512.Idx → EReal) (a1 : S512x512.Idx → EReal) (a2 : S1x512.Idx → EReal) : S2x256x512.Idx → EReal :=
  fun j => Cert.Spec.proj (fun b l k => a0 (ix3 b l k)) (fun o k => a1 (ix2 o k)) (fun o => a2 (ix2 (0 : Fin 1) o)) (j 0) (j 1) (j 2)

/-- The stored block at `(u, l, o)`, when row `l` of the `x` block is row `(b, l)` of `x` and the weight and
    `lam` blocks read as the arrays do on row `o`: the projected array at `(b, l, o)`. -/
theorem blk1_val (x0 : Vec Ideal S1x256x512 .f32) (x1 : Vec Ideal S512x512 .f32) (x2 : Vec Ideal S1x512 .f32)
    (a0 : S2x256x512.Idx → EReal) (a1 : S512x512.Idx → EReal) (a2 : S1x512.Idx → EReal)
    (b : Fin 2) (u : Fin 1) (l : Fin 256) (o : Fin 512)
    (h0 : ∀ k : Fin 512, x0 (ix3 (0 : Fin 1) l k) = a0 (ix3 b l k))
    (h1 : ∀ k : Fin 512, x1 (ix2 o k) = a1 (ix2 o k))
    (h2 : x2 (ix2 (0 : Fin 1) o) = a2 (ix2 (0 : Fin 1) o)) :
    k1_pay1 (F := Ideal) x0 x1 x2 (ix3 u l o) = projArr1 a0 a1 a2 (ix3 b l o) := by
  obtain rfl : u = 0 := Subsingleton.elim _ _
  rw [pay_proj1]
  show _ = Ideal.log1p (max (∑ k : Fin 512, a0 (ix3 b l k) * a1 (ix2 o k)) 0) - a2 (ix2 (0 : Fin 1) o)
  simp only [h0, h1, h2]

/-- The printed index maps, decided over the grid: the `x` block and the output block are block `b` along the batch
    axis and block 0 along the others; the weights and `lam` are whole. -/
theorem idx_facts1 : ∀ t : Fin cfg1.N, win1_0.index t (0 : Fin 3) = win1_3.index t (0 : Fin 3)
    ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) ≤ 1 ∧ win1_3.index t (1 : Fin 3) = 0 ∧ win1_3.index t (2 : Fin 3) = 0 :=
  (by decide +kernel : ∀ t : Fin grid1.N, _)

/-- Every batch's block is some point's. -/
theorem idx_onto1 : ∀ q0 : Fin 2, ∃ t : Fin cfg1.N, win1_3.index t = ![q0.val, 0, 0] :=
  (by decide +kernel : ∀ q0 : Fin 2, ∃ t : Fin grid1.N, win1_3.index t = ![q0.val, 0, 0])

/-- What point `t` writes back is block `t` of the projected array of the arrays as the region finds them. -/
theorem flushed1_eq (c : Dev nD) (t : Fin cfg1.N) :
    (dat1 (F := Ideal) V c).flushed 3 t
      = ((cfg1.win 3).blk t).view.read (Elt Ideal) (projArr1 (V c main_arg0) (V c main_arg2) (V c main_v0)) := by
  show (cfg1.win 3).cut (grid1.coords t) ((dat1 V c).after 3 t) = _
  rw [after1_3]
  unfold out1_3
  rw [View.canon_unit_zero hz3_1]
  simp only [View.ld_unit_zero (S := S1x256x512) hz3_1, View.ld_unit_zero (S := S512x512) hz2_1, View.ld_unit_zero (S := S1x512) hz2_1]
  obtain ⟨e0, e1, e2, e3, e4, e5, e6, e7, e8, e9⟩ := idx_facts1 t
  refine funext fun (j : S1x256x512.Idx) => ?_
  obtain ⟨u, l, o, rfl⟩ : ∃ (u : Fin 1) (l : Fin 256) (o : Fin 512), j = ix3 u l o := ⟨j 0, j 1, j 2, eq_ix3 j⟩
  have hu : u.val = 0 := by omega
  have hb : win1_3.index t (0 : Fin 3) < 2 := by omega
  have hemb : ((cfg1.win 3).blk t).view.emb (ix3 u l o) = ix3 (⟨win1_3.index t (0 : Fin 3), hb⟩ : Fin 2) l o := by
    funext a; apply Fin.ext
    match a with
    | ⟨0, _⟩ => show win1_3.index t (0 : Fin 3) * 1 + 1 * u.val = win1_3.index t (0 : Fin 3); omega
    | ⟨1, _⟩ => show win1_3.index t (1 : Fin 3) * 256 + 1 * l.val = l.val; omega
    | ⟨2, _⟩ => show win1_3.index t (2 : Fin 3) * 512 + 1 * o.val = o.val; omega
  show k1_pay1 (F := Ideal) (iblk1 V c 0 t) (iblk1 V c 1 t) (iblk1 V c 2 t) (ix3 u l o)
    = projArr1 (V c main_arg0) (V c main_arg2) (V c main_v0) (((cfg1.win 3).blk t).view.emb (ix3 u l o))
  rw [hemb]
  refine blk1_val _ _ _ _ _ _ _ u l o ?_ ?_ ?_
  · intro k
    show V c main_arg0 (((cfg1.win 0).blk t).view.emb (ix3 (0 : Fin 1) l k)) = V c main_arg0 _
    congr 1; funext a; apply Fin.ext
    match a with
    | ⟨0, _⟩ => show win1_0.index t (0 : Fin 3) * 1 + 1 * 0 = win1_3.index t (0 : Fin 3); omega
    | ⟨1, _⟩ => show win1_0.index t (1 : Fin 3) * 256 + 1 * l.val = l.val; omega
    | ⟨2, _⟩ => show win1_0.index t (2 : Fin 3) * 512 + 1 * k.val = k.val; omega
  · intro k
    show V c main_arg2 (((cfg1.win 1).blk t).view.emb (ix2 o k)) = V c main_arg2 _
    congr 1; funext a; apply Fin.ext
    match a with
    | ⟨0, _⟩ => show win1_1.index t (0 : Fin 2) * 512 + 1 * o.val = o.val; omega
    | ⟨1, _⟩ => show win1_1.index t (1 : Fin 2) * 512 + 1 * k.val = k.val; omega
  · show V c main_v0 (((cfg1.win 2).blk t).view.emb (ix2 (0 : Fin 1) o)) = V c main_v0 _
    congr 1; funext a; apply Fin.ext
    match a with
    | ⟨0, _⟩ => show win1_2.index t (0 : Fin 2) * 1 + 1 * 0 = 0; omega
    | ⟨1, _⟩ => show win1_2.index t (1 : Fin 2) * 512 + 1 * o.val = o.val; omega

/-- An index of the array is in point `t`'s block iff each coordinate is in the block's range on its axis. -/
theorem mem_blk1 (t : Fin cfg1.N) (i : S2x256x512.Idx) :
    i ∈ ((cfg1.win 3).blk t).view.set ↔ ∀ a : Fin 3, win1_3.index t a * S1x256x512.size a ≤ (i a).val ∧ (i a).val < win1_3.index t a * S1x256x512.size a + S1x256x512.size a := by
  show i ∈ ((View.whole main_v2).slice (win1_3.rect t)).set ↔ _
  rw [View.set_slice_whole, Rect.mem_set_unit]
  exact Iff.rfl

/-- Every index of the output is in the block of the point of its batch. -/
theorem cover1 (i : S2x256x512.Idx) :
    ∃ t : Fin cfg1.N, (cfg1.win 3).flush t = true ∧ i ∈ ((cfg1.win 3).blk t).view.set := by
  have hi0 : (i 0).val < 2 := (i 0).isLt
  have hi1 : (i 1).val < 256 := (i 1).isLt
  have hi2 : (i 2).val < 512 := (i 2).isLt
  obtain ⟨t, ht⟩ := idx_onto1 ⟨(i 0).val, hi0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 512 ≤ (i 2).val ∧ (i 2).val < win1_3.index t (2 : Fin 3) * 512 + 512; omega

/-- The output array after the run: the projected array of the arrays as the region finds them. -/
theorem arr1 (c : Dev nD) :
    (dat1 (F := Ideal) V c).arrAt 3 cfg1.N
      = fun j => Cert.Spec.proj (fun b l k => V c main_arg0 (ix3 b l k)) (fun o k => V c main_arg2 (ix2 o k))
          (fun o => V c main_v0 (ix2 (0 : Fin 1) o)) (j 0) (j 1) (j 2) :=
  (dat1 V c).arrAt_eq_of_cover 3 (projArr1 (V c main_arg0) (V c main_arg2) (V c main_v0)) (fun t _ => flushed1_eq V c t) cover1

end Cert.KernelIdeal.Val

end
-- ==== Proof.Val.Arr2.lean ====
/-
  Region 2's output array as one function of the region's input arrays.  Point `b` of the grid (a batch)
  writes the block `(b, ·, ·)` of the output; that block holds, at `(l, o)`,
  `log1p(max(⟨x[b,l,·], W[o,·]⟩, 0)) - lam[o]`, because the point's `x` block is the batch's slab of `x` and
  its weight and `lam` blocks are the whole arrays.  The two batches' blocks cover the output, so after
  the run the array is the projected array everywhere.
-/
import proofs.«421917_j23888608101009_3_alg».proof.Proof.KernelIdeal.R2
import proofs.«421917_j23888608101009_3_alg».proof.Proof.Val.Proj
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3_2 : (![0, 0, 0] : Fin 3 → Nat) = fun _ => 0 := funext fun a => by fin_cases a <;> rfl
theorem hz2_2 : (![0, 0] : Fin 2 → Nat) = fun _ => 0 := funext fun a => by fin_cases a <;> rfl

/-- The projected array: entry `(b, l, o)` is `log1p(max(⟨x[b,l,·], W[o,·]⟩, 0)) - lam[o]`. -/
abbrev projArr2 (a0 : S2x256x512.Idx → EReal) (a1 : S512x512.Idx → EReal) (a2 : S1x512.Idx → EReal) : S2x256x512.Idx → EReal :=
  fun j => Cert.Spec.proj (fun b l k => a0 (ix3 b l k)) (fun o k => a1 (ix2 o k)) (fun o => a2 (ix2 (0 : Fin 1) o)) (j 0) (j 1) (j 2)

/-- The stored block at `(u, l, o)`, when row `l` of the `x` block is row `(b, l)` of `x` and the weight and
    `lam` blocks read as the arrays do on row `o`: the projected array at `(b, l, o)`. -/
theorem blk2_val (x0 : Vec Ideal S1x256x512 .f32) (x1 : Vec Ideal S512x512 .f32) (x2 : Vec Ideal S1x512 .f32)
    (a0 : S2x256x512.Idx → EReal) (a1 : S512x512.Idx → EReal) (a2 : S1x512.Idx → EReal)
    (b : Fin 2) (u : Fin 1) (l : Fin 256) (o : Fin 512)
    (h0 : ∀ k : Fin 512, x0 (ix3 (0 : Fin 1) l k) = a0 (ix3 b l k))
    (h1 : ∀ k : Fin 512, x1 (ix2 o k) = a1 (ix2 o k))
    (h2 : x2 (ix2 (0 : Fin 1) o) = a2 (ix2 (0 : Fin 1) o)) :
    k2_pay1 (F := Ideal) x0 x1 x2 (ix3 u l o) = projArr2 a0 a1 a2 (ix3 b l o) := by
  obtain rfl : u = 0 := Subsingleton.elim _ _
  rw [pay_proj2]
  show _ = Ideal.log1p (max (∑ k : Fin 512, a0 (ix3 b l k) * a1 (ix2 o k)) 0) - a2 (ix2 (0 : Fin 1) o)
  simp only [h0, h1, h2]

/-- The printed index maps, decided over the grid: the `x` block and the output block are block `b` along the batch
    axis and block 0 along the others; the weights and `lam` are whole. -/
theorem idx_facts2 : ∀ t : Fin cfg2.N, win2_0.index t (0 : Fin 3) = win2_3.index t (0 : Fin 3)
    ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) ≤ 1 ∧ win2_3.index t (1 : Fin 3) = 0 ∧ win2_3.index t (2 : Fin 3) = 0 :=
  (by decide +kernel : ∀ t : Fin grid2.N, _)

/-- Every batch's block is some point's. -/
theorem idx_onto2 : ∀ q0 : Fin 2, ∃ t : Fin cfg2.N, win2_3.index t = ![q0.val, 0, 0] :=
  (by decide +kernel : ∀ q0 : Fin 2, ∃ t : Fin grid2.N, win2_3.index t = ![q0.val, 0, 0])

/-- What point `t` writes back is block `t` of the projected array of the arrays as the region finds them. -/
theorem flushed2_eq (c : Dev nD) (t : Fin cfg2.N) :
    (dat2 (F := Ideal) V c).flushed 3 t
      = ((cfg2.win 3).blk t).view.read (Elt Ideal) (projArr2 (V c main_arg0) (V c main_arg3) (V c main_v0)) := by
  show (cfg2.win 3).cut (grid2.coords t) ((dat2 V c).after 3 t) = _
  rw [after2_3]
  unfold out2_3
  rw [View.canon_unit_zero hz3_2]
  simp only [View.ld_unit_zero (S := S1x256x512) hz3_2, View.ld_unit_zero (S := S512x512) hz2_2, View.ld_unit_zero (S := S1x512) hz2_2]
  obtain ⟨e0, e1, e2, e3, e4, e5, e6, e7, e8, e9⟩ := idx_facts2 t
  refine funext fun (j : S1x256x512.Idx) => ?_
  obtain ⟨u, l, o, rfl⟩ : ∃ (u : Fin 1) (l : Fin 256) (o : Fin 512), j = ix3 u l o := ⟨j 0, j 1, j 2, eq_ix3 j⟩
  have hu : u.val = 0 := by omega
  have hb : win2_3.index t (0 : Fin 3) < 2 := by omega
  have hemb : ((cfg2.win 3).blk t).view.emb (ix3 u l o) = ix3 (⟨win2_3.index t (0 : Fin 3), hb⟩ : Fin 2) l o := by
    funext a; apply Fin.ext
    match a with
    | ⟨0, _⟩ => show win2_3.index t (0 : Fin 3) * 1 + 1 * u.val = win2_3.index t (0 : Fin 3); omega
    | ⟨1, _⟩ => show win2_3.index t (1 : Fin 3) * 256 + 1 * l.val = l.val; omega
    | ⟨2, _⟩ => show win2_3.index t (2 : Fin 3) * 512 + 1 * o.val = o.val; omega
  show k2_pay1 (F := Ideal) (iblk2 V c 0 t) (iblk2 V c 1 t) (iblk2 V c 2 t) (ix3 u l o)
    = projArr2 (V c main_arg0) (V c main_arg3) (V c main_v0) (((cfg2.win 3).blk t).view.emb (ix3 u l o))
  rw [hemb]
  refine blk2_val _ _ _ _ _ _ _ u l o ?_ ?_ ?_
  · intro k
    show V c main_arg0 (((cfg2.win 0).blk t).view.emb (ix3 (0 : Fin 1) l k)) = V c main_arg0 _
    congr 1; funext a; apply Fin.ext
    match a with
    | ⟨0, _⟩ => show win2_0.index t (0 : Fin 3) * 1 + 1 * 0 = win2_3.index t (0 : Fin 3); omega
    | ⟨1, _⟩ => show win2_0.index t (1 : Fin 3) * 256 + 1 * l.val = l.val; omega
    | ⟨2, _⟩ => show win2_0.index t (2 : Fin 3) * 512 + 1 * k.val = k.val; omega
  · intro k
    show V c main_arg3 (((cfg2.win 1).blk t).view.emb (ix2 o k)) = V c main_arg3 _
    congr 1; funext a; apply Fin.ext
    match a with
    | ⟨0, _⟩ => show win2_1.index t (0 : Fin 2) * 512 + 1 * o.val = o.val; omega
    | ⟨1, _⟩ => show win2_1.index t (1 : Fin 2) * 512 + 1 * k.val = k.val; omega
  · show V c main_v0 (((cfg2.win 2).blk t).view.emb (ix2 (0 : Fin 1) o)) = V c main_v0 _
    congr 1; funext a; apply Fin.ext
    match a with
    | ⟨0, _⟩ => show win2_2.index t (0 : Fin 2) * 1 + 1 * 0 = 0; omega
    | ⟨1, _⟩ => show win2_2.index t (1 : Fin 2) * 512 + 1 * o.val = o.val; omega

/-- An index of the array is in point `t`'s block iff each coordinate is in the block's range on its axis. -/
theorem mem_blk2 (t : Fin cfg2.N) (i : S2x256x512.Idx) :
    i ∈ ((cfg2.win 3).blk t).view.set ↔ ∀ a : Fin 3, win2_3.index t a * S1x256x512.size a ≤ (i a).val ∧ (i a).val < win2_3.index t a * S1x256x512.size a + S1x256x512.size a := by
  show i ∈ ((View.whole main_v3).slice (win2_3.rect t)).set ↔ _
  rw [View.set_slice_whole, Rect.mem_set_unit]
  exact Iff.rfl

/-- Every index of the output is in the block of the point of its batch. -/
theorem cover2 (i : S2x256x512.Idx) :
    ∃ t : Fin cfg2.N, (cfg2.win 3).flush t = true ∧ i ∈ ((cfg2.win 3).blk t).view.set := by
  have hi0 : (i 0).val < 2 := (i 0).isLt
  have hi1 : (i 1).val < 256 := (i 1).isLt
  have hi2 : (i 2).val < 512 := (i 2).isLt
  obtain ⟨t, ht⟩ := idx_onto2 ⟨(i 0).val, hi0⟩
  have q0 : win2_3.index t (0 : Fin 3) = (i 0).val := congrFun ht 0
  have q1 : win2_3.index t (1 : Fin 3) = 0 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 256 ≤ (i 1).val ∧ (i 1).val < win2_3.index t (1 : Fin 3) * 256 + 256; omega
  | ⟨2, _⟩ => show win2_3.index t (2 : Fin 3) * 512 ≤ (i 2).val ∧ (i 2).val < win2_3.index t (2 : Fin 3) * 512 + 512; omega

/-- The output array after the run: the projected array of the arrays as the region finds them. -/
theorem arr2 (c : Dev nD) :
    (dat2 (F := Ideal) V c).arrAt 3 cfg2.N
      = fun j => Cert.Spec.proj (fun b l k => V c main_arg0 (ix3 b l k)) (fun o k => V c main_arg3 (ix2 o k))
          (fun o => V c main_v0 (ix2 (0 : Fin 1) o)) (j 0) (j 1) (j 2) :=
  (dat2 V c).arrAt_eq_of_cover 3 (projArr2 (V c main_arg0) (V c main_arg3) (V c main_v0)) (fun t _ => flushed2_eq V c t) cover2

end Cert.KernelIdeal.Val

end
-- ==== Proof.Val.TlQ.lean ====
/-
  The query block's tropical linear map read at an index: the running maximum over the 64 contraction
  positions of `x[r, i] + w[o, i]`, started from `-∞`, is the supremum over `i`.
-/
import proofs.«421917_j23888608101009_3_alg».proof.Proof.KernelIdeal.R3Chain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.ValueIdx

namespace TlQ

/-- The pattern `0xFF800000` is `-∞`, the bottom of the extended reals. -/
theorem negInf_f32 : (Scalar.ofBits (F := Ideal) .f32 0xFF800000#32 : Ideal .f32) = (⊥ : EReal) := by
  show Ideal.ofBits .f32 0xFF800000#32 = ⊥
  simp [Ideal.ofBits, Ideal.ieee]

/-- A column `[a, 1]` broadcast to `[a, b]` reads, at `(p, c)`, the column at `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The term of the tropical product at contraction position `n`: `v1[r, n] + v3[n, o]` (`⊥` past the extent). -/
def tTerm (v1 : FVec Ideal S128x64 .f32) (v3 : FVec Ideal S64x64 .f32) (r : Fin 128) (o : Fin 64) (n : ℕ) : EReal :=
  if h : n < 64 then v1 (ix2 r ⟨n, h⟩) + v3 (ix2 ⟨n, h⟩ o) else ⊥

/-- The running maximum of `f 0, …, f (n - 1)` from `⊥`. -/
def runMax (f : ℕ → EReal) : ℕ → EReal
  | 0 => ⊥
  | n + 1 => max (runMax f n) (f n)

theorem runMax_eq_sup (f : ℕ → EReal) (n : ℕ) : runMax f n = (Finset.range n).sup f := by
  induction n with
  | zero => rfl
  | succ n ih =>
    show max (runMax f n) (f n) = _
    rw [Finset.range_add_one, Finset.sup_insert, ← ih, max_comm]

/-- Column `n` of `v1` down the lanes plus row `n` of `v3` across the rows, at `(r, o)`. -/
theorem term_apply (v1 : FVec Ideal S128x64 .f32) (v3 : FVec Ideal S64x64 .f32) (n : ℕ)
    (h1 : S128x64.Slices ![0, n] S128x1) (h3 : S64x64.Slices ![n, 0] S1x64) (r : Fin 128) (o : Fin 64) :
    addf (broadcastTo S128x64 (extractStridedSlice S128x1 ![0, n] v1 h1) broadcasts_S128x1_S128x64)
      (broadcastTo S128x64 (extractStridedSlice S1x64 ![n, 0] v3 h3) broadcasts_S1x64_S128x64) (ix2 r o)
      = tTerm v1 v3 r o n := by
  have hn : n < 64 := by
    have := h1.2 1
    simp at this
    omega
  rw [addf_apply, broadcastTo_a1_ab_apply, broadcastTo_1b_ab_apply,
    slice2_axis1_apply n v1 h1 r 0 ⟨n, hn⟩ rfl, slice2_axis0_apply n v3 h3 0 o ⟨n, hn⟩ rfl]
  unfold tTerm
  rw [dif_pos hn]

/-! ## The stretches of the running maximum -/

theorem pay126_apply (x0 : Vec Ideal S1x128x64 .f32) (w : Vec Ideal S64x64 .f32) (r : Fin 128) (o : Fin 64) :
    k3_pay126 (F := Ideal) x0 w (ix2 r o) = runMax (tTerm (k3_pay124 x0) (k3_pay125 w) r o) 7 := by
  unfold k3_pay126
  simp only [maximumf_apply, term_apply, broadcast_apply, negInf_f32]
  rfl

theorem pay127_apply (x0 : Vec Ideal S1x128x64 .f32) (w : Vec Ideal S64x64 .f32) (r : Fin 128) (o : Fin 64) :
    k3_pay127 (F := Ideal) x0 w (ix2 r o) = tTerm (k3_pay124 x0) (k3_pay125 w) r o 7 := by
  unfold k3_pay127
  exact term_apply _ _ _ _ _ r o

theorem pay128_apply (v1 : FVec Ideal S128x64 .f32) (v3 : FVec Ideal S64x64 .f32) (a b : FVec Ideal S128x64 .f32)
    (r : Fin 128) (o : Fin 64) (ha : a (ix2 r o) = runMax (tTerm v1 v3 r o) 7)
    (hb : b (ix2 r o) = tTerm v1 v3 r o 7) :
    k3_pay128 v1 v3 a b (ix2 r o) = runMax (tTerm v1 v3 r o) 17 := by
  unfold k3_pay128
  simp only [maximumf_apply, term_apply, ha, hb]
  rfl

theorem pay129_apply (v1 : FVec Ideal S128x64 .f32) (v3 : FVec Ideal S64x64 .f32) (r : Fin 128) (o : Fin 64) :
    k3_pay129 v1 v3 (ix2 r o) = tTerm v1 v3 r o 17 := by
  unfold k3_pay129
  exact term_apply _ _ _ _ _ r o

theorem pay130_apply (v1 : FVec Ideal S128x64 .f32) (v3 : FVec Ideal S64x64 .f32) (a b : FVec Ideal S128x64 .f32)
    (r : Fin 128) (o : Fin 64) (ha : a (ix2 r o) = runMax (tTerm v1 v3 r o) 17)
    (hb : b (ix2 r o) = tTerm v1 v3 r o 17) :
    k3_pay130 v1 v3 a b (ix2 r o) = runMax (tTerm v1 v3 r o) 27 := by
  unfold k3_pay130
  simp only [maximumf_apply, term_apply, ha, hb]
  rfl

theorem pay131_apply (v1 : FVec Ideal S128x64 .f32) (v3 : FVec Ideal S64x64 .f32) (r : Fin 128) (o : Fin 64) :
    k3_pay131 v1 v3 (ix2 r o) = tTerm v1 v3 r o 27 := by
  unfold k3_pay131
  exact term_apply _ _ _ _ _ r o

theorem pay132_apply (v1 : FVec Ideal S128x64 .f32) (v3 : FVec Ideal S64x64 .f32) (a b : FVec Ideal S128x64 .f32)
    (r : Fin 128) (o : Fin 64) (ha : a (ix2 r o) = runMax (tTerm v1 v3 r o) 27)
    (hb : b (ix2 r o) = tTerm v1 v3 r o 27) :
    k3_pay132 v1 v3 a b (ix2 r o) = runMax (tTerm v1 v3 r o) 37 := by
  unfold k3_pay132
  simp only [maximumf_apply, term_apply, ha, hb]
  rfl

theorem pay133_apply (v1 : FVec Ideal S128x64 .f32) (v3 : FVec Ideal S64x64 .f32) (r : Fin 128) (o : Fin 64) :
    k3_pay133 v1 v3 (ix2 r o) = tTerm v1 v3 r o 37 := by
  unfold k3_pay133
  exact term_apply _ _ _ _ _ r o

theorem pay134_apply (v1 : FVec Ideal S128x64 .f32) (v3 : FVec Ideal S64x64 .f32) (a b : FVec Ideal S128x64 .f32)
    (r : Fin 128) (o : Fin 64) (ha : a (ix2 r o) = runMax (tTerm v1 v3 r o) 37)
    (hb : b (ix2 r o) = tTerm v1 v3 r o 37) :
    k3_pay134 v1 v3 a b (ix2 r o) = runMax (tTerm v1 v3 r o) 47 := by
  unfold k3_pay134
  simp only [maximumf_apply, term_apply, ha, hb]
  rfl

theorem pay135_apply (v1 : FVec Ideal S128x64 .f32) (v3 : FVec Ideal S64x64 .f32) (r : Fin 128) (o : Fin 64) :
    k3_pay135 v1 v3 (ix2 r o) = tTerm v1 v3 r o 47 := by
  unfold k3_pay135
  exact term_apply _ _ _ _ _ r o

theorem pay136_apply (v1 : FVec Ideal S128x64 .f32) (v3 : FVec Ideal S64x64 .f32) (a b : FVec Ideal S128x64 .f32)
    (r : Fin 128) (o : Fin 64) (ha : a (ix2 r o) = runMax (tTerm v1 v3 r o) 47)
    (hb : b (ix2 r o) = tTerm v1 v3 r o 47) :
    k3_pay136 v1 v3 a b (ix2 r o) = runMax (tTerm v1 v3 r o) 57 := by
  unfold k3_pay136
  simp only [maximumf_apply, term_apply, ha, hb]
  rfl

theorem pay137_apply (v1 : FVec Ideal S128x64 .f32) (v3 : FVec Ideal S64x64 .f32) (r : Fin 128) (o : Fin 64) :
    k3_pay137 v1 v3 (ix2 r o) = tTerm v1 v3 r o 57 := by
  unfold k3_pay137
  exact term_apply _ _ _ _ _ r o

theorem pay138_apply (v1 : FVec Ideal S128x64 .f32) (v3 : FVec Ideal S64x64 .f32) (a b : FVec Ideal S128x64 .f32)
    (r : Fin 128) (o : Fin 64) (ha : a (ix2 r o) = runMax (tTerm v1 v3 r o) 57)
    (hb : b (ix2 r o) = tTerm v1 v3 r o 57) :
    k3_pay138 v1 v3 a b (ix2 r o) = runMax (tTerm v1 v3 r o) 64 := by
  unfold k3_pay138
  simp only [maximumf_apply, term_apply, ha, hb]
  rfl

/-! ## The whole map -/

/-- The supremum over `Fin 64` of a function read off the natural numbers below 64. -/
theorem sup_univ_eq_sup_range (g : Fin 64 → EReal) (f : ℕ → EReal) (hf : ∀ i : Fin 64, f i.val = g i) :
    Finset.univ.sup g = (Finset.range 64).sup f := by
  apply le_antisymm
  · refine Finset.sup_le fun i _ => ?_
    rw [← hf i]
    exact Finset.le_sup (f := f) (Finset.mem_range.2 i.isLt)
  · refine Finset.sup_le fun n hn => ?_
    have h : n < 64 := Finset.mem_range.1 hn
    have := hf ⟨n, h⟩
    rw [show f n = g ⟨n, h⟩ from this]
    exact Finset.le_sup (f := g) (Finset.mem_univ _)

end TlQ

open TlQ in
theorem tlq_apply (x0 : Vec Ideal S1x128x64 .f32) (w : Vec Ideal S64x64 .f32) (r : Fin 128) (o : Fin 64) :
    tlq (F := Ideal) x0 w (ix2 r o) = Finset.univ.sup fun i : Fin 64 => x0 (ix3 (0 : Fin 1) r i) + w (ix2 o i) := by
  have h := pay138_apply (k3_pay124 x0) (k3_pay125 w) _ _ r o
    (pay136_apply (k3_pay124 x0) (k3_pay125 w) _ _ r o
      (pay134_apply (k3_pay124 x0) (k3_pay125 w) _ _ r o
        (pay132_apply (k3_pay124 x0) (k3_pay125 w) _ _ r o
          (pay130_apply (k3_pay124 x0) (k3_pay125 w) _ _ r o
            (pay128_apply (k3_pay124 x0) (k3_pay125 w) _ _ r o (pay126_apply x0 w r o) (pay127_apply x0 w r o))
            (pay129_apply _ _ r o))
          (pay131_apply _ _ r o))
        (pay133_apply _ _ r o))
      (pay135_apply _ _ r o))
    (pay137_apply _ _ r o)
  refine h.trans ?_
  rw [runMax_eq_sup]
  refine (sup_univ_eq_sup_range _ _ fun i => ?_).symm
  unfold tTerm
  rw [dif_pos i.isLt]
  show k3_pay124 x0 (ix2 r i) + k3_pay125 w (ix2 i o) = _
  unfold k3_pay124 k3_pay125
  rw [shapeCast_1ab_ab_apply, transpose_ix2_apply]

end Cert.KernelIdeal.Val

end
-- ==== Proof.Val.TlK.lean ====
/-
  The tropical linear map of a 128-row key block, read at one entry: the running maximum over the 64 unrolled
  steps, each step's term being column `i` of the block plus row `i` of the transposed weight, is the supremum
  over `i` of `kb[r, i] + w[o, i]`.
-/
import proofs.«421917_j23888608101009_3_alg».proof.Proof.KernelIdeal.R3Chain
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Cert.KernelIdeal.Frm Idealize.ShloMosaic Idealize.ShloMosaic.ValueIdx

namespace TlK

/-- A column of a 128-row block broadcast along the rows reads the column's entry of the row. -/
theorem bcast_col_apply (c : FVec Ideal S128x1 .f32) (h : S128x1.Broadcasts S128x64) (r : Fin 128) (o : Fin 64) :
    broadcastTo S128x64 c h (ix2 r o) = c (ix2 r (0 : Fin 1)) := by
  refine broadcastTo_apply c h (ix2 r o) (ix2 r (0 : Fin 1)) fun ax => ?_
  match ax with
  | ⟨0, _⟩ => rfl
  | ⟨1, _⟩ => rfl

/-- The bottom element is what the running maximum starts from. -/
theorem neg_inf_eq_bot : (Scalar.ofBits (F := Ideal) .f32 0xFF800000#32 : Ideal .f32) = ⊥ := by
  show Ideal.ofBits .f32 0xFF800000#32 = ⊥
  simp [Ideal.ofBits, Ideal.ieee]

/-- The term of step `i` at `(r, o)`: `x[r, i] + wT[i, o]` (bottom past the 64 steps). -/
def tmN (x : FVec Ideal S128x64 .f32) (wT : FVec Ideal S64x64 .f32) (r : Fin 128) (o : Fin 64) (i : Nat) : EReal :=
  if h : i < 64 then x (ix2 r ⟨i, h⟩) + wT (ix2 ⟨i, h⟩ o) else ⊥

/-- The running maximum of the first `n` terms at `(r, o)`. -/
def psup (x : FVec Ideal S128x64 .f32) (wT : FVec Ideal S64x64 .f32) (r : Fin 128) (o : Fin 64) (n : Nat) : EReal :=
  (Finset.range n).sup (tmN x wT r o)

theorem psup_zero (x : FVec Ideal S128x64 .f32) (wT : FVec Ideal S64x64 .f32) (r : Fin 128) (o : Fin 64) :
    psup x wT r o 0 = ⊥ := by
  simp [psup]

theorem psup_succ (x : FVec Ideal S128x64 .f32) (wT : FVec Ideal S64x64 .f32) (r : Fin 128) (o : Fin 64) (n : Nat) :
    psup x wT r o (n + 1) = max (psup x wT r o n) (tmN x wT r o n) := by
  unfold psup
  rw [Finset.range_add_one, Finset.sup_insert, max_comm]

/-- One step's term as the kernel spells it: column `k` of `x` and row `k` of `wT`, each broadcast, added. -/
theorem term_apply (k : Nat) (x : FVec Ideal S128x64 .f32) (wT : FVec Ideal S64x64 .f32)
    (h1 : S128x64.Slices ![0, k] S128x1) (h2 : S64x64.Slices ![k, 0] S1x64)
    (hb1 : S128x1.Broadcasts S128x64) (hb2 : S1x64.Broadcasts S128x64) (r : Fin 128) (o : Fin 64) :
    addf (broadcastTo S128x64 (extractStridedSlice S128x1 ![0, k] x h1) hb1)
      (broadcastTo S128x64 (extractStridedSlice S1x64 ![k, 0] wT h2) hb2) (ix2 r o)
      = tmN x wT r o k := by
  have hk : k < 64 := Nat.lt_of_succ_le (h1.2 1)
  rw [tmN, dif_pos hk, addf_apply, bcast_col_apply, broadcastTo_1b_ab_apply,
    slice2_axis1_apply k x h1 r (0 : Fin 1) ⟨k, hk⟩ rfl,
    slice2_axis0_apply k wT h2 (0 : Fin 1) o ⟨k, hk⟩ rfl]

/-- The first stretch: steps 0 to 6, from bottom. -/
theorem pay6_apply (w : Vec Ideal S64x64 .f32) (kb : Vec Ideal S1x128x64 .f32) (r : Fin 128) (o : Fin 64) :
    k3_pay6 (F := Ideal) w kb (ix2 r o) = psup (k3_pay3 kb) (k3_pay5 w) r o 7 := by
  unfold k3_pay6
  simp only [maximumf_apply, broadcast_apply, neg_inf_eq_bot, term_apply, psup_succ, psup_zero]

/-! The later stretches: each carries the running maximum on by ten steps (the last by seven), its first term
    using the column cut before it. -/

theorem pay8_apply (x : FVec Ideal S128x64 .f32) (wT : FVec Ideal S64x64 .f32) (acc : FVec Ideal S128x64 .f32)
    (h : S128x64.Slices ![0, 7] S128x1) (r : Fin 128) (o : Fin 64) (hacc : acc (ix2 r o) = psup x wT r o 7) :
    k3_pay8 (F := Ideal) x wT acc (extractStridedSlice S128x1 ![0, 7] x h) (ix2 r o) = psup x wT r o 17 := by
  unfold k3_pay8
  simp only [maximumf_apply, term_apply, hacc, psup_succ, psup_zero]

theorem pay10_apply (x : FVec Ideal S128x64 .f32) (wT : FVec Ideal S64x64 .f32) (acc : FVec Ideal S128x64 .f32)
    (h : S128x64.Slices ![0, 17] S128x1) (r : Fin 128) (o : Fin 64) (hacc : acc (ix2 r o) = psup x wT r o 17) :
    k3_pay10 (F := Ideal) x wT acc (extractStridedSlice S128x1 ![0, 17] x h) (ix2 r o) = psup x wT r o 27 := by
  unfold k3_pay10
  simp only [maximumf_apply, term_apply, hacc, psup_succ, psup_zero]

theorem pay12_apply (x : FVec Ideal S128x64 .f32) (wT : FVec Ideal S64x64 .f32) (acc : FVec Ideal S128x64 .f32)
    (h : S128x64.Slices ![0, 27] S128x1) (r : Fin 128) (o : Fin 64) (hacc : acc (ix2 r o) = psup x wT r o 27) :
    k3_pay12 (F := Ideal) x wT acc (extractStridedSlice S128x1 ![0, 27] x h) (ix2 r o) = psup x wT r o 37 := by
  unfold k3_pay12
  simp only [maximumf_apply, term_apply, hacc, psup_succ, psup_zero]

theorem pay14_apply (x : FVec Ideal S128x64 .f32) (wT : FVec Ideal S64x64 .f32) (acc : FVec Ideal S128x64 .f32)
    (h : S128x64.Slices ![0, 37] S128x1) (r : Fin 128) (o : Fin 64) (hacc : acc (ix2 r o) = psup x wT r o 37) :
    k3_pay14 (F := Ideal) x wT acc (extractStridedSlice S128x1 ![0, 37] x h) (ix2 r o) = psup x wT r o 47 := by
  unfold k3_pay14
  simp only [maximumf_apply, term_apply, hacc, psup_succ, psup_zero]

theorem pay16_apply (x : FVec Ideal S128x64 .f32) (wT : FVec Ideal S64x64 .f32) (acc : FVec Ideal S128x64 .f32)
    (h : S128x64.Slices ![0, 47] S128x1) (r : Fin 128) (o : Fin 64) (hacc : acc (ix2 r o) = psup x wT r o 47) :
    k3_pay16 (F := Ideal) x wT acc (extractStridedSlice S128x1 ![0, 47] x h) (ix2 r o) = psup x wT r o 57 := by
  unfold k3_pay16
  simp only [maximumf_apply, term_apply, hacc, psup_succ, psup_zero]

theorem pay18_apply (x : FVec Ideal S128x64 .f32) (wT : FVec Ideal S64x64 .f32) (acc : FVec Ideal S128x64 .f32)
    (h : S128x64.Slices ![0, 57] S128x1) (r : Fin 128) (o : Fin 64) (hacc : acc (ix2 r o) = psup x wT r o 57) :
    k3_pay18 (F := Ideal) x wT acc (extractStridedSlice S128x1 ![0, 57] x h) (ix2 r o) = psup x wT r o 64 := by
  unfold k3_pay18
  simp only [maximumf_apply, term_apply, hacc, psup_succ, psup_zero, shapeCast_self]

/-- The running maximum over all 64 steps is the supremum over the steps. -/
theorem psup_full (x : FVec Ideal S128x64 .f32) (wT : FVec Ideal S64x64 .f32) (r : Fin 128) (o : Fin 64) :
    psup x wT r o 64 = Finset.univ.sup fun i : Fin 64 => x (ix2 r i) + wT (ix2 i o) := by
  unfold psup
  apply le_antisymm
  · refine Finset.sup_le fun i hi => ?_
    have hi' : i < 64 := Finset.mem_range.1 hi
    rw [tmN, dif_pos hi']
    exact Finset.le_sup (f := fun i : Fin 64 => x (ix2 r i) + wT (ix2 i o)) (Finset.mem_univ (⟨i, hi'⟩ : Fin 64))
  · refine Finset.sup_le fun i _ => ?_
    have h := Finset.le_sup (f := tmN x wT r o) (Finset.mem_range.2 i.isLt)
    rwa [tmN, dif_pos i.isLt] at h

end TlK

open TlK in
/-- The tropical linear map of a key block at `(r, o)`: `max_i (kb[r, i] + w[o, i])`. -/
theorem tlk_apply (kb : Vec Ideal S1x128x64 .f32) (w : Vec Ideal S64x64 .f32) (r : Fin 128) (o : Fin 64) :
    tlk (F := Ideal) kb w (ix2 r o) = Finset.univ.sup fun i : Fin 64 => kb (ix3 (0 : Fin 1) r i) + w (ix2 o i) := by
  have h6 := pay6_apply w kb r o
  have h8 := pay8_apply (k3_pay3 kb) (k3_pay5 w) (k3_pay6 w kb) slices_S128x64_o0_7_S128x1 r o h6
  have h10 := pay10_apply (k3_pay3 kb) (k3_pay5 w) _ slices_S128x64_o0_17_S128x1 r o h8
  have h12 := pay12_apply (k3_pay3 kb) (k3_pay5 w) _ slices_S128x64_o0_27_S128x1 r o h10
  have h14 := pay14_apply (k3_pay3 kb) (k3_pay5 w) _ slices_S128x64_o0_37_S128x1 r o h12
  have h16 := pay16_apply (k3_pay3 kb) (k3_pay5 w) _ slices_S128x64_o0_47_S128x1 r o h14
  have h18 := pay18_apply (k3_pay3 kb) (k3_pay5 w) _ slices_S128x64_o0_57_S128x1 r o h16
  refine (h18.trans (psup_full _ _ r o)).trans ?_
  refine Finset.sup_congr rfl fun i _ => ?_
  show k3_pay3 kb (ix2 r i) + k3_pay5 w (ix2 i o) = _
  unfold k3_pay3 k3_pay5
  rw [shapeCast_1ab_ab_apply, transpose_ix2_apply]

end Cert.KernelIdeal.Val
end
-- ==== Proof.Val.TlV.lean ====
/-
  The value block's tropical linear map read at an element: `y[r, o] = max_i (v[r, i] + w[o, i])`.
  The body unrolls the maximum over `i = 0, …, 63` from `-∞` in seven stretches, each step taking column `i` of
  the block (spread along the rows) plus row `i` of the transposed weights (spread down the rows) onto the carried
  maximum. Read at `(r, o)` every step is `max c (v[r, i] + wᵀ[i, o])`, so the stretches compose to the left-nested
  running maximum of the 64 terms, and that is the supremum over `Fin 64`.
-/
import proofs.«421917_j23888608101009_3_alg».proof.Proof.KernelIdeal.R3Chain
import Idealize.ShloMosaic.Lib.ValueIdx
import Idealize.ShloMosaic.Lib.Pipeline.Value
import Idealize.ShloMosaic.Lib.ValueLayout

noncomputable section

namespace Cert.KernelIdeal.Val.TlV

open Cert.KernelIdeal Cert.KernelIdeal.Gen Cert.KernelIdeal.Frm
open Idealize.ShloMosaic Idealize.ShloMosaic.ValueIdx

/-- The running maximum of `g 0, …, g (n - 1)` from `⊥`, nested to the left. -/
def runMax (g : ℕ → EReal) : ℕ → EReal
  | 0 => ⊥
  | n + 1 => max (runMax g n) (g n)

theorem le_runMax (g : ℕ → EReal) {i n : ℕ} (h : i < n) : g i ≤ runMax g n := by
  induction n with
  | zero => omega
  | succ n ih =>
    rcases Nat.lt_succ_iff_lt_or_eq.1 h with h' | rfl
    · exact le_trans (ih h') (le_max_left _ _)
    · exact le_max_right _ _

theorem runMax_le (g : ℕ → EReal) {n : ℕ} {b : EReal} (h : ∀ i, i < n → g i ≤ b) : runMax g n ≤ b := by
  induction n with
  | zero => exact bot_le
  | succ n ih => exact max_le (ih fun i hi => h i (Nat.lt_succ_of_lt hi)) (h n (Nat.lt_succ_self n))

/-- The running maximum over `n` terms is the supremum over `Fin n`. -/
theorem runMax_eq_sup (g : ℕ → EReal) (n : ℕ) (f : Fin n → EReal) (hf : ∀ i : Fin n, g i.val = f i) :
    runMax g n = Finset.univ.sup f := by
  apply le_antisymm
  · exact runMax_le g fun i hi => (hf ⟨i, hi⟩) ▸ Finset.le_sup (f := f) (Finset.mem_univ (⟨i, hi⟩ : Fin n))
  · exact Finset.sup_le fun i _ => (hf i) ▸ le_runMax g i.isLt

/-- Term `i` of the tropical product at `(r, o)`: `x[r, i] + y[i, o]` (and `⊥` past the last column). -/
def tm (x : FVec Ideal S128x64 .f32) (y : FVec Ideal S64x64 .f32) (r : Fin 128) (o : Fin 64) (i : ℕ) : EReal :=
  if h : i < 64 then x (ix2 r ⟨i, h⟩) + y (ix2 ⟨i, h⟩ o) else ⊥

/-- Column `i` of `x` spread along the rows, read at `(r, o)`. -/
theorem col_apply (x : FVec Ideal S128x64 .f32) (i : ℕ) (h : S128x64.Slices ![0, i] S128x1) (hi : i < 64)
    (r : Fin 128) (o : Fin 64) :
    broadcastTo S128x64 (extractStridedSlice S128x1 ![0, i] x h) broadcasts_S128x1_S128x64 (ix2 r o) = x (ix2 r ⟨i, hi⟩) := by
  refine (broadcastTo_apply _ _ (ix2 r o) (ix2 r (0 : Fin 1)) fun ax => ?_).trans ?_
  · match ax with
    | ⟨0, _⟩ => rfl
    | ⟨1, _⟩ => rfl
  · exact slice2_axis1_apply i x h r 0 ⟨i, hi⟩ rfl

/-- Row `i` of `y` spread down the rows, read at `(r, o)`. -/
theorem row_apply (y : FVec Ideal S64x64 .f32) (i : ℕ) (h : S64x64.Slices ![i, 0] S1x64) (hi : i < 64)
    (r : Fin 128) (o : Fin 64) :
    broadcastTo S128x64 (extractStridedSlice S1x64 ![i, 0] y h) broadcasts_S1x64_S128x64 (ix2 r o) = y (ix2 ⟨i, hi⟩ o) := by
  refine (broadcastTo_1b_ab_apply _ _ r o).trans ?_
  exact slice2_axis0_apply i y h 0 o ⟨i, hi⟩ rfl

theorem lt_of_slices {i : ℕ} (h : S128x64.Slices ![0, i] S128x1) : i < 64 := by
  have := h.2 1
  simpa using this

/-- One step of the running maximum: the carried value against term `i`. -/
theorem step_apply (x : FVec Ideal S128x64 .f32) (y : FVec Ideal S64x64 .f32) (c : FVec Ideal S128x64 .f32) (i : ℕ)
    (h : S128x64.Slices ![0, i] S128x1) (h' : S64x64.Slices ![i, 0] S1x64) (r : Fin 128) (o : Fin 64) :
    maximumf c (addf (broadcastTo S128x64 (extractStridedSlice S128x1 ![0, i] x h) broadcasts_S128x1_S128x64)
      (broadcastTo S128x64 (extractStridedSlice S1x64 ![i, 0] y h') broadcasts_S1x64_S128x64)) (ix2 r o)
      = max (c (ix2 r o)) (tm x y r o i) := by
  have hi := lt_of_slices h
  rw [maximumf_apply, addf_apply, col_apply x i h hi, row_apply y i h' hi, tm, dif_pos hi]

/-- The word `0xFF800000` is `-∞`, the bottom of the extended reals. -/
theorem negInf_eq_bot : (Scalar.ofBits .f32 0xFF800000#32 : Ideal .f32) = ⊥ := by
  show Ideal.ofBits .f32 0xFF800000#32 = ⊥
  simp [Ideal.ofBits, Ideal.ieee]

/-- The first stretch: from `-∞`, terms 0 to 10. -/
theorem pay23_apply (x : FVec Ideal S128x64 .f32) (w : Vec Ideal S64x64 .f32) (r : Fin 128) (o : Fin 64) :
    k3_pay23 x (k3_pay19 w) (k3_pay20 w x) (k3_pay21 x) (k3_pay22 w) (ix2 r o)
      = runMax (tm x (k3_pay19 w) r o) 11 := by
  unfold k3_pay23 k3_pay20 k3_pay21 k3_pay22
  simp only [step_apply, broadcast_apply, negInf_eq_bot]
  rfl

/-- The second stretch: terms 11 to 20 onto the carried maximum. -/
theorem pay26_apply (x : FVec Ideal S128x64 .f32) (y : FVec Ideal S64x64 .f32) (c : FVec Ideal S128x64 .f32)
    (r : Fin 128) (o : Fin 64) (hc : c (ix2 r o) = runMax (tm x y r o) 11) :
    k3_pay26 x y c (k3_pay24 x) (k3_pay25 y) (ix2 r o) = runMax (tm x y r o) 21 := by
  unfold k3_pay26 k3_pay24 k3_pay25
  simp only [step_apply, hc]
  rfl

/-- The third stretch: terms 21 to 30. -/
theorem pay29_apply (x : FVec Ideal S128x64 .f32) (y : FVec Ideal S64x64 .f32) (c : FVec Ideal S128x64 .f32)
    (r : Fin 128) (o : Fin 64) (hc : c (ix2 r o) = runMax (tm x y r o) 21) :
    k3_pay29 x y c (k3_pay27 x) (k3_pay28 y) (ix2 r o) = runMax (tm x y r o) 31 := by
  unfold k3_pay29 k3_pay27 k3_pay28
  simp only [step_apply, hc]
  rfl

/-- The fourth stretch: terms 31 to 40. -/
theorem pay32_apply (x : FVec Ideal S128x64 .f32) (y : FVec Ideal S64x64 .f32) (c : FVec Ideal S128x64 .f32)
    (r : Fin 128) (o : Fin 64) (hc : c (ix2 r o) = runMax (tm x y r o) 31) :
    k3_pay32 x y c (k3_pay30 x) (k3_pay31 y) (ix2 r o) = runMax (tm x y r o) 41 := by
  unfold k3_pay32 k3_pay30 k3_pay31
  simp only [step_apply, hc]
  rfl

/-- The fifth stretch: terms 41 to 50. -/
theorem pay35_apply (x : FVec Ideal S128x64 .f32) (y : FVec Ideal S64x64 .f32) (c : FVec Ideal S128x64 .f32)
    (r : Fin 128) (o : Fin 64) (hc : c (ix2 r o) = runMax (tm x y r o) 41) :
    k3_pay35 x y c (k3_pay33 x) (k3_pay34 y) (ix2 r o) = runMax (tm x y r o) 51 := by
  unfold k3_pay35 k3_pay33 k3_pay34
  simp only [step_apply, hc]
  rfl

/-- The sixth stretch: terms 51 to 60. -/
theorem pay38_apply (x : FVec Ideal S128x64 .f32) (y : FVec Ideal S64x64 .f32) (c : FVec Ideal S128x64 .f32)
    (r : Fin 128) (o : Fin 64) (hc : c (ix2 r o) = runMax (tm x y r o) 51) :
    k3_pay38 x y c (k3_pay36 x) (k3_pay37 y) (ix2 r o) = runMax (tm x y r o) 61 := by
  unfold k3_pay38 k3_pay36 k3_pay37
  simp only [step_apply, hc]
  rfl

/-- The last stretch: terms 61 to 63, and a shape cast to the same shape. -/
theorem pay139_apply (x : FVec Ideal S128x64 .f32) (y : FVec Ideal S64x64 .f32) (c : FVec Ideal S128x64 .f32)
    (r : Fin 128) (o : Fin 64) (hc : c (ix2 r o) = runMax (tm x y r o) 61) :
    k3_pay139 x y c (k3_pay39 x) (k3_pay40 y) (ix2 r o) = runMax (tm x y r o) 64 := by
  unfold k3_pay139 k3_pay39 k3_pay40
  simp only [shapeCast_self, step_apply, hc]
  rfl

/-- The value block's map at `(r, o)` as the running maximum of its 64 terms. -/
theorem tlv_runMax (vb : Vec Ideal S1x128x64 .f32) (w : Vec Ideal S64x64 .f32) (r : Fin 128) (o : Fin 64) :
    tlv (F := Ideal) vb w (ix2 r o) = runMax (tm (k3_pay4 vb) (k3_pay19 w) r o) 64 := by
  unfold tlv
  exact pay139_apply _ _ _ r o (pay38_apply _ _ _ r o (pay35_apply _ _ _ r o (pay32_apply _ _ _ r o
    (pay29_apply _ _ _ r o (pay26_apply _ _ _ r o (pay23_apply _ w r o))))))

/-- Term `i` in the loaded block and the weights: the block's leading unit axis dropped, the weights transposed. -/
theorem tm_loaded (vb : Vec Ideal S1x128x64 .f32) (w : Vec Ideal S64x64 .f32) (r : Fin 128) (o : Fin 64) (i : Fin 64) :
    tm (k3_pay4 vb) (k3_pay19 w) r o i.val = vb (ix3 (0 : Fin 1) r i) + w (ix2 o i) := by
  unfold tm k3_pay4 k3_pay19
  rw [dif_pos i.isLt]
  show shapeCast S128x64 vb shapeCasts_S1x128x64_S128x64 (ix2 r i)
    + transpose S64x64 [1, 0] w transposes_S64x64_p1_0_S64x64 (ix2 i o) = _
  rw [shapeCast_1ab_ab_apply, transpose_ix2_apply]

end Cert.KernelIdeal.Val.TlV

namespace Cert.KernelIdeal.Val

open Cert.KernelIdeal Cert.KernelIdeal.Gen Cert.KernelIdeal.Frm
open Idealize.ShloMosaic Idealize.ShloMosaic.ValueIdx
open Cert.KernelIdeal.Val.TlV

/-- THE VALUE BLOCK'S TROPICAL LINEAR MAP: `y[r, o] = max_i (v[r, i] + w[o, i])`. -/
theorem tlv_apply (vb : Vec Ideal S1x128x64 .f32) (w : Vec Ideal S64x64 .f32) (r : Fin 128) (o : Fin 64) :
    tlv (F := Ideal) vb w (ix2 r o) = Finset.univ.sup fun i : Fin 64 => vb (ix3 (0 : Fin 1) r i) + w (ix2 o i) :=
  (tlv_runMax vb w r o).trans (runMax_eq_sup _ 64 _ fun i => tm_loaded vb w r o i)

end Cert.KernelIdeal.Val

end
-- ==== Proof.Val.Score.lean ====
/-
  The score block of the tropical attention kernel at one entry. The body unrolls, over the 64 columns `d`, a running
  maximum (from `-∞`) and a running minimum (from `+∞`) of `q[i,d] - k[j,d]`, in seven stretches, and ends with
  `0 - (max - min)`. Read at `(i, j)` each stretch extends the running maximum and minimum of the sequence of
  differences; all 64 terms give the supremum and the infimum over the columns, and `0 - x = -x`.
-/
import proofs.«421917_j23888608101009_3_alg».proof.Proof.KernelIdeal.R3Chain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val.Score

open Cert.KernelIdeal Cert.KernelIdeal.Gen Cert.KernelIdeal.Frm
open Idealize.ShloMosaic Idealize.ShloMosaic.ValueIdx

/-! ## Running maximum and minimum of a sequence -/

/-- The maximum of the first `n` terms of a sequence, from `⊥`. -/
def runMax (f : ℕ → EReal) : ℕ → EReal
  | 0 => ⊥
  | n + 1 => max (runMax f n) (f n)

/-- The minimum of the first `n` terms of a sequence, from `⊤`. -/
def runMin (f : ℕ → EReal) : ℕ → EReal
  | 0 => ⊤
  | n + 1 => min (runMin f n) (f n)

theorem runMax_le (f : ℕ → EReal) (n : ℕ) (S : EReal) (h : ∀ d, d < n → f d ≤ S) : runMax f n ≤ S := by
  induction n with
  | zero => exact bot_le
  | succ n ih =>
    exact max_le (ih fun d hd => h d (Nat.lt_succ_of_lt hd)) (h n (Nat.lt_succ_self n))

theorem le_runMax (f : ℕ → EReal) (n d : ℕ) (hd : d < n) : f d ≤ runMax f n := by
  induction n with
  | zero => exact absurd hd (Nat.not_lt_zero d)
  | succ n ih =>
    rcases Nat.lt_succ_iff_lt_or_eq.mp hd with h | h
    · exact le_trans (ih h) (le_max_left _ _)
    · subst h; exact le_max_right _ _

theorem le_runMin (f : ℕ → EReal) (n : ℕ) (S : EReal) (h : ∀ d, d < n → S ≤ f d) : S ≤ runMin f n := by
  induction n with
  | zero => exact le_top
  | succ n ih =>
    exact le_min (ih fun d hd => h d (Nat.lt_succ_of_lt hd)) (h n (Nat.lt_succ_self n))

theorem runMin_le (f : ℕ → EReal) (n d : ℕ) (hd : d < n) : runMin f n ≤ f d := by
  induction n with
  | zero => exact absurd hd (Nat.not_lt_zero d)
  | succ n ih =>
    rcases Nat.lt_succ_iff_lt_or_eq.mp hd with h | h
    · exact le_trans (min_le_left _ _) (ih h)
    · subst h; exact min_le_right _ _

/-- The running maximum of the first `n` terms is the supremum over `Fin n`. -/
theorem runMax_eq_sup (f : ℕ → EReal) (n : ℕ) : runMax f n = Finset.univ.sup fun d : Fin n => f d.val :=
  le_antisymm
    (runMax_le f n _ fun d hd => Finset.le_sup (f := fun d : Fin n => f d.val) (Finset.mem_univ ⟨d, hd⟩))
    (Finset.sup_le fun d _ => le_runMax f n d.val d.isLt)

/-- The running minimum of the first `n` terms is the infimum over `Fin n`. -/
theorem runMin_eq_inf (f : ℕ → EReal) (n : ℕ) : runMin f n = Finset.univ.inf fun d : Fin n => f d.val :=
  le_antisymm
    (Finset.le_inf fun d _ => runMin_le f n d.val d.isLt)
    (le_runMin f n _ fun d hd => Finset.inf_le (f := fun d : Fin n => f d.val) (Finset.mem_univ ⟨d, hd⟩))

/-! ## The terms `q[i,d] - k[j,d]` -/

/-- Column `d` of the query block at row `i` (`0` past the last column). -/
def qv (q : FVec Ideal S128x64 .f32) (i : Fin 128) (d : ℕ) : EReal :=
  if h : d < 64 then q (ix2 i ⟨d, h⟩) else 0

/-- Column `d` of the key block at row `j` (`0` past the last column). -/
def kv (kp : Vec Ideal S128x64 .f32) (j : Fin 128) (d : ℕ) : EReal :=
  if h : d < 64 then kp (ix2 j ⟨d, h⟩) else 0

/-- The `d`-th difference. -/
def dterm (q : FVec Ideal S128x64 .f32) (kp : Vec Ideal S128x64 .f32) (i j : Fin 128) (d : ℕ) : EReal :=
  qv q i d - kv kp j d

/-- One column broadcast over many reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `d` of the query block, broadcast along the key axis, read at `(i, j)`. -/
theorem qcol_apply (q : FVec Ideal S128x64 .f32) (d : ℕ) (h1 : S128x64.Slices ![0, d] S128x1)
    (b1 : S128x1.Broadcasts S128x128) (i j : Fin 128) :
    broadcastTo S128x128 (extractStridedSlice S128x1 ![0, d] q h1) b1 (ix2 i j) = qv q i d := by
  have hd : d < 64 := by have := h1.2 1; simpa using this
  rw [broadcastTo_a1_ab_apply, slice2_axis1_apply d q h1 i 0 ⟨d, hd⟩ (by simp), qv, dif_pos hd]

/-- Row `d` of the transposed key block, broadcast along the query axis, read at `(i, j)`. -/
theorem krow_apply (kp : Vec Ideal S128x64 .f32) (d : ℕ) (h2 : S64x128.Slices ![d, 0] S1x128)
    (b2 : S1x128.Broadcasts S128x128) (i j : Fin 128) :
    broadcastTo S128x128 (extractStridedSlice S1x128 ![d, 0] (k3_pay41 kp) h2) b2 (ix2 i j) = kv kp j d := by
  have hd : d < 64 := by have := h2.2 0; simpa using this
  rw [broadcastTo_1b_ab_apply, slice2_axis0_apply d (k3_pay41 kp) h2 0 j ⟨d, hd⟩ (by simp), kv, dif_pos hd]
  exact transpose_ix2_apply kp _ ⟨d, hd⟩ j

/-- The word `0xFF800000` is `-∞`. -/
theorem negInf_eq : (Scalar.ofBits (F := Ideal) .f32 0xFF800000#32 : EReal) = ⊥ := by
  show Ideal.ofBits .f32 0xFF800000#32 = ⊥
  simp [Ideal.ofBits, Ideal.ieee]

/-- The word `0x7F800000` is `+∞`. -/
theorem posInf_eq : (Scalar.ofBits (F := Ideal) .f32 0x7F800000#32 : EReal) = ⊤ := by
  show Ideal.ofBits .f32 0x7F800000#32 = ⊤
  simp [Ideal.ofBits, Ideal.ieee]

/-- The word `0x00000000` is `0`. -/
theorem zero_eq : (Scalar.ofBits (F := Ideal) .f32 0x00000000#32 : EReal) = 0 :=
  Ideal.ofBits_zero_f32

/-! ## The stretches of the running maximum and minimum, read at `(i, j)` -/

section Stretches
variable (q : FVec Ideal S128x64 .f32) (kp : Vec Ideal S128x64 .f32) (i j : Fin 128)

/-- Terms `0 … 5` of the maximum. -/
theorem pay48_apply : k3_pay48 (F := Ideal) q kp (ix2 i j) = runMax (dterm q kp i j) 6 := by
  unfold k3_pay48 k3_pay42 k3_pay43 k3_pay44 k3_pay45 k3_pay46 k3_pay47
  simp only [maximumf_apply, subf_apply, broadcast_apply, qcol_apply, krow_apply, negInf_eq]
  rfl

/-- Terms `0 … 5` of the minimum. -/
theorem pay49_apply : k3_pay49 (F := Ideal) q kp (ix2 i j) = runMin (dterm q kp i j) 6 := by
  unfold k3_pay49 k3_pay42 k3_pay43 k3_pay44 k3_pay45 k3_pay46 k3_pay47
  simp only [minimumf_apply, subf_apply, broadcast_apply, qcol_apply, krow_apply, posInf_eq]
  rfl

/-- Terms `6 … 14` of the maximum. -/
theorem pay61_apply (m : FVec Ideal S128x128 .f32) (hm : m (ix2 i j) = runMax (dterm q kp i j) 6) :
    k3_pay61 q (k3_pay41 kp) m (k3_pay50 kp) (k3_pay51 q) (ix2 i j) = runMax (dterm q kp i j) 15 := by
  unfold k3_pay61 k3_pay52 k3_pay53 k3_pay54 k3_pay55 k3_pay56 k3_pay57 k3_pay58 k3_pay59 k3_pay60 k3_pay50 k3_pay51
  simp only [maximumf_apply, subf_apply, qcol_apply, krow_apply, hm]
  rfl

/-- Terms `6 … 14` of the minimum. -/
theorem pay62_apply (m : FVec Ideal S128x128 .f32) (hm : m (ix2 i j) = runMin (dterm q kp i j) 6) :
    k3_pay62 q (k3_pay41 kp) m (k3_pay50 kp) (k3_pay51 q) (ix2 i j) = runMin (dterm q kp i j) 15 := by
  unfold k3_pay62 k3_pay52 k3_pay53 k3_pay54 k3_pay55 k3_pay56 k3_pay57 k3_pay58 k3_pay59 k3_pay60 k3_pay50 k3_pay51
  simp only [minimumf_apply, subf_apply, qcol_apply, krow_apply, hm]
  rfl

/-- Terms `15 … 22` of the maximum. -/
theorem pay71_apply (m : FVec Ideal S128x128 .f32) (hm : m (ix2 i j) = runMax (dterm q kp i j) 15) :
    k3_pay71 q (k3_pay41 kp) m (ix2 i j) = runMax (dterm q kp i j) 23 := by
  unfold k3_pay71 k3_pay63 k3_pay64 k3_pay65 k3_pay66 k3_pay67 k3_pay68 k3_pay69 k3_pay70
  simp only [maximumf_apply, subf_apply, qcol_apply, krow_apply, hm]
  rfl

/-- Terms `15 … 22` of the minimum. -/
theorem pay72_apply (m : FVec Ideal S128x128 .f32) (hm : m (ix2 i j) = runMin (dterm q kp i j) 15) :
    k3_pay72 q (k3_pay41 kp) m (ix2 i j) = runMin (dterm q kp i j) 23 := by
  unfold k3_pay72 k3_pay63 k3_pay64 k3_pay65 k3_pay66 k3_pay67 k3_pay68 k3_pay69 k3_pay70
  simp only [minimumf_apply, subf_apply, qcol_apply, krow_apply, hm]
  rfl

/-- Terms `23 … 31` of the maximum. -/
theorem pay84_apply (m : FVec Ideal S128x128 .f32) (hm : m (ix2 i j) = runMax (dterm q kp i j) 23) :
    k3_pay84 q (k3_pay41 kp) m (k3_pay73 q) (k3_pay74 (k3_pay41 kp)) (ix2 i j) = runMax (dterm q kp i j) 32 := by
  unfold k3_pay84 k3_pay75 k3_pay76 k3_pay77 k3_pay78 k3_pay79 k3_pay80 k3_pay81 k3_pay82 k3_pay83 k3_pay73 k3_pay74
  simp only [maximumf_apply, subf_apply, qcol_apply, krow_apply, hm]
  rfl

/-- Terms `23 … 31` of the minimum. -/
theorem pay85_apply (m : FVec Ideal S128x128 .f32) (hm : m (ix2 i j) = runMin (dterm q kp i j) 23) :
    k3_pay85 q (k3_pay41 kp) m (k3_pay73 q) (k3_pay74 (k3_pay41 kp)) (ix2 i j) = runMin (dterm q kp i j) 32 := by
  unfold k3_pay85 k3_pay75 k3_pay76 k3_pay77 k3_pay78 k3_pay79 k3_pay80 k3_pay81 k3_pay82 k3_pay83 k3_pay73 k3_pay74
  simp only [minimumf_apply, subf_apply, qcol_apply, krow_apply, hm]
  rfl

/-- Terms `32 … 39` of the maximum. -/
theorem pay95_apply (m : FVec Ideal S128x128 .f32) (hm : m (ix2 i j) = runMax (dterm q kp i j) 32) :
    k3_pay95 q (k3_pay41 kp) m (k3_pay86 q) (ix2 i j) = runMax (dterm q kp i j) 40 := by
  unfold k3_pay95 k3_pay87 k3_pay88 k3_pay89 k3_pay90 k3_pay91 k3_pay92 k3_pay93 k3_pay94 k3_pay86
  simp only [maximumf_apply, subf_apply, qcol_apply, krow_apply, hm]
  rfl

/-- Terms `32 … 39` of the minimum. -/
theorem pay96_apply (m : FVec Ideal S128x128 .f32) (hm : m (ix2 i j) = runMin (dterm q kp i j) 32) :
    k3_pay96 q (k3_pay41 kp) m (k3_pay86 q) (ix2 i j) = runMin (dterm q kp i j) 40 := by
  unfold k3_pay96 k3_pay87 k3_pay88 k3_pay89 k3_pay90 k3_pay91 k3_pay92 k3_pay93 k3_pay94 k3_pay86
  simp only [minimumf_apply, subf_apply, qcol_apply, krow_apply, hm]
  rfl

/-- Terms `40 … 48` of the maximum. -/
theorem pay106_apply (m : FVec Ideal S128x128 .f32) (hm : m (ix2 i j) = runMax (dterm q kp i j) 40) :
    k3_pay106 q (k3_pay41 kp) m (k3_pay97 q (k3_pay41 kp)) (ix2 i j) = runMax (dterm q kp i j) 49 := by
  unfold k3_pay106 k3_pay97 k3_pay98 k3_pay99 k3_pay100 k3_pay101 k3_pay102 k3_pay103 k3_pay104 k3_pay105
  simp only [maximumf_apply, subf_apply, qcol_apply, krow_apply, hm]
  rfl

/-- Terms `40 … 48` of the minimum. -/
theorem pay107_apply (m : FVec Ideal S128x128 .f32) (hm : m (ix2 i j) = runMin (dterm q kp i j) 40) :
    k3_pay107 q (k3_pay41 kp) m (k3_pay97 q (k3_pay41 kp)) (ix2 i j) = runMin (dterm q kp i j) 49 := by
  unfold k3_pay107 k3_pay97 k3_pay98 k3_pay99 k3_pay100 k3_pay101 k3_pay102 k3_pay103 k3_pay104 k3_pay105
  simp only [minimumf_apply, subf_apply, qcol_apply, krow_apply, hm]
  rfl

/-- Terms `49 … 56` of the minimum. -/
theorem pay118_apply (m : FVec Ideal S128x128 .f32) (hm : m (ix2 i j) = runMin (dterm q kp i j) 49) :
    k3_pay118 q (k3_pay41 kp) m (k3_pay108 q) (k3_pay109 (k3_pay41 kp)) (ix2 i j) = runMin (dterm q kp i j) 57 := by
  unfold k3_pay118 k3_pay110 k3_pay111 k3_pay112 k3_pay113 k3_pay114 k3_pay115 k3_pay116 k3_pay117 k3_pay108 k3_pay109
  simp only [minimumf_apply, subf_apply, qcol_apply, krow_apply, hm]
  rfl

/-- Term `57`. -/
theorem pay119_apply : k3_pay119 q (k3_pay41 kp) (ix2 i j) = dterm q kp i j 57 := by
  unfold k3_pay119
  simp only [subf_apply, qcol_apply, krow_apply]
  rfl

/-- Terms `49 … 57` of the maximum. -/
theorem pay120_apply (m : FVec Ideal S128x128 .f32) (hm : m (ix2 i j) = runMax (dterm q kp i j) 49) :
    k3_pay120 q (k3_pay41 kp) m (k3_pay108 q) (k3_pay109 (k3_pay41 kp)) (ix2 i j) = runMax (dterm q kp i j) 58 := by
  unfold k3_pay120 k3_pay110 k3_pay111 k3_pay112 k3_pay113 k3_pay114 k3_pay115 k3_pay116 k3_pay117 k3_pay119 k3_pay108 k3_pay109
  simp only [maximumf_apply, subf_apply, qcol_apply, krow_apply, hm]
  rfl

/-- The last stretch: term `57` of the minimum, terms `58 … 63` of both, and `0 - (max - min)`. -/
theorem pay121_apply (a b c : FVec Ideal S128x128 .f32) (ha : a (ix2 i j) = runMin (dterm q kp i j) 57)
    (hb : b (ix2 i j) = dterm q kp i j 57) (hc : c (ix2 i j) = runMax (dterm q kp i j) 58) :
    k3_pay121 q (k3_pay41 kp) a b c (ix2 i j)
      = 0 - (runMax (dterm q kp i j) 64 - runMin (dterm q kp i j) 64) := by
  unfold k3_pay121
  simp only [maximumf_apply, minimumf_apply, subf_apply, broadcast_apply, qcol_apply, krow_apply, zero_eq, ha, hb, hc]
  rfl

end Stretches

/-! ## The score block -/

/-- The score block at `(i, j)` over the running maximum and minimum of all 64 terms. -/
theorem scoreBlk_run (q : FVec Ideal S128x64 .f32) (kp : Vec Ideal S128x64 .f32) (i j : Fin 128) :
    scoreBlk (F := Ideal) q kp (ix2 i j)
      = 0 - (runMax (dterm q kp i j) 64 - runMin (dterm q kp i j) 64) :=
  pay121_apply q kp i j _ _ _
    (pay118_apply q kp i j _ (pay107_apply q kp i j _ (pay96_apply q kp i j _ (pay85_apply q kp i j _
      (pay72_apply q kp i j _ (pay62_apply q kp i j _ (pay49_apply q kp i j)))))))
    (pay119_apply q kp i j)
    (pay120_apply q kp i j _ (pay106_apply q kp i j _ (pay95_apply q kp i j _ (pay84_apply q kp i j _
      (pay71_apply q kp i j _ (pay61_apply q kp i j _ (pay48_apply q kp i j)))))))

/-- The `d`-th difference, for `d` a column. -/
theorem dterm_fin (q : FVec Ideal S128x64 .f32) (kp : Vec Ideal S128x64 .f32) (i j : Fin 128) (d : Fin 64) :
    dterm q kp i j d.val = q (ix2 i d) - kp (ix2 j d) := by
  simp only [dterm, qv, kv, dif_pos d.isLt, Fin.eta]

end Cert.KernelIdeal.Val.Score

namespace Cert.KernelIdeal.Val

open Cert.KernelIdeal Cert.KernelIdeal.Gen Cert.KernelIdeal.Frm
open Idealize.ShloMosaic Idealize.ShloMosaic.ValueIdx
open Cert.KernelIdeal.Val.Score

/-- THE SCORE BLOCK at `(i, j)`: minus the spread of `q[i,·] - k[j,·]`. -/
theorem scoreBlk_apply (q : FVec Ideal S128x64 .f32) (kp : Vec Ideal S128x64 .f32) (i j : Fin 128) :
    scoreBlk (F := Ideal) q kp (ix2 i j)
      = -((Finset.univ.sup fun d : Fin 64 => q (ix2 i d) - kp (ix2 j d)) - (Finset.univ.inf fun d : Fin 64 => q (ix2 i d) - kp (ix2 j d))) := by
  rw [scoreBlk_run, zero_sub, runMax_eq_sup, runMin_eq_inf]
  simp only [dterm_fin]

/-- The piece stored into the score window reads the score block. -/
theorem scorePiece_apply (q : FVec Ideal S128x64 .f32) (kp : Vec Ideal S128x64 .f32) (i j : Fin 128) :
    scorePiece (F := Ideal) q kp (ix3 (0 : Fin 1) i j) = scoreBlk (F := Ideal) q kp (ix2 i j) := by
  unfold scorePiece scoreBlk k3_pay122
  exact shapeCast_ab_1ab_apply _ _ (0 : Fin 1) i j

end Cert.KernelIdeal.Val

end
-- ==== Proof.Val.Ctx.lean ====
/-
  The context accumulator's arithmetic read at an index, at the ideal values: scores plus values before the
  maximum over the key rows, the accumulator after two key blocks as the join of the two blocks' row maxima, and the
  output block's shape cast.
-/
import proofs.«421917_j23888608101009_3_alg».proof.Proof.KernelIdeal.R3Chain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.ValueIdx

namespace Ctx

/-- The f32 pattern of minus infinity is the least extended real. -/
theorem ofBits_neg_inf_f32 : Ideal.ofBits .f32 0xFF800000#32 = (⊥ : EReal) := by
  simp [Ideal.ofBits, Ideal.ieee]

/-- A [128,128] block cast to [128,128,1] reads, at (i, j, 0), the block at (i, j). -/
theorem shapeCast_ab_ab1_apply {α : Type} (x : (⟨2, ![128, 128]⟩ : Shape).Idx → α)
    (h : (⟨2, ![128, 128]⟩ : Shape).ShapeCasts ⟨3, ![128, 128, 1]⟩) (i j : Fin 128) (u : Fin 1) :
    shapeCast ⟨3, ![128, 128, 1]⟩ x h (ix3 i j u) = x (ix2 i j) :=
  shapeCast_apply x h _ _ (by
    have hu : u.val = 0 := by omega
    rw [Shape.rowMajor_val_three, Shape.rowMajor_val_two]
    show i.val * 128 + j.val = (i.val * 128 + j.val) * 1 + u.val
    rw [hu, Nat.mul_one, Nat.add_zero])

/-- Scores broadcast along a new last axis plus the value block broadcast along a new first axis, at (i, j, d). -/
theorem pay123_apply (q : FVec Ideal S128x64 .f32) (vp : Vec Ideal S128x64 .f32) (kT : FVec Ideal S64x128 .f32)
    (a b c : FVec Ideal S128x128 .f32) (i j : Fin 128) (d : Fin 64) :
    k3_pay123 (F := Ideal) q vp kT a b c (ix3 i j d)
      = k3_pay121 (F := Ideal) q kT a b c (ix2 i j) + vp (ix2 j d) := by
  unfold k3_pay123
  show broadcastTo S128x128x64 (shapeCast S128x128x1 (k3_pay121 (F := Ideal) q kT a b c) shapeCasts_S128x128_S128x128x1)
        broadcasts_S128x128x1_S128x128x64 (ix3 i j d)
      + broadcastTo S128x128x64 (shapeCast S1x128x64 vp shapeCasts_S128x64_S1x128x64)
        broadcasts_S1x128x64_S128x128x64 (ix3 i j d) = _
  have h1 := broadcastTo_apply (shapeCast S128x128x1 (k3_pay121 (F := Ideal) q kT a b c) shapeCasts_S128x128_S128x128x1)
      broadcasts_S128x128x1_S128x128x64 (ix3 i j d) (ix3 i j (0 : Fin 1))
      (fun ax => match ax with | ⟨0, _⟩ => rfl | ⟨1, _⟩ => rfl | ⟨2, _⟩ => rfl)
  have h2 := broadcastTo_apply (shapeCast S1x128x64 vp shapeCasts_S128x64_S1x128x64)
      broadcasts_S1x128x64_S128x128x64 (ix3 i j d) (ix3 (0 : Fin 1) j d)
      (fun ax => match ax with | ⟨0, _⟩ => rfl | ⟨1, _⟩ => rfl | ⟨2, _⟩ => rfl)
  rw [h1, h2, shapeCast_ab_ab1_apply, shapeCast_ab_1ab_apply]

/-- The index a reduction over axis 1 reads, by coordinates. -/
theorem lift_ix2 (h : S128x128x64.Reduces [1] S128x64) (i : Fin 128) (d : Fin 64) (k : Fin 128) :
    h.lift (ix2 i d) k = ix3 i k d := by
  funext ax
  match ax with
  | ⟨0, _⟩ => rfl
  | ⟨1, _⟩ => rfl
  | ⟨2, _⟩ => rfl

/-- One step of the accumulator: the old value joined with the maximum over the key rows. -/
theorem pay1_apply (x : FVec Ideal S128x128x64 .f32) (acc : Vec Ideal S128x64 .f32) (i : Fin 128) (d : Fin 64) :
    k3_pay1 (F := Ideal) x acc (ix2 i d) = acc (ix2 i d) ⊔ Finset.univ.sup fun j : Fin 128 => x (ix3 i j d) := by
  unfold k3_pay1
  show shapeCast S128x64 (maximumf acc (multiReduction .maximumf [1] S128x64 x 0xFF800000#32
      reduces_S128x128x64_S128x64 (.inl rfl) rfl)) shapeCasts_S128x64_S128x64 (ix2 i d) = _
  rw [shapeCast_self, maximumf_apply]
  have hm := Ideal.multiReduction_maximumf_single x 0xFF800000#32 reduces_S128x128x64_S128x64 (.inl rfl) rfl (ix2 i d)
  refine (congrArg (max (acc (ix2 i d))) hm).trans ?_
  refine congrArg (max (acc (ix2 i d))) ?_
  have hb : FloatOps.ofBits (F := Ideal) .f32 0xFF800000#32 = (⊥ : EReal) := ofBits_neg_inf_f32
  have hl : (x ∘ reduces_S128x128x64_S128x64.lift (ix2 i d)) = fun j => x (ix3 i j d) :=
    funext fun k => congrArg x (lift_ix2 _ i d k)
  rw [hb, hl]
  rfl

/-- The accumulator's reset: minus infinity everywhere. -/
theorem pay140_apply (j : S128x64.Idx) : k3_pay140 (F := Ideal) j = (⊥ : EReal) := by
  unfold k3_pay140
  show shapeCast S128x64 (broadcast S128x64 (Scalar.ofBits (F := Ideal) .f32 0xFF800000#32)) shapeCasts_S128x64_S128x64 j = _
  rw [shapeCast_self, broadcast_apply]
  exact ofBits_neg_inf_f32

end Ctx

open Ctx

/-- The output block's shape cast reads the same element. -/
theorem pay2_apply (a : Vec Ideal S128x64 .f32) (i : Fin 128) (d : Fin 64) :
    k3_pay2 (F := Ideal) a (ix3 (0 : Fin 1) i d) = a (ix2 i d) := by
  unfold k3_pay2
  exact shapeCast_ab_1ab_apply a _ 0 i d

/-- Scores plus values before the maximum over the key rows, at (i, j, d). -/
theorem ctxPre_apply (q : FVec Ideal S128x64 .f32) (kp vp : Vec Ideal S128x64 .f32) (i j : Fin 128) (d : Fin 64) :
    ctxPre (F := Ideal) q kp vp (ix3 i j d) = scoreBlk (F := Ideal) q kp (ix2 i j) + vp (ix2 j d) := by
  unfold ctxPre scoreBlk
  exact pay123_apply q vp _ _ _ _ i j d

/-- The context accumulator after the two key blocks: the join of the two blocks' maxima over the key rows. -/
theorem ctxAcc_apply (q : FVec Ideal S128x64 .f32) (kp0 vp0 kp1 vp1 : Vec Ideal S128x64 .f32) (i : Fin 128) (d : Fin 64) :
    ctxAcc (F := Ideal) q kp0 vp0 kp1 vp1 (ix2 i d)
      = (Finset.univ.sup fun j : Fin 128 => scoreBlk (F := Ideal) q kp0 (ix2 i j) + vp0 (ix2 j d))
        ⊔ (Finset.univ.sup fun j : Fin 128 => scoreBlk (F := Ideal) q kp1 (ix2 i j) + vp1 (ix2 j d)) := by
  unfold ctxAcc
  rw [pay1_apply, pay1_apply, pay140_apply, bot_sup_eq]
  simp only [ctxPre_apply]

end Cert.KernelIdeal.Val

end
-- ==== Proof.Val.Arr3Blk.lean ====
/-
  Region 3 (the tropical attention call). Grid point t is head t / 2 and query tile t % 2: its query block is
  rows (t % 2) * 128 … + 127 of head t / 2 of the query array, its key and value blocks are all 256 rows of that
  head, its three weight blocks are the whole weight arrays. Read through those blocks, the tropical linear map
  of a block's row with a weight block is the mapped row Q3, K3 or V3 of the arrays.
-/
import proofs.«421917_j23888608101009_3_alg».proof.Proof.KernelIdeal.R3
import proofs.«421917_j23888608101009_3_alg».proof.Proof.Val.TlQ
import proofs.«421917_j23888608101009_3_alg».proof.Proof.Val.TlK
import proofs.«421917_j23888608101009_3_alg».proof.Proof.Val.TlV
import proofs.«421917_j23888608101009_3_alg».proof.Proof.Val.Score
import proofs.«421917_j23888608101009_3_alg».proof.Proof.Val.Ctx
import proofs.«421917_j23888608101009_3_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm Idealize.ShloMosaic Idealize.ShloMosaic.TcCoe Idealize.ShloMosaic.ValueIdx

variable (V : (c : Dev nD) → (b : Ref sig .tc) → Buf (Elt Ideal) ((c : Thread nD τ).loc b))

/-- The region's mapped query, key and value rows of head h. -/
def Q3 (c : Dev nD) (h : Fin 16) (l : Fin 256) : Fin 64 → EReal := Cert.Spec.tl (fun i => V c main_v6 (ix3 h l i)) (fun o i => V c main_arg6 (ix2 o i))
def K3 (c : Dev nD) (h : Fin 16) (l : Fin 256) : Fin 64 → EReal := Cert.Spec.tl (fun i => V c main_v9 (ix3 h l i)) (fun o i => V c main_arg7 (ix2 o i))
def V3 (c : Dev nD) (h : Fin 16) (l : Fin 256) : Fin 64 → EReal := Cert.Spec.tl (fun i => V c main_v12 (ix3 h l i)) (fun o i => V c main_arg8 (ix2 o i))

/-- The printed index maps, decided over the 32 points: head t / 2, query tile t % 2, everything else block 0. -/
theorem idx3 : ∀ t : Fin cfg3.N,
    win3_0.index t (0 : Fin 3) = t.val / 2 ∧ win3_0.index t (1 : Fin 3) = t.val % 2 ∧ win3_0.index t (2 : Fin 3) = 0
    ∧ win3_1.index t (0 : Fin 3) = t.val / 2 ∧ win3_1.index t (1 : Fin 3) = 0 ∧ win3_1.index t (2 : Fin 3) = 0
    ∧ win3_2.index t (0 : Fin 3) = t.val / 2 ∧ win3_2.index t (1 : Fin 3) = 0 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 3) = t.val / 2 ∧ win3_6.index t (1 : Fin 3) = t.val % 2 ∧ win3_6.index t (2 : Fin 3) = 0
    ∧ win3_7.index t (0 : Fin 3) = t.val / 2 ∧ win3_7.index t (1 : Fin 3) = t.val % 2 ∧ win3_7.index t (2 : Fin 3) = 0 :=
  (by decide +kernel : ∀ t : Fin grid3.N, _)

/-- Every (head, query tile) is some point's. -/
theorem idx3_onto : ∀ (h : Fin 16) (qt : Fin 2), ∃ t : Fin cfg3.N, t.val = h.val * 2 + qt.val :=
  fun h qt => ⟨⟨h.val * 2 + qt.val, by rw [show cfg3.N = 32 from N_3]; omega⟩, rfl⟩

/-- Point t's query block, entry by entry. -/
theorem iblk3_0_apply (c : Dev nD) (t : Fin cfg3.N) (x : S1x128x64.Idx) (k : S16x256x64.Idx)
    (hk0 : (k 0).val = t.val / 2) (hk1 : (k 1).val = t.val % 2 * 128 + (x 1).val) (hk2 : (k 2).val = (x 2).val) :
    (iblk3 V c 0 t : Vec Ideal S1x128x64 .f32) x = (V c main_v6 : S16x256x64.Idx → Elt Ideal .f32) k := by
  obtain ⟨a0, a1, a2, b0, b1, b2, c0, c1, c2, d0, d1, f0, f1, g0, g1, o0, o1, o2, p0, p1, p2⟩ := idx3 t
  unfold iblk3
  rw [View.read_apply]
  show V c main_v6 _ = V c main_v6 _
  congr 1
  funext a
  apply Fin.ext
  have hx0 : (x 0).val < 1 := (x 0).isLt
  match a with
  | ⟨0, _⟩ => show win3_0.index t (0 : Fin 3) * 1 + 1 * (x 0).val = (k 0).val; omega
  | ⟨1, _⟩ => show win3_0.index t (1 : Fin 3) * 128 + 1 * (x 1).val = (k 1).val; omega
  | ⟨2, _⟩ => show win3_0.index t (2 : Fin 3) * 64 + 1 * (x 2).val = (k 2).val; omega

/-- Point t's key block, entry by entry. -/
theorem iblk3_1_apply (c : Dev nD) (t : Fin cfg3.N) (x : S1x256x64.Idx) (k : S16x256x64.Idx)
    (hk0 : (k 0).val = t.val / 2) (hk1 : (k 1).val = (x 1).val) (hk2 : (k 2).val = (x 2).val) :
    (iblk3 V c 1 t : Vec Ideal S1x256x64 .f32) x = (V c main_v9 : S16x256x64.Idx → Elt Ideal .f32) k := by
  obtain ⟨a0, a1, a2, b0, b1, b2, c0, c1, c2, d0, d1, f0, f1, g0, g1, o0, o1, o2, p0, p1, p2⟩ := idx3 t
  unfold iblk3
  rw [View.read_apply]
  show V c main_v9 _ = V c main_v9 _
  congr 1
  funext a
  apply Fin.ext
  have hx0 : (x 0).val < 1 := (x 0).isLt
  match a with
  | ⟨0, _⟩ => show win3_1.index t (0 : Fin 3) * 1 + 1 * (x 0).val = (k 0).val; omega
  | ⟨1, _⟩ => show win3_1.index t (1 : Fin 3) * 256 + 1 * (x 1).val = (k 1).val; omega
  | ⟨2, _⟩ => show win3_1.index t (2 : Fin 3) * 64 + 1 * (x 2).val = (k 2).val; omega

/-- Point t's value block, entry by entry. -/
theorem iblk3_2_apply (c : Dev nD) (t : Fin cfg3.N) (x : S1x256x64.Idx) (k : S16x256x64.Idx)
    (hk0 : (k 0).val = t.val / 2) (hk1 : (k 1).val = (x 1).val) (hk2 : (k 2).val = (x 2).val) :
    (iblk3 V c 2 t : Vec Ideal S1x256x64 .f32) x = (V c main_v12 : S16x256x64.Idx → Elt Ideal .f32) k := by
  obtain ⟨a0, a1, a2, b0, b1, b2, c0, c1, c2, d0, d1, f0, f1, g0, g1, o0, o1, o2, p0, p1, p2⟩ := idx3 t
  unfold iblk3
  rw [View.read_apply]
  show V c main_v12 _ = V c main_v12 _
  congr 1
  funext a
  apply Fin.ext
  have hx0 : (x 0).val < 1 := (x 0).isLt
  match a with
  | ⟨0, _⟩ => show win3_2.index t (0 : Fin 3) * 1 + 1 * (x 0).val = (k 0).val; omega
  | ⟨1, _⟩ => show win3_2.index t (1 : Fin 3) * 256 + 1 * (x 1).val = (k 1).val; omega
  | ⟨2, _⟩ => show win3_2.index t (2 : Fin 3) * 64 + 1 * (x 2).val = (k 2).val; omega

/-- Point t's query weight block is the whole weight array. -/
theorem iblk3_3_apply (c : Dev nD) (t : Fin cfg3.N) (x : S64x64.Idx) :
    (iblk3 V c 3 t : Vec Ideal S64x64 .f32) x = (V c main_arg6 : S64x64.Idx → Elt Ideal .f32) x := by
  obtain ⟨a0, a1, a2, b0, b1, b2, c0, c1, c2, d0, d1, f0, f1, g0, g1, o0, o1, o2, p0, p1, p2⟩ := idx3 t
  unfold iblk3
  rw [View.read_apply]
  show V c main_arg6 _ = V c main_arg6 _
  congr 1
  funext a
  apply Fin.ext
  match a with
  | ⟨0, _⟩ => show win3_3.index t (0 : Fin 2) * 64 + 1 * (x 0).val = (x 0).val; omega
  | ⟨1, _⟩ => show win3_3.index t (1 : Fin 2) * 64 + 1 * (x 1).val = (x 1).val; omega

/-- Point t's key weight block is the whole weight array. -/
theorem iblk3_4_apply (c : Dev nD) (t : Fin cfg3.N) (x : S64x64.Idx) :
    (iblk3 V c 4 t : Vec Ideal S64x64 .f32) x = (V c main_arg7 : S64x64.Idx → Elt Ideal .f32) x := by
  obtain ⟨a0, a1, a2, b0, b1, b2, c0, c1, c2, d0, d1, f0, f1, g0, g1, o0, o1, o2, p0, p1, p2⟩ := idx3 t
  unfold iblk3
  rw [View.read_apply]
  show V c main_arg7 _ = V c main_arg7 _
  congr 1
  funext a
  apply Fin.ext
  match a with
  | ⟨0, _⟩ => show win3_4.index t (0 : Fin 2) * 64 + 1 * (x 0).val = (x 0).val; omega
  | ⟨1, _⟩ => show win3_4.index t (1 : Fin 2) * 64 + 1 * (x 1).val = (x 1).val; omega

/-- Point t's value weight block is the whole weight array. -/
theorem iblk3_5_apply (c : Dev nD) (t : Fin cfg3.N) (x : S64x64.Idx) :
    (iblk3 V c 5 t : Vec Ideal S64x64 .f32) x = (V c main_arg8 : S64x64.Idx → Elt Ideal .f32) x := by
  obtain ⟨a0, a1, a2, b0, b1, b2, c0, c1, c2, d0, d1, f0, f1, g0, g1, o0, o1, o2, p0, p1, p2⟩ := idx3 t
  unfold iblk3
  rw [View.read_apply]
  show V c main_arg8 _ = V c main_arg8 _
  congr 1
  funext a
  apply Fin.ext
  match a with
  | ⟨0, _⟩ => show win3_5.index t (0 : Fin 2) * 64 + 1 * (x 0).val = (x 0).val; omega
  | ⟨1, _⟩ => show win3_5.index t (1 : Fin 2) * 64 + 1 * (x 1).val = (x 1).val; omega

/-! ## The mapped rows of a block -/

theorem hz3 : (![0, 0, 0] : Fin 3 → Nat) = fun _ => 0 := funext fun a => by fin_cases a <;> rfl
theorem hz2 : (![0, 0] : Fin 2 → Nat) = fun _ => 0 := funext fun a => by fin_cases a <;> rfl

/-- Row r of a 128-row block under the tropical linear map with a weight block. -/
def browQ (x : Vec Ideal S1x128x64 .f32) (w : Vec Ideal S64x64 .f32) (r : Fin 128) : Fin 64 → EReal :=
  Cert.Spec.tl (fun i => x (ix3 (0 : Fin 1) r i)) (fun o i => w (ix2 o i))
/-- Row l of a 256-row block under the tropical linear map with a weight block. -/
def browK (x : Vec Ideal S1x256x64 .f32) (w : Vec Ideal S64x64 .f32) (l : Fin 256) : Fin 64 → EReal :=
  Cert.Spec.tl (fun i => x (ix3 (0 : Fin 1) l i)) (fun o i => w (ix2 o i))

/-- The two 128-row halves of a 256-row block, entry by entry. -/
theorem ld_kv0 (x : Vec Ideal S1x256x64 .f32) (r : Fin 128) (i : Fin 64) :
    (View.ld x r3_kv0 : Vec Ideal S1x128x64 .f32) (ix3 (0 : Fin 1) r i) = x (ix3 (0 : Fin 1) (⟨r.val, by omega⟩ : Fin 256) i) := by
  show x _ = x _
  congr 1
  funext a
  apply Fin.ext
  match a with
  | ⟨0, _⟩ => rfl
  | ⟨1, _⟩ => show 0 + 1 * r.val = r.val; omega
  | ⟨2, _⟩ => show 0 + 1 * i.val = i.val; omega
theorem ld_kv1 (x : Vec Ideal S1x256x64 .f32) (r : Fin 128) (i : Fin 64) :
    (View.ld x r3_kv1 : Vec Ideal S1x128x64 .f32) (ix3 (0 : Fin 1) r i) = x (ix3 (0 : Fin 1) (⟨128 + r.val, by omega⟩ : Fin 256) i) := by
  show x _ = x _
  congr 1
  funext a
  apply Fin.ext
  match a with
  | ⟨0, _⟩ => rfl
  | ⟨1, _⟩ => show 128 + 1 * r.val = 128 + r.val; omega
  | ⟨2, _⟩ => show 0 + 1 * i.val = i.val; omega

/-- The mapped query block's entries are the block's mapped rows. -/
theorem q3_apply (x0 : Vec Ideal S1x128x64 .f32) (x3 : Vec Ideal S64x64 .f32) (r : Fin 128) (o : Fin 64) :
    q3 (F := Ideal) x0 x3 (ix2 r o) = browQ x0 x3 r o := by
  unfold q3 browQ Cert.Spec.tl
  rw [tlq_apply]
  have e0 : (View.ld x0 r3_q : Vec Ideal S1x128x64 .f32) = x0 := View.ld_unit_zero (S := S1x128x64) hz3 _ x0
  have e3 : (View.ld x3 r3_w : Vec Ideal S64x64 .f32) = x3 := View.ld_unit_zero (S := S64x64) hz2 _ x3
  rw [e0, e3]

/-- The mapped key and value blocks of key block 0 are the mapped rows 0 … 127, of key block 1 the rows 128 … 255. -/
theorem k3_0_apply (x1 : Vec Ideal S1x256x64 .f32) (x4 : Vec Ideal S64x64 .f32) (r : Fin 128) (o : Fin 64) :
    k3_0 (F := Ideal) x1 x4 (ix2 r o) = browK x1 x4 ⟨r.val, by omega⟩ o := by
  unfold k3_0 browK Cert.Spec.tl
  rw [tlk_apply]
  have ew : (View.ld x4 r3_w : Vec Ideal S64x64 .f32) = x4 := View.ld_unit_zero (S := S64x64) hz2 _ x4
  refine Finset.sup_congr rfl fun i _ => ?_
  rw [ld_kv0 x1 r i, ew]
theorem k3_1_apply (x1 : Vec Ideal S1x256x64 .f32) (x4 : Vec Ideal S64x64 .f32) (r : Fin 128) (o : Fin 64) :
    k3_1 (F := Ideal) x1 x4 (ix2 r o) = browK x1 x4 ⟨128 + r.val, by omega⟩ o := by
  unfold k3_1 browK Cert.Spec.tl
  rw [tlk_apply]
  have ew : (View.ld x4 r3_w : Vec Ideal S64x64 .f32) = x4 := View.ld_unit_zero (S := S64x64) hz2 _ x4
  refine Finset.sup_congr rfl fun i _ => ?_
  rw [ld_kv1 x1 r i, ew]
theorem v3_0_apply (x2 : Vec Ideal S1x256x64 .f32) (x5 : Vec Ideal S64x64 .f32) (r : Fin 128) (o : Fin 64) :
    v3_0 (F := Ideal) x2 x5 (ix2 r o) = browK x2 x5 ⟨r.val, by omega⟩ o := by
  unfold v3_0 browK Cert.Spec.tl
  rw [tlv_apply]
  have ew : (View.ld x5 r3_w : Vec Ideal S64x64 .f32) = x5 := View.ld_unit_zero (S := S64x64) hz2 _ x5
  refine Finset.sup_congr rfl fun i _ => ?_
  rw [ld_kv0 x2 r i, ew]
theorem v3_1_apply (x2 : Vec Ideal S1x256x64 .f32) (x5 : Vec Ideal S64x64 .f32) (r : Fin 128) (o : Fin 64) :
    v3_1 (F := Ideal) x2 x5 (ix2 r o) = browK x2 x5 ⟨128 + r.val, by omega⟩ o := by
  unfold v3_1 browK Cert.Spec.tl
  rw [tlv_apply]
  have ew : (View.ld x5 r3_w : Vec Ideal S64x64 .f32) = x5 := View.ld_unit_zero (S := S64x64) hz2 _ x5
  refine Finset.sup_congr rfl fun i _ => ?_
  rw [ld_kv1 x2 r i, ew]

/-! ## Point t's mapped rows are the arrays' -/

/-- Row r of point t's query block, mapped, is the mapped query row (t % 2) * 128 + r of head t / 2. -/
theorem browQ_iblk (c : Dev nD) (t : Fin cfg3.N) (r : Fin 128) (h : Fin 16) (l : Fin 256)
    (hh : h.val = t.val / 2) (hl : l.val = t.val % 2 * 128 + r.val) :
    browQ (iblk3 V c 0 t) (iblk3 V c 3 t) r = Q3 V c h l := by
  unfold browQ Q3
  congr 1
  · funext i; exact iblk3_0_apply V c t _ _ hh hl rfl
  · funext o i; exact iblk3_3_apply V c t _

/-- Row l of point t's key block, mapped, is the mapped key row l of head t / 2; the same for the value block. -/
theorem browK_iblk (c : Dev nD) (t : Fin cfg3.N) (l : Fin 256) (h : Fin 16) (hh : h.val = t.val / 2) :
    browK (iblk3 V c 1 t) (iblk3 V c 4 t) l = K3 V c h l := by
  unfold browK K3
  congr 1
  · funext i; exact iblk3_1_apply V c t _ _ hh rfl rfl
  · funext o i; exact iblk3_4_apply V c t _
theorem browV_iblk (c : Dev nD) (t : Fin cfg3.N) (l : Fin 256) (h : Fin 16) (hh : h.val = t.val / 2) :
    browK (iblk3 V c 2 t) (iblk3 V c 5 t) l = V3 V c h l := by
  unfold browK V3
  congr 1
  · funext i; exact iblk3_2_apply V c t _ _ hh rfl rfl
  · funext o i; exact iblk3_5_apply V c t _

end Cert.KernelIdeal.Val

end
-- ==== Proof.Val.Arr3Attn.lean ====
/-
  Region 3's score array. Point t leaves the score block of its 128 query rows against all 256 key rows of its
  head, as two pieces: key rows 128 … 255 and key rows 0 … 127. Entry (r, l) of the block is the score of the
  block's mapped query row r against its mapped key row l; the 32 blocks tile the array, so entry (h, i, j) of
  the array is the score of the mapped query row i against the mapped key row j of head h.
-/
import proofs.«421917_j23888608101009_3_alg».proof.Proof.Val.Arr3Blk
import Idealize.ShloMosaic.Lib.Pipeline.Value
import Idealize.ShloMosaic.Lib.ValueIdx

noncomputable section

namespace Cert.KernelIdeal.Val

open Cert.KernelIdeal Cert.KernelIdeal.Gen Cert.KernelIdeal.Frm Idealize.ShloMosaic Idealize.ShloMosaic.TcCoe Idealize.ShloMosaic.ValueIdx

variable (V : (c : Dev nD) → (b : Ref sig .tc) → Buf (Elt Ideal) ((c : Thread nD τ).loc b))

/-- An index of a block with one head is (0, r, l). -/
theorem head_idx {n1 n2 : Nat} (x : (⟨3, ![1, n1, n2]⟩ : Shape).Idx) : x = ix3 (0 : Fin 1) (x 1) (x 2) := by
  funext a
  match a with
  | ⟨0, _⟩ => exact Fin.ext (by have h : (x 0).val < 1 := (x 0).isLt; show (x 0).val = 0; omega)
  | ⟨1, _⟩ => rfl
  | ⟨2, _⟩ => rfl

/-- The score block: entry (0, r, l) is the score of the mapped query row r against the mapped key row l. -/
def blkScore (x0 : Vec Ideal S1x128x64 .f32) (x1 : Vec Ideal S1x256x64 .f32) (x3 x4 : Vec Ideal S64x64 .f32) : S1x128x256.Idx → EReal :=
  fun y => Cert.Spec.score (browQ x0 x3 (y 1)) (browK x1 x4 (y 2))

/-- A score piece's entry is the score of the two rows its operands' rows are. -/
theorem scorePiece_rows (q : FVec Ideal S128x64 .f32) (kp : Vec Ideal S128x64 .f32) (i j : Fin 128) (qr kr : Fin 64 → EReal)
    (hq : ∀ d, q (ix2 i d) = qr d) (hk : ∀ d, kp (ix2 j d) = kr d) :
    scorePiece (F := Ideal) q kp (ix3 (0 : Fin 1) i j) = Cert.Spec.score qr kr := by
  rw [scorePiece_apply, scoreBlk_apply]
  unfold Cert.Spec.score
  simp only [hq, hk]

/-- The piece of key block 1 is the score block on its columns 128 … 255. -/
theorem piece_a1 (x0 : Vec Ideal S1x128x64 .f32) (x1 : Vec Ideal S1x256x64 .f32) (x3 x4 : Vec Ideal S64x64 .f32) (x : S1x128x128.Idx) :
    scorePiece (F := Ideal) (q3 x0 x3) (k3_1 x1 x4) x = blkScore x0 x1 x3 x4 (r3_a1.emb x) := by
  obtain ⟨i, j, rfl⟩ : ∃ i j, x = ix3 (0 : Fin 1) i j := ⟨x 1, x 2, head_idx x⟩
  refine (scorePiece_rows _ _ i j _ _ (fun d => q3_apply x0 x3 i d) (fun d => k3_1_apply x1 x4 j d)).trans ?_
  unfold blkScore
  have h1 : (r3_a1.emb (ix3 (0 : Fin 1) i j)) 1 = i := Fin.ext (by show 0 + 1 * i.val = i.val; omega)
  have h2 : (r3_a1.emb (ix3 (0 : Fin 1) i j)) 2 = (⟨128 + j.val, by omega⟩ : Fin 256) := Fin.ext (by show 128 + 1 * j.val = 128 + j.val; omega)
  rw [h1, h2]

/-- The piece of key block 0 is the score block on its columns 0 … 127. -/
theorem piece_a0 (x0 : Vec Ideal S1x128x64 .f32) (x1 : Vec Ideal S1x256x64 .f32) (x3 x4 : Vec Ideal S64x64 .f32) (x : S1x128x128.Idx) :
    scorePiece (F := Ideal) (q3 x0 x3) (k3_0 x1 x4) x = blkScore x0 x1 x3 x4 (r3_a0.emb x) := by
  obtain ⟨i, j, rfl⟩ : ∃ i j, x = ix3 (0 : Fin 1) i j := ⟨x 1, x 2, head_idx x⟩
  refine (scorePiece_rows _ _ i j _ _ (fun d => q3_apply x0 x3 i d) (fun d => k3_0_apply x1 x4 j d)).trans ?_
  unfold blkScore
  have h1 : (r3_a0.emb (ix3 (0 : Fin 1) i j)) 1 = i := Fin.ext (by show 0 + 1 * i.val = i.val; omega)
  have h2 : (r3_a0.emb (ix3 (0 : Fin 1) i j)) 2 = (⟨j.val, by omega⟩ : Fin 256) := Fin.ext (by show 0 + 1 * j.val = j.val; omega)
  rw [h1, h2]

/-- The two pieces tile the block: the staging buffer after the body is the score block. -/
theorem out3_7_apply (x0 : Vec Ideal S1x128x64 .f32) (x1 : Vec Ideal S1x256x64 .f32) (x3 x4 : Vec Ideal S64x64 .f32) (y : S1x128x256.Idx) :
    out3_7 (F := Ideal) x0 x1 x3 x4 y = blkScore x0 x1 x3 x4 y := by
  unfold out3_7
  refine View.canon_apply_of_pieces (Val := Elt Ideal) (S := S1x128x256) (e := .f32) (blkScore x0 x1 x3 x4) _ ?_ y (cover3_7 _ _ y)
  intro p hp
  simp only [List.mem_cons, List.mem_singleton, List.not_mem_nil, or_false] at hp
  rcases hp with rfl | rfl
  · exact fun x => piece_a1 x0 x1 x3 x4 x
  · exact fun x => piece_a0 x0 x1 x3 x4 x

/-- The score array: entry (h, i, j) is the score of the mapped query row i against the mapped key row j of head h. -/
def attnArr3 (c : Dev nD) : S16x256x256.Idx → EReal :=
  fun j => Cert.Spec.score (Q3 V c (j 0) (j 1)) (K3 V c (j 0) (j 2))

/-- Point t's score block is its block of the score array. -/
theorem blkScore_iblk (c : Dev nD) (t : Fin cfg3.N) (y : S1x128x256.Idx) (k : S16x256x256.Idx)
    (hk0 : (k 0).val = t.val / 2) (hk1 : (k 1).val = t.val % 2 * 128 + (y 1).val) (hk2 : (k 2).val = (y 2).val) :
    blkScore (iblk3 V c 0 t) (iblk3 V c 1 t) (iblk3 V c 3 t) (iblk3 V c 4 t) y = attnArr3 V c k := by
  unfold blkScore attnArr3
  have e2 : (y 2 : Fin 256) = k 2 := Fin.ext hk2.symm
  rw [browQ_iblk V c t (y 1) (k 0) (k 1) hk0 hk1, e2, browK_iblk V c t (k 2) (k 0) hk0]

/-- What point t writes back is block t of the score array. -/
theorem flushed3_7_eq (c : Dev nD) (t : Fin cfg3.N) :
    (dat3 (F := Ideal) V c).flushed 7 t = ((cfg3.win 7).blk t).view.read (Elt Ideal) (attnArr3 V c) := by
  show (cfg3.win 7).cut (grid3.coords t) ((dat3 (F := Ideal) V c).after 7 t) = _
  rw [after3_7]
  obtain ⟨a0, a1, a2, b0, b1, b2, c0, c1, c2, d0, d1, f0, f1, g0, g1, o0, o1, o2, p0, p1, p2⟩ := idx3 t
  funext y
  show out3_7 (F := Ideal) (iblk3 V c 0 t) (iblk3 V c 1 t) (iblk3 V c 3 t) (iblk3 V c 4 t) y = attnArr3 V c (((cfg3.win 7).blk t).view.emb y)
  refine (out3_7_apply _ _ _ _ y).trans (blkScore_iblk V c t y _ ?_ ?_ ?_)
  · show win3_7.index t (0 : Fin 3) * 1 + 1 * (y 0).val = t.val / 2
    have hy : (y 0).val < 1 := (y 0).isLt
    omega
  · show win3_7.index t (1 : Fin 3) * 128 + 1 * (y 1).val = t.val % 2 * 128 + (y 1).val
    omega
  · show win3_7.index t (2 : Fin 3) * 256 + 1 * (y 2).val = (y 2).val
    omega

/-- An index of the score array is in point t's block iff each coordinate is in the block's range on its axis. -/
theorem mem_blk3_7 (t : Fin cfg3.N) (i : S16x256x256.Idx) :
    i ∈ ((cfg3.win 7).blk t).view.set ↔ ∀ a : Fin 3, win3_7.index t a * S1x128x256.size a ≤ (i a).val ∧ (i a).val < win3_7.index t a * S1x128x256.size a + S1x128x256.size a := by
  show i ∈ ((View.whole main_v13_1).slice (win3_7.rect t)).set ↔ _
  rw [View.set_slice_whole, Rect.mem_set_unit]
  exact Iff.rfl

/-- Every index of the score array is in the block of the point of its head and query tile. -/
theorem covered3_7 (i : S16x256x256.Idx) :
    ∃ t : Fin cfg3.N, (cfg3.win 7).flush t = true ∧ i ∈ ((cfg3.win 7).blk t).view.set := by
  have h0 : (i 0).val < 16 := (i 0).isLt
  have h1 : (i 1).val < 256 := (i 1).isLt
  have h2 : (i 2).val < 256 := (i 2).isLt
  obtain ⟨t, ht⟩ := idx3_onto ⟨(i 0).val, h0⟩ ⟨(i 1).val / 128, by omega⟩
  have ht' : t.val = (i 0).val * 2 + (i 1).val / 128 := ht
  refine ⟨t, flush3_7 t, ?_⟩
  rw [mem_blk3_7]
  obtain ⟨a0, a1, a2, b0, b1, b2, c0, c1, c2, d0, d1, f0, f1, g0, g1, o0, o1, o2, p0, p1, p2⟩ := idx3 t
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 128 ≤ (i 1).val ∧ (i 1).val < win3_7.index t (1 : Fin 3) * 128 + 128; omega
  | ⟨2, _⟩ => show win3_7.index t (2 : Fin 3) * 256 ≤ (i 2).val ∧ (i 2).val < win3_7.index t (2 : Fin 3) * 256 + 256; omega

/-- The score array after the region: entry (h, i, j) is the score of the mapped query row i against the mapped
    key row j of head h. -/
theorem arr3_attn (c : Dev nD) : (dat3 (F := Ideal) V c).arrAt 7 cfg3.N = fun j => Cert.Spec.score (Q3 V c (j 0) (j 1)) (K3 V c (j 0) (j 2)) :=
  (dat3 (F := Ideal) V c).arrAt_eq_of_cover 7 (attnArr3 V c) (fun t _ => flushed3_7_eq V c t) covered3_7

end Cert.KernelIdeal.Val

end
-- ==== Proof.Val.Arr3Ctx.lean ====
/-
  Region 3's context array. Point t leaves, in one store, the context block of its 128 query rows: the maximum
  over the two key blocks of the maxima over their 128 key rows of score plus mapped value entry. The maximum
  over all 256 key rows is the larger of those two, so entry (0, r, d) of the block is the max-plus context of
  the block's query row r at feature d; the 32 blocks tile the array.
-/
import proofs.«421917_j23888608101009_3_alg».proof.Proof.Val.Arr3Blk
import proofs.«421917_j23888608101009_3_alg».proof.Proof.Val.Arr3Attn
import Idealize.ShloMosaic.Lib.Pipeline.Value
import Idealize.ShloMosaic.Lib.ValueIdx

noncomputable section

namespace Cert.KernelIdeal.Val

open Cert.KernelIdeal Cert.KernelIdeal.Gen Cert.KernelIdeal.Frm Idealize.ShloMosaic Idealize.ShloMosaic.TcCoe Idealize.ShloMosaic.ValueIdx

variable (V : (c : Dev nD) → (b : Ref sig .tc) → Buf (Elt Ideal) ((c : Thread nD τ).loc b))

/-- The maximum over 256 rows is the larger of the maximum over rows 0 … 127 and the maximum over rows 128 … 255. -/
theorem sup_split256 (f : Fin 256 → EReal) :
    Finset.univ.sup f = (Finset.univ.sup fun j : Fin 128 => f ⟨j.val, by omega⟩) ⊔ (Finset.univ.sup fun j : Fin 128 => f ⟨128 + j.val, by omega⟩) := by
  apply le_antisymm
  · refine Finset.sup_le fun l _ => ?_
    have hl : l.val < 256 := l.isLt
    by_cases h : l.val < 128
    · refine le_sup_of_le_left ?_
      exact Finset.le_sup (f := fun j : Fin 128 => f ⟨j.val, by omega⟩) (Finset.mem_univ (⟨l.val, h⟩ : Fin 128))
    · refine le_sup_of_le_right ?_
      have e : l = ⟨128 + (⟨l.val - 128, by omega⟩ : Fin 128).val, by show 128 + (l.val - 128) < 256; omega⟩ :=
        Fin.ext (by show l.val = 128 + (l.val - 128); omega)
      exact (congrArg f e).le.trans
        (Finset.le_sup (f := fun j : Fin 128 => f ⟨128 + j.val, by omega⟩) (Finset.mem_univ (⟨l.val - 128, by omega⟩ : Fin 128)))
  · exact sup_le (Finset.sup_le fun j _ => Finset.le_sup (f := f) (Finset.mem_univ _))
      (Finset.sup_le fun j _ => Finset.le_sup (f := f) (Finset.mem_univ _))

/-- The context block: entry (0, r, d) is the max-plus context of the block's mapped query row r at feature d. -/
def blkCtx (x0 : Vec Ideal S1x128x64 .f32) (x1 x2 : Vec Ideal S1x256x64 .f32) (x3 x4 x5 : Vec Ideal S64x64 .f32) : S1x128x64.Idx → EReal :=
  fun y => Cert.Spec.ctx (fun l => Cert.Spec.score (browQ x0 x3 (y 1)) (browK x1 x4 l)) (fun l => browK x2 x5 l) (y 2)

/-- A score block's entry is the score of the two rows its operands' rows are. -/
theorem scoreBlk_rows (q : FVec Ideal S128x64 .f32) (kp : Vec Ideal S128x64 .f32) (i j : Fin 128) (qr kr : Fin 64 → EReal)
    (hq : ∀ d, q (ix2 i d) = qr d) (hk : ∀ d, kp (ix2 j d) = kr d) :
    scoreBlk (F := Ideal) q kp (ix2 i j) = Cert.Spec.score qr kr := by
  rw [scoreBlk_apply]
  unfold Cert.Spec.score
  simp only [hq, hk]

/-- The one store leaves the context block. -/
theorem out3_6_apply (x0 : Vec Ideal S1x128x64 .f32) (x1 x2 : Vec Ideal S1x256x64 .f32) (x3 x4 x5 : Vec Ideal S64x64 .f32) (y : S1x128x64.Idx) :
    out3_6 (F := Ideal) x0 x1 x2 x3 x4 x5 y = blkCtx x0 x1 x2 x3 x4 x5 y := by
  unfold out3_6
  rw [View.canon_unit_zero hz3]
  obtain ⟨i, d, rfl⟩ : ∃ i d, y = ix3 (0 : Fin 1) i d := ⟨y 1, y 2, head_idx y⟩
  rw [pay2_apply, ctxAcc_apply]
  show _ = Finset.univ.sup fun l : Fin 256 => Cert.Spec.score (browQ x0 x3 i) (browK x1 x4 l) + browK x2 x5 l d
  rw [sup_split256]
  congr 1
  · refine Finset.sup_congr rfl fun j _ => ?_
    rw [scoreBlk_rows _ _ i j _ _ (fun d => q3_apply x0 x3 i d) (fun d => k3_0_apply x1 x4 j d), v3_0_apply]
  · refine Finset.sup_congr rfl fun j _ => ?_
    rw [scoreBlk_rows _ _ i j _ _ (fun d => q3_apply x0 x3 i d) (fun d => k3_1_apply x1 x4 j d), v3_1_apply]

/-- The context array: entry (h, i, d) is the max-plus context of head h's query row i at feature d. -/
def ctxArr3 (c : Dev nD) : S16x256x64.Idx → EReal :=
  fun j => Cert.Spec.ctx (fun jj => Cert.Spec.score (Q3 V c (j 0) (j 1)) (K3 V c (j 0) jj)) (fun jj => V3 V c (j 0) jj) (j 2)

/-- The context of equal query row, key rows, value rows and feature is equal. -/
theorem ctx_congr (q q' : Fin 64 → EReal) (kf kf' vf vf' : Fin 256 → Fin 64 → EReal) (d d' : Fin 64)
    (hq : q = q') (hk : kf = kf') (hv : vf = vf') (hd : d = d') :
    Cert.Spec.ctx (fun l => Cert.Spec.score q (kf l)) (fun l => vf l) d
      = Cert.Spec.ctx (fun l => Cert.Spec.score q' (kf' l)) (fun l => vf' l) d' := by
  subst hq; subst hk; subst hv; subst hd; rfl

/-- Point t's context block is its block of the context array. -/
theorem blkCtx_iblk (c : Dev nD) (t : Fin cfg3.N) (y : S1x128x64.Idx) (k : S16x256x64.Idx)
    (hk0 : (k 0).val = t.val / 2) (hk1 : (k 1).val = t.val % 2 * 128 + (y 1).val) (hk2 : (k 2).val = (y 2).val) :
    blkCtx (iblk3 V c 0 t) (iblk3 V c 1 t) (iblk3 V c 2 t) (iblk3 V c 3 t) (iblk3 V c 4 t) (iblk3 V c 5 t) y = ctxArr3 V c k := by
  have e2 : (y 2 : Fin 64) = k 2 := Fin.ext hk2.symm
  exact ctx_congr (browQ (iblk3 V c 0 t) (iblk3 V c 3 t) (y 1)) (Q3 V c (k 0) (k 1))
    (browK (iblk3 V c 1 t) (iblk3 V c 4 t)) (K3 V c (k 0)) (browK (iblk3 V c 2 t) (iblk3 V c 5 t)) (V3 V c (k 0)) (y 2) (k 2)
    (browQ_iblk V c t (y 1) (k 0) (k 1) hk0 hk1) (funext fun l => browK_iblk V c t l (k 0) hk0)
    (funext fun l => browV_iblk V c t l (k 0) hk0) e2

/-- What point t writes back is block t of the context array. -/
theorem flushed3_6_eq (c : Dev nD) (t : Fin cfg3.N) :
    (dat3 (F := Ideal) V c).flushed 6 t = ((cfg3.win 6).blk t).view.read (Elt Ideal) (ctxArr3 V c) := by
  show (cfg3.win 6).cut (grid3.coords t) ((dat3 (F := Ideal) V c).after 6 t) = _
  rw [after3_6]
  obtain ⟨a0, a1, a2, b0, b1, b2, c0, c1, c2, d0, d1, f0, f1, g0, g1, o0, o1, o2, p0, p1, p2⟩ := idx3 t
  funext y
  show out3_6 (F := Ideal) (iblk3 V c 0 t) (iblk3 V c 1 t) (iblk3 V c 2 t) (iblk3 V c 3 t) (iblk3 V c 4 t) (iblk3 V c 5 t) y = ctxArr3 V c (((cfg3.win 6).blk t).view.emb y)
  refine (out3_6_apply _ _ _ _ _ _ y).trans (blkCtx_iblk V c t y _ ?_ ?_ ?_)
  · show win3_6.index t (0 : Fin 3) * 1 + 1 * (y 0).val = t.val / 2
    have hy : (y 0).val < 1 := (y 0).isLt
    omega
  · show win3_6.index t (1 : Fin 3) * 128 + 1 * (y 1).val = t.val % 2 * 128 + (y 1).val
    omega
  · show win3_6.index t (2 : Fin 3) * 64 + 1 * (y 2).val = (y 2).val
    omega

/-- An index of the context array is in point t's block iff each coordinate is in the block's range on its axis. -/
theorem mem_blk3_6 (t : Fin cfg3.N) (i : S16x256x64.Idx) :
    i ∈ ((cfg3.win 6).blk t).view.set ↔ ∀ a : Fin 3, win3_6.index t a * S1x128x64.size a ≤ (i a).val ∧ (i a).val < win3_6.index t a * S1x128x64.size a + S1x128x64.size a := by
  show i ∈ ((View.whole main_v13_0).slice (win3_6.rect t)).set ↔ _
  rw [View.set_slice_whole, Rect.mem_set_unit]
  exact Iff.rfl

/-- Every index of the context array is in the block of the point of its head and query tile. -/
theorem covered3_6 (i : S16x256x64.Idx) :
    ∃ t : Fin cfg3.N, (cfg3.win 6).flush t = true ∧ i ∈ ((cfg3.win 6).blk t).view.set := by
  have h0 : (i 0).val < 16 := (i 0).isLt
  have h1 : (i 1).val < 256 := (i 1).isLt
  have h2 : (i 2).val < 64 := (i 2).isLt
  obtain ⟨t, ht⟩ := idx3_onto ⟨(i 0).val, h0⟩ ⟨(i 1).val / 128, by omega⟩
  have ht' : t.val = (i 0).val * 2 + (i 1).val / 128 := ht
  refine ⟨t, flush3_6 t, ?_⟩
  rw [mem_blk3_6]
  obtain ⟨a0, a1, a2, b0, b1, b2, c0, c1, c2, d0, d1, f0, f1, g0, g1, o0, o1, o2, p0, p1, p2⟩ := idx3 t
  intro a
  match a with
  | ⟨0, _⟩ => show win3_6.index t (0 : Fin 3) * 1 ≤ (i 0).val ∧ (i 0).val < win3_6.index t (0 : Fin 3) * 1 + 1; omega
  | ⟨1, _⟩ => show win3_6.index t (1 : Fin 3) * 128 ≤ (i 1).val ∧ (i 1).val < win3_6.index t (1 : Fin 3) * 128 + 128; omega
  | ⟨2, _⟩ => show win3_6.index t (2 : Fin 3) * 64 ≤ (i 2).val ∧ (i 2).val < win3_6.index t (2 : Fin 3) * 64 + 64; omega

/-- The context array after the region: entry (h, i, d) is the max-plus context of head h's query row i at
    feature d, over the scores against all 256 mapped key rows and the mapped value rows of head h. -/
theorem arr3_ctx (c : Dev nD) : (dat3 (F := Ideal) V c).arrAt 6 cfg3.N = fun j => Cert.Spec.ctx (fun jj => Cert.Spec.score (Q3 V c (j 0) (j 1)) (K3 V c (j 0) jj)) (fun jj => V3 V c (j 0) jj) (j 2) :=
  (dat3 (F := Ideal) V c).arrAt_eq_of_cover 6 (ctxArr3 V c) (fun t _ => flushed3_6_eq V c t) covered3_6

end Cert.KernelIdeal.Val

end
-- ==== Proof.Val.Arr4.lean ====
/-
  Region 4's output array as one function of the region's input arrays.  Point `b` of the grid (a batch)
  writes the block `(b, ·, ·)` of the output; that block holds, at `(l, o)`, the product
  `⟨m[b,l,·], Wo[o,·]⟩`, because the point's left block is the batch's slab of `m` and its weight block is
  the whole matrix.  The two batches' blocks cover the output, so after the run the array is the product
  everywhere.
-/
import proofs.«421917_j23888608101009_3_alg».proof.Proof.KernelIdeal.R4
import proofs.«421917_j23888608101009_3_alg».proof.Proof.Val.Proj
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3_4 : (![0, 0, 0] : Fin 3 → Nat) = fun _ => 0 := funext fun a => by fin_cases a <;> rfl
theorem hz2_4 : (![0, 0] : Fin 2 → Nat) = fun _ => 0 := funext fun a => by fin_cases a <;> rfl

/-- The product array: entry `(b, l, o)` is `⟨m[b,l,·], Wo[o,·]⟩`. -/
abbrev prodArr4 (a0 : S2x256x512.Idx → EReal) (a1 : S512x512.Idx → EReal) : S2x256x512.Idx → EReal :=
  fun j => ∑ k : Fin 512, a0 (ix3 (j 0) (j 1) k) * a1 (ix2 (j 2) k)

/-- The stored block at `(u, l, o)`, when row `l` of the left block is row `(b, l)` of the left array and the weight
    block reads as the weights do on row `o`: the product array at `(b, l, o)`. -/
theorem blk4_val (x0 : Vec Ideal S1x256x512 .f32) (x1 : Vec Ideal S512x512 .f32)
    (a0 : S2x256x512.Idx → EReal) (a1 : S512x512.Idx → EReal)
    (b : Fin 2) (u : Fin 1) (l : Fin 256) (o : Fin 512)
    (h0 : ∀ k : Fin 512, x0 (ix3 (0 : Fin 1) l k) = a0 (ix3 b l k))
    (h1 : ∀ k : Fin 512, x1 (ix2 o k) = a1 (ix2 o k)) :
    k4_pay1 (F := Ideal) x0 x1 (ix3 u l o) = prodArr4 a0 a1 (ix3 b l o) := by
  obtain rfl : u = 0 := Subsingleton.elim _ _
  rw [pay_out4]
  show _ = ∑ k : Fin 512, a0 (ix3 b l k) * a1 (ix2 o k)
  simp only [h0, h1]

/-- The printed index maps, decided over the grid: the left block and the output block are block `b` along the
    batch axis and block 0 along the others; the weights are whole. -/
theorem idx_facts4 : ∀ t : Fin cfg4.N, win4_0.index t (0 : Fin 3) = win4_2.index t (0 : Fin 3)
    ∧ win4_0.index t (1 : Fin 3) = 0 ∧ win4_0.index t (2 : Fin 3) = 0
    ∧ win4_1.index t (0 : Fin 2) = 0 ∧ win4_1.index t (1 : Fin 2) = 0
    ∧ win4_2.index t (0 : Fin 3) ≤ 1 ∧ win4_2.index t (1 : Fin 3) = 0 ∧ win4_2.index t (2 : Fin 3) = 0 :=
  (by decide +kernel : ∀ t : Fin grid4.N, _)

/-- Every batch's block is some point's. -/
theorem idx_onto4 : ∀ q0 : Fin 2, ∃ t : Fin cfg4.N, win4_2.index t = ![q0.val, 0, 0] :=
  (by decide +kernel : ∀ q0 : Fin 2, ∃ t : Fin grid4.N, win4_2.index t = ![q0.val, 0, 0])

/-- What point `t` writes back is block `t` of the product array of the arrays as the region finds them. -/
theorem flushed4_eq (c : Dev nD) (t : Fin cfg4.N) :
    (dat4 (F := Ideal) V c).flushed 2 t
      = ((cfg4.win 2).blk t).view.read (Elt Ideal) (prodArr4 (V c main_v17) (V c main_arg4)) := by
  show (cfg4.win 2).cut (grid4.coords t) ((dat4 V c).after 2 t) = _
  rw [after4_2]
  unfold out4_2
  rw [View.canon_unit_zero hz3_4]
  simp only [View.ld_unit_zero (S := S1x256x512) hz3_4, View.ld_unit_zero (S := S512x512) hz2_4]
  obtain ⟨e0, e1, e2, e3, e4, e5, e6, e7⟩ := idx_facts4 t
  refine funext fun (j : S1x256x512.Idx) => ?_
  obtain ⟨u, l, o, rfl⟩ : ∃ (u : Fin 1) (l : Fin 256) (o : Fin 512), j = ix3 u l o := ⟨j 0, j 1, j 2, eq_ix3 j⟩
  have hu : u.val = 0 := by omega
  have hb : win4_2.index t (0 : Fin 3) < 2 := by omega
  have hemb : ((cfg4.win 2).blk t).view.emb (ix3 u l o) = ix3 (⟨win4_2.index t (0 : Fin 3), hb⟩ : Fin 2) l o := by
    funext a; apply Fin.ext
    match a with
    | ⟨0, _⟩ => show win4_2.index t (0 : Fin 3) * 1 + 1 * u.val = win4_2.index t (0 : Fin 3); omega
    | ⟨1, _⟩ => show win4_2.index t (1 : Fin 3) * 256 + 1 * l.val = l.val; omega
    | ⟨2, _⟩ => show win4_2.index t (2 : Fin 3) * 512 + 1 * o.val = o.val; omega
  show k4_pay1 (F := Ideal) (iblk4 V c 0 t) (iblk4 V c 1 t) (ix3 u l o)
    = prodArr4 (V c main_v17) (V c main_arg4) (((cfg4.win 2).blk t).view.emb (ix3 u l o))
  rw [hemb]
  refine blk4_val _ _ _ _ _ u l o ?_ ?_
  · intro k
    show V c main_v17 (((cfg4.win 0).blk t).view.emb (ix3 (0 : Fin 1) l k)) = V c main_v17 _
    congr 1; funext a; apply Fin.ext
    match a with
    | ⟨0, _⟩ => show win4_0.index t (0 : Fin 3) * 1 + 1 * 0 = win4_2.index t (0 : Fin 3); omega
    | ⟨1, _⟩ => show win4_0.index t (1 : Fin 3) * 256 + 1 * l.val = l.val; omega
    | ⟨2, _⟩ => show win4_0.index t (2 : Fin 3) * 512 + 1 * k.val = k.val; omega
  · intro k
    show V c main_arg4 (((cfg4.win 1).blk t).view.emb (ix2 o k)) = V c main_arg4 _
    congr 1; funext a; apply Fin.ext
    match a with
    | ⟨0, _⟩ => show win4_1.index t (0 : Fin 2) * 512 + 1 * o.val = o.val; omega
    | ⟨1, _⟩ => show win4_1.index t (1 : Fin 2) * 512 + 1 * k.val = k.val; omega

/-- An index of the array is in point `t`'s block iff each coordinate is in the block's range on its axis. -/
theorem mem_blk4 (t : Fin cfg4.N) (i : S2x256x512.Idx) :
    i ∈ ((cfg4.win 2).blk t).view.set ↔ ∀ a : Fin 3, win4_2.index t a * S1x256x512.size a ≤ (i a).val ∧ (i a).val < win4_2.index t a * S1x256x512.size a + S1x256x512.size a := by
  show i ∈ ((View.whole main_v18).slice (win4_2.rect t)).set ↔ _
  rw [View.set_slice_whole, Rect.mem_set_unit]
  exact Iff.rfl

/-- Every index of the output is in the block of the point of its batch. -/
theorem cover4 (i : S2x256x512.Idx) :
    ∃ t : Fin cfg4.N, (cfg4.win 2).flush t = true ∧ i ∈ ((cfg4.win 2).blk t).view.set := by
  have hi0 : (i 0).val < 2 := (i 0).isLt
  have hi1 : (i 1).val < 256 := (i 1).isLt
  have hi2 : (i 2).val < 512 := (i 2).isLt
  obtain ⟨t, ht⟩ := idx_onto4 ⟨(i 0).val, hi0⟩
  have q0 : win4_2.index t (0 : Fin 3) = (i 0).val := congrFun ht 0
  have q1 : win4_2.index t (1 : Fin 3) = 0 := congrFun ht 1
  have q2 : win4_2.index t (2 : Fin 3) = 0 := congrFun ht 2
  refine ⟨t, flush4_2 t, ?_⟩
  rw [mem_blk4]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 256 ≤ (i 1).val ∧ (i 1).val < win4_2.index t (1 : Fin 3) * 256 + 256; omega
  | ⟨2, _⟩ => show win4_2.index t (2 : Fin 3) * 512 ≤ (i 2).val ∧ (i 2).val < win4_2.index t (2 : Fin 3) * 512 + 512; omega

/-- The output array after the run: the product array of the arrays as the region finds them, that is
    `fun j => ∑ k, m (j 0, j 1, k) * Wo (j 2, k)` with `m` and `Wo` the two input arrays. -/
theorem arr4 (c : Dev nD) :
    (dat4 (F := Ideal) V c).arrAt 2 cfg4.N = prodArr4 (V c main_v17) (V c main_arg4) :=
  (dat4 V c).arrAt_eq_of_cover 2 (prodArr4 (V c main_v17) (V c main_arg4)) (fun t _ => flushed4_eq V c t) cover4

/-- The same at coordinates, with the two input arrays named. -/
theorem arr4_apply (c : Dev nD) (a0 : S2x256x512.Idx → EReal) (a1 : S512x512.Idx → EReal)
    (h0 : V c main_v17 = a0) (h1 : V c main_arg4 = a1) (b : Fin 2) (l : Fin 256) (o : Fin 512) :
    (dat4 (F := Ideal) V c).arrAt 2 cfg4.N (ix3 b l o) = ∑ k : Fin 512, a0 (ix3 b l k) * a1 (ix2 o k) := by
  subst h0 h1
  exact congrFun (arr4 V c) (ix3 b l o)

end Cert.KernelIdeal.Val

end
-- ==== Proof.Val.Final.lean ====
/-
  The idealized kernel program's two results as the specification's functions of the nine arguments.
  The buffer contents at each boundary are a fold from the launch memory; here the fold is read backwards.
  * The offset row and every argument reach each region as launched: no operation stretch writes an argument,
    and a region reads it through an input window or does not touch it.
  * The three projection regions leave `proj x W lam` in their result arrays, which no later region changes.
  * The head split reads those at `(h / 8, l, (h % 8) * 64 + d)`; the attention region's tropical maps are then the
    specification's `qh`, `kh`, `vh`, its score array the specification's `attn`, its context array `context`.
  * The head merge and `exp(·) - 1` read the context at `(b * 8 + o / 64, l, o % 64)`: the specification's `merged`;
    the last region's sum over the model axis against `Wo` is `out`.
-/
import proofs.«421917_j23888608101009_3_alg».proof.Proof.KernelIdeal.Run
import proofs.«421917_j23888608101009_3_alg».proof.Proof.Val.Host
import proofs.«421917_j23888608101009_3_alg».proof.Proof.Val.Arr0
import proofs.«421917_j23888608101009_3_alg».proof.Proof.Val.Arr1
import proofs.«421917_j23888608101009_3_alg».proof.Proof.Val.Arr2
import proofs.«421917_j23888608101009_3_alg».proof.Proof.Val.Arr3Attn
import proofs.«421917_j23888608101009_3_alg».proof.Proof.Val.Arr3Ctx
import proofs.«421917_j23888608101009_3_alg».proof.Proof.Val.Arr4
import proofs.«421917_j23888608101009_3_alg».proof.Proof.Spec

noncomputable section

namespace Cert.KernelIdeal.Val

open Cert.KernelIdeal Cert.KernelIdeal.Gen Cert.KernelIdeal.Frm Idealize.ShloMosaic Idealize.ShloMosaic.TcCoe Idealize.ShloMosaic.ValueIdx Idealize.ShloMosaic.StableHlo

/-- The nine arguments of core `c` at launch. -/
def kinputs (m : (ℓ : Loc nD τ sig) → Buf (Elt Ideal) ℓ) (c : Dev nD) : Cert.Spec.Inputs :=
  Cert.Spec.ofArrays (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

variable (m : (ℓ : Loc nD τ sig) → Buf (Elt Ideal) ℓ) (ρ : Dev nD → PrngReg) (c : Dev nD)

/-! ## A buffer nothing has written yet holds its launch contents -/

theorem W1_keep (b : Ref sig .tc) (h0 : b ∉ hostOps0_W) :
    W1 (F := Ideal) m ρ c (Proc.devRef .tc b) = m ((c.tc : Thread nD τ).loc b) :=
  (StableHlo.after_of_writes_sub hostOps0 _ hostOps0_writes h0).trans rfl
theorem W2_keep (b : Ref sig .tc) (h0 : b ∉ hostOps0_W) (h1 : ∀ w, Pipeline.arrRef spec0 w ≠ b) :
    W2 (F := Ideal) m ρ c (Proc.devRef .tc b) = m ((c.tc : Thread nD τ).loc b) :=
  (W2_of_ne m ρ c b h1).trans (W1_keep m ρ c b h0)
theorem W3_keep (b : Ref sig .tc) (h0 : b ∉ hostOps0_W) (h1 : ∀ w, Pipeline.arrRef spec0 w ≠ b) (h2 : ∀ w, Pipeline.arrRef spec1 w ≠ b) :
    W3 (F := Ideal) m ρ c (Proc.devRef .tc b) = m ((c.tc : Thread nD τ).loc b) :=
  (W3_of_ne m ρ c b h2).trans (W2_keep m ρ c b h0 h1)
theorem W4_keep (b : Ref sig .tc) (h0 : b ∉ hostOps0_W) (h1 : ∀ w, Pipeline.arrRef spec0 w ≠ b) (h2 : ∀ w, Pipeline.arrRef spec1 w ≠ b)
    (h3 : ∀ w, Pipeline.arrRef spec2 w ≠ b) :
    W4 (F := Ideal) m ρ c (Proc.devRef .tc b) = m ((c.tc : Thread nD τ).loc b) :=
  (W4_of_ne m ρ c b h3).trans (W3_keep m ρ c b h0 h1 h2)
theorem W5_keep (b : Ref sig .tc) (h0 : b ∉ hostOps0_W) (h1 : ∀ w, Pipeline.arrRef spec0 w ≠ b) (h2 : ∀ w, Pipeline.arrRef spec1 w ≠ b)
    (h3 : ∀ w, Pipeline.arrRef spec2 w ≠ b) (h4 : b ∉ hostOps3_W) :
    W5 (F := Ideal) m ρ c (Proc.devRef .tc b) = m ((c.tc : Thread nD τ).loc b) :=
  (StableHlo.after_of_writes_sub hostOps3 _ hostOps3_writes h4).trans (W4_keep m ρ c b h0 h1 h2 h3)
theorem W6_keep (b : Ref sig .tc) (h0 : b ∉ hostOps0_W) (h1 : ∀ w, Pipeline.arrRef spec0 w ≠ b) (h2 : ∀ w, Pipeline.arrRef spec1 w ≠ b)
    (h3 : ∀ w, Pipeline.arrRef spec2 w ≠ b) (h4 : b ∉ hostOps3_W) (h5 : ∀ w, Pipeline.arrRef spec3 w ≠ b) :
    W6 (F := Ideal) m ρ c (Proc.devRef .tc b) = m ((c.tc : Thread nD τ).loc b) :=
  (W6_of_ne m ρ c b h5).trans (W5_keep m ρ c b h0 h1 h2 h3 h4)
theorem W7_keep (b : Ref sig .tc) (h0 : b ∉ hostOps0_W) (h1 : ∀ w, Pipeline.arrRef spec0 w ≠ b) (h2 : ∀ w, Pipeline.arrRef spec1 w ≠ b)
    (h3 : ∀ w, Pipeline.arrRef spec2 w ≠ b) (h4 : b ∉ hostOps3_W) (h5 : ∀ w, Pipeline.arrRef spec3 w ≠ b) (h6 : b ∉ hostOps4_W) :
    W7 (F := Ideal) m ρ c (Proc.devRef .tc b) = m ((c.tc : Thread nD τ).loc b) :=
  (StableHlo.after_of_writes_sub hostOps4 _ hostOps4_writes h6).trans (W6_keep m ρ c b h0 h1 h2 h3 h4 h5)

/-! ## The activations and the offset row at the three projection regions -/

theorem W2_arg0 : W2 (F := Ideal) m ρ c (Proc.devRef .tc main_arg0) = m ((c.tc : Thread nD τ).loc main_arg0) :=
  (W2_in m ρ c 0 rfl).trans (W1_keep m ρ c main_arg0 (by decide))
theorem W3_arg0 : W3 (F := Ideal) m ρ c (Proc.devRef .tc main_arg0) = m ((c.tc : Thread nD τ).loc main_arg0) :=
  (W3_in m ρ c 0 rfl).trans (W2_arg0 m ρ c)

theorem W1_v0 (o : Fin 512) :
    W1 (F := Ideal) m ρ c (Proc.devRef .tc main_v0) (ix2 (0 : Fin 1) o) = m ((c.tc : Thread nD τ).loc main_arg5) (ix3 (0 : Fin 1) (0 : Fin 1) o) :=
  host0_v0 (W0 m ρ c) o
theorem W2_v0 (o : Fin 512) :
    W2 (F := Ideal) m ρ c (Proc.devRef .tc main_v0) (ix2 (0 : Fin 1) o) = m ((c.tc : Thread nD τ).loc main_arg5) (ix3 (0 : Fin 1) (0 : Fin 1) o) := by
  have h : W2 (F := Ideal) m ρ c (Proc.devRef .tc main_v0) = W1 m ρ c (Proc.devRef .tc main_v0) := W2_in m ρ c 2 rfl
  rw [h]; exact W1_v0 m ρ c o
theorem W3_v0 (o : Fin 512) :
    W3 (F := Ideal) m ρ c (Proc.devRef .tc main_v0) (ix2 (0 : Fin 1) o) = m ((c.tc : Thread nD τ).loc main_arg5) (ix3 (0 : Fin 1) (0 : Fin 1) o) := by
  have h : W3 (F := Ideal) m ρ c (Proc.devRef .tc main_v0) = W2 m ρ c (Proc.devRef .tc main_v0) := W3_in m ρ c 2 rfl
  rw [h]; exact W2_v0 m ρ c o

/-! ## The three projections -/

theorem projq_arr : W2 (F := Ideal) m ρ c (Proc.devRef .tc main_v1)
    = fun j => Cert.Spec.proj (kinputs m c).x (kinputs m c).Wq (kinputs m c).lam (j 0) (j 1) (j 2) := by
  have h : W2 (F := Ideal) m ρ c (Proc.devRef .tc main_v1) = (dat0 (Frm.V1 m ρ) c).arrAt 3 cfg0.N := W2_arr m ρ c 3
  have hx : (fun b l k => Frm.V1 (F := Ideal) m ρ c main_arg0 (ix3 b l k)) = (kinputs m c).x := by
    funext b l k
    show W1 (F := Ideal) m ρ c (Proc.devRef .tc main_arg0) (ix3 b l k) = m ((c.tc : Thread nD τ).loc main_arg0) (ix3 b l k)
    rw [W1_keep m ρ c main_arg0 (by decide)]
  have hw : (fun o k => Frm.V1 (F := Ideal) m ρ c main_arg1 (ix2 o k)) = (kinputs m c).Wq := by
    funext o k
    show W1 (F := Ideal) m ρ c (Proc.devRef .tc main_arg1) (ix2 o k) = m ((c.tc : Thread nD τ).loc main_arg1) (ix2 o k)
    rw [W1_keep m ρ c main_arg1 (by decide)]
  have hl : (fun o => Frm.V1 (F := Ideal) m ρ c main_v0 (ix2 (0 : Fin 1) o)) = (kinputs m c).lam := by
    funext o
    exact W1_v0 m ρ c o
  rw [h, arr0, hx, hw, hl]

theorem projk_arr : W3 (F := Ideal) m ρ c (Proc.devRef .tc main_v2)
    = fun j => Cert.Spec.proj (kinputs m c).x (kinputs m c).Wk (kinputs m c).lam (j 0) (j 1) (j 2) := by
  have h : W3 (F := Ideal) m ρ c (Proc.devRef .tc main_v2) = (dat1 (Frm.V2 m ρ) c).arrAt 3 cfg1.N := W3_arr m ρ c 3
  have hx : (fun b l k => Frm.V2 (F := Ideal) m ρ c main_arg0 (ix3 b l k)) = (kinputs m c).x := by
    funext b l k
    show W2 (F := Ideal) m ρ c (Proc.devRef .tc main_arg0) (ix3 b l k) = m ((c.tc : Thread nD τ).loc main_arg0) (ix3 b l k)
    rw [W2_arg0 m ρ c]
  have hw : (fun o k => Frm.V2 (F := Ideal) m ρ c main_arg2 (ix2 o k)) = (kinputs m c).Wk := by
    funext o k
    show W2 (F := Ideal) m ρ c (Proc.devRef .tc main_arg2) (ix2 o k) = m ((c.tc : Thread nD τ).loc main_arg2) (ix2 o k)
    rw [W2_keep m ρ c main_arg2 (by decide) (by decide)]
  have hl : (fun o => Frm.V2 (F := Ideal) m ρ c main_v0 (ix2 (0 : Fin 1) o)) = (kinputs m c).lam := by
    funext o
    exact W2_v0 m ρ c o
  rw [h, arr1, hx, hw, hl]

theorem projv_arr : W4 (F := Ideal) m ρ c (Proc.devRef .tc main_v3)
    = fun j => Cert.Spec.proj (kinputs m c).x (kinputs m c).Wv (kinputs m c).lam (j 0) (j 1) (j 2) := by
  have h : W4 (F := Ideal) m ρ c (Proc.devRef .tc main_v3) = (dat2 (Frm.V3 m ρ) c).arrAt 3 cfg2.N := W4_arr m ρ c 3
  have hx : (fun b l k => Frm.V3 (F := Ideal) m ρ c main_arg0 (ix3 b l k)) = (kinputs m c).x := by
    funext b l k
    show W3 (F := Ideal) m ρ c (Proc.devRef .tc main_arg0) (ix3 b l k) = m ((c.tc : Thread nD τ).loc main_arg0) (ix3 b l k)
    rw [W3_arg0 m ρ c]
  have hw : (fun o k => Frm.V3 (F := Ideal) m ρ c main_arg3 (ix2 o k)) = (kinputs m c).Wv := by
    funext o k
    show W3 (F := Ideal) m ρ c (Proc.devRef .tc main_arg3) (ix2 o k) = m ((c.tc : Thread nD τ).loc main_arg3) (ix2 o k)
    rw [W3_keep m ρ c main_arg3 (by decide) (by decide) (by decide)]
  have hl : (fun o => Frm.V3 (F := Ideal) m ρ c main_v0 (ix2 (0 : Fin 1) o)) = (kinputs m c).lam := by
    funext o
    exact W3_v0 m ρ c o
  rw [h, arr2, hx, hw, hl]

/-- The later projection regions leave the earlier results alone. -/
theorem W4_v1 : W4 (F := Ideal) m ρ c (Proc.devRef .tc main_v1) = W2 m ρ c (Proc.devRef .tc main_v1) :=
  (W4_of_ne m ρ c main_v1 (by decide)).trans (W3_of_ne m ρ c main_v1 (by decide))
theorem W4_v2 : W4 (F := Ideal) m ρ c (Proc.devRef .tc main_v2) = W3 m ρ c (Proc.devRef .tc main_v2) :=
  W4_of_ne m ρ c main_v2 (by decide)

/-! ## The heads at the attention region -/

theorem v6_at (h : Fin 16) (l : Fin 256) (i : Fin 64) :
    Frm.V5 (F := Ideal) m ρ c main_v6 (ix3 h l i)
      = Cert.Spec.proj (kinputs m c).x (kinputs m c).Wq (kinputs m c).lam (Cert.Spec.hb h) l (Cert.Spec.hcol h i) := by
  show StableHlo.after (hostOps3 (F := Ideal)) (W4 m ρ c) (Proc.devRef .tc main_v6) (ix3 h l i) = _
  rw [host3_v6, W4_v1, projq_arr]
  rfl
theorem v9_at (h : Fin 16) (l : Fin 256) (i : Fin 64) :
    Frm.V5 (F := Ideal) m ρ c main_v9 (ix3 h l i)
      = Cert.Spec.proj (kinputs m c).x (kinputs m c).Wk (kinputs m c).lam (Cert.Spec.hb h) l (Cert.Spec.hcol h i) := by
  show StableHlo.after (hostOps3 (F := Ideal)) (W4 m ρ c) (Proc.devRef .tc main_v9) (ix3 h l i) = _
  rw [host3_v9, W4_v2, projk_arr]
  rfl
theorem v12_at (h : Fin 16) (l : Fin 256) (i : Fin 64) :
    Frm.V5 (F := Ideal) m ρ c main_v12 (ix3 h l i)
      = Cert.Spec.proj (kinputs m c).x (kinputs m c).Wv (kinputs m c).lam (Cert.Spec.hb h) l (Cert.Spec.hcol h i) := by
  show StableHlo.after (hostOps3 (F := Ideal)) (W4 m ρ c) (Proc.devRef .tc main_v12) (ix3 h l i) = _
  rw [host3_v12, projv_arr]
  rfl

theorem Q3_eq (h : Fin 16) (l : Fin 256) : Q3 (Frm.V5 (F := Ideal) m ρ) c h l = Cert.Spec.qh (kinputs m c) h l := by
  have e1 : (fun i => Frm.V5 (F := Ideal) m ρ c main_v6 (ix3 h l i))
      = fun i => Cert.Spec.proj (kinputs m c).x (kinputs m c).Wq (kinputs m c).lam (Cert.Spec.hb h) l (Cert.Spec.hcol h i) :=
    funext fun i => v6_at m ρ c h l i
  have e2 : (fun o i => Frm.V5 (F := Ideal) m ρ c main_arg6 (ix2 o i)) = (kinputs m c).Tq := by
    funext o i
    show W5 (F := Ideal) m ρ c (Proc.devRef .tc main_arg6) (ix2 o i) = m ((c.tc : Thread nD τ).loc main_arg6) (ix2 o i)
    rw [W5_keep m ρ c main_arg6 (by decide) (by decide) (by decide) (by decide) (by decide)]
  unfold Q3 Cert.Spec.qh
  rw [e1, e2]
theorem K3_eq (h : Fin 16) (l : Fin 256) : K3 (Frm.V5 (F := Ideal) m ρ) c h l = Cert.Spec.kh (kinputs m c) h l := by
  have e1 : (fun i => Frm.V5 (F := Ideal) m ρ c main_v9 (ix3 h l i))
      = fun i => Cert.Spec.proj (kinputs m c).x (kinputs m c).Wk (kinputs m c).lam (Cert.Spec.hb h) l (Cert.Spec.hcol h i) :=
    funext fun i => v9_at m ρ c h l i
  have e2 : (fun o i => Frm.V5 (F := Ideal) m ρ c main_arg7 (ix2 o i)) = (kinputs m c).Tk := by
    funext o i
    show W5 (F := Ideal) m ρ c (Proc.devRef .tc main_arg7) (ix2 o i) = m ((c.tc : Thread nD τ).loc main_arg7) (ix2 o i)
    rw [W5_keep m ρ c main_arg7 (by decide) (by decide) (by decide) (by decide) (by decide)]
  unfold K3 Cert.Spec.kh
  rw [e1, e2]
theorem V3_eq (h : Fin 16) (l : Fin 256) : Val.V3 (Frm.V5 (F := Ideal) m ρ) c h l = Cert.Spec.vh (kinputs m c) h l := by
  have e1 : (fun i => Frm.V5 (F := Ideal) m ρ c main_v12 (ix3 h l i))
      = fun i => Cert.Spec.proj (kinputs m c).x (kinputs m c).Wv (kinputs m c).lam (Cert.Spec.hb h) l (Cert.Spec.hcol h i) :=
    funext fun i => v12_at m ρ c h l i
  have e2 : (fun o i => Frm.V5 (F := Ideal) m ρ c main_arg8 (ix2 o i)) = (kinputs m c).Tv := by
    funext o i
    show W5 (F := Ideal) m ρ c (Proc.devRef .tc main_arg8) (ix2 o i) = m ((c.tc : Thread nD τ).loc main_arg8) (ix2 o i)
    rw [W5_keep m ρ c main_arg8 (by decide) (by decide) (by decide) (by decide) (by decide)]
  unfold Val.V3 Cert.Spec.vh
  rw [e1, e2]

/-! ## The attention region's two results -/

/-- Two arrays of rank three are equal when they agree at every triple of coordinates. -/
theorem ext3 {n0 n1 n2 : Nat} {α : Type} (f g : (⟨3, ![n0, n1, n2]⟩ : Shape).Idx → α)
    (h : ∀ (a : Fin n0) (b : Fin n1) (d : Fin n2), f (ix3 a b d) = g (ix3 a b d)) : f = g :=
  funext fun j => by rw [eq_ix3 j]; exact h _ _ _

theorem score_eq (h : Fin 16) (i j : Fin 256) :
    Cert.Spec.score (Q3 (Frm.V5 (F := Ideal) m ρ) c h i) (K3 (Frm.V5 (F := Ideal) m ρ) c h j) = Cert.Spec.attn (kinputs m c) h i j := by
  rw [Q3_eq, K3_eq]
  rfl

theorem ctx_eq (h : Fin 16) (i : Fin 256) (d : Fin 64) :
    Cert.Spec.ctx (fun jj => Cert.Spec.score (Q3 (Frm.V5 (F := Ideal) m ρ) c h i) (K3 (Frm.V5 (F := Ideal) m ρ) c h jj))
      (fun jj => Val.V3 (Frm.V5 (F := Ideal) m ρ) c h jj) d = Cert.Spec.context (kinputs m c) h i d := by
  have e1 : (fun jj => Cert.Spec.score (Q3 (Frm.V5 (F := Ideal) m ρ) c h i) (K3 (Frm.V5 (F := Ideal) m ρ) c h jj))
      = fun jj => Cert.Spec.attn (kinputs m c) h i jj := funext fun jj => score_eq m ρ c h i jj
  have e2 : (fun jj => Val.V3 (Frm.V5 (F := Ideal) m ρ) c h jj) = fun jj => Cert.Spec.vh (kinputs m c) h jj :=
    funext fun jj => V3_eq m ρ c h jj
  rw [e1, e2]
  rfl

theorem attn_arr : W6 (F := Ideal) m ρ c (Proc.devRef .tc main_v13_1)
    = fun j => Cert.Spec.attn (kinputs m c) (j 0) (j 1) (j 2) := by
  have h : W6 (F := Ideal) m ρ c (Proc.devRef .tc main_v13_1) = (dat3 (Frm.V5 m ρ) c).arrAt 7 cfg3.N := W6_arr m ρ c 7
  rw [h, arr3_attn]
  exact ext3 (n0 := 16) (n1 := 256) (n2 := 256) _ _ fun a i j => score_eq m ρ c a i j

theorem ctx_arr : W6 (F := Ideal) m ρ c (Proc.devRef .tc main_v13_0)
    = fun j => Cert.Spec.context (kinputs m c) (j 0) (j 1) (j 2) := by
  have h : W6 (F := Ideal) m ρ c (Proc.devRef .tc main_v13_0) = (dat3 (Frm.V5 m ρ) c).arrAt 6 cfg3.N := W6_arr m ρ c 6
  rw [h, arr3_ctx]
  exact ext3 (n0 := 16) (n1 := 256) (n2 := 64) _ _ fun a i d => ctx_eq m ρ c a i d

/-! ## The merged heads and the two results -/

theorem v17_at (b : Fin 2) (l : Fin 256) (o : Fin 512) :
    Frm.V7 (F := Ideal) m ρ c main_v17 (ix3 b l o) = Ideal.exp (Cert.Spec.merged (kinputs m c) b l o) - 1 := by
  show StableHlo.after (hostOps4 (F := Ideal)) (W6 m ρ c) (Proc.devRef .tc main_v17) (ix3 b l o) = _
  rw [host4_v17, ctx_arr]
  rfl

/-- The first result is the specification's output. -/
theorem kernel_out (m : (ℓ : Loc nD τ sig) → Buf (Elt Ideal) ℓ) (ρ : Dev nD → PrngReg) (c : Dev nD) :
    W8 (F := Ideal) m ρ c (Proc.devRef .tc main_v18) = Cert.Spec.outArr (kinputs m c) := by
  have h : W8 (F := Ideal) m ρ c (Proc.devRef .tc main_v18) = (dat4 (Frm.V7 m ρ) c).arrAt 2 cfg4.N := W8_arr m ρ c 2
  rw [h]
  refine ext3 (n0 := 2) (n1 := 256) (n2 := 512) _ _ fun b l o => ?_
  rw [arr4_apply (Frm.V7 (F := Ideal) m ρ) c (Frm.V7 (F := Ideal) m ρ c main_v17) (Frm.V7 (F := Ideal) m ρ c main_arg4) rfl rfl b l o]
  show _ = Cert.Spec.out (kinputs m c) b l o
  unfold Cert.Spec.out
  refine Finset.sum_congr rfl fun k _ => ?_
  have e : Frm.V7 (F := Ideal) m ρ c main_arg4 = m ((c.tc : Thread nD τ).loc main_arg4) :=
    W7_keep m ρ c main_arg4 (by decide) (by decide) (by decide) (by decide) (by decide) (by decide) (by decide)
  rw [v17_at, e]
  rfl

/-- The second result is the specification's attention scores. -/
theorem kernel_attn (m : (ℓ : Loc nD τ sig) → Buf (Elt Ideal) ℓ) (ρ : Dev nD → PrngReg) (c : Dev nD) :
    W8 (F := Ideal) m ρ c (Proc.devRef .tc main_v13_1) = Cert.Spec.attnArr (kinputs m c) := by
  have h8 : W8 (F := Ideal) m ρ c (Proc.devRef .tc main_v13_1) = W7 m ρ c (Proc.devRef .tc main_v13_1) :=
    W8_of_ne m ρ c main_v13_1 (by decide)
  have h7 : W7 (F := Ideal) m ρ c (Proc.devRef .tc main_v13_1) = W6 m ρ c (Proc.devRef .tc main_v13_1) :=
    StableHlo.after_of_writes_sub hostOps4 _ hostOps4_writes (by decide)
  rw [h8, h7, attn_arr]
  rfl

end Cert.KernelIdeal.Val

end
-- ==== Proof.RefValue.Proj.lean ====
/-
  The reference, stage by stage, at an index (first part).
  * The words of minus and plus infinity; a fold of `max` from minus infinity over every coordinate of an axis is the
    supremum over that axis, and of `min` from plus infinity the infimum: so a one-axis reduction with a maximum
    (minimum) body reads, at a result index, as `Finset.univ.sup` (`Finset.univ.inf`) of the operand along that axis.
  * Heads: reshape, transpose, reshape send entry `(h, l, d)` of the 16-head array to entry
    `(h / 8, l, (h % 8) * 64 + d)` of the model-axis array.
  * The projection `log1p(max(x · Wᵀ, 0)) - lam` at an entry, and a head's projected row.
-/
import proofs.«421917_j23888608101009_3_alg».proof.Proof.Gen.ReferenceIdeal.Read
import proofs.«421917_j23888608101009_3_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Idealize.SL.Sem

/-- The word of minus infinity, and of plus infinity. -/
theorem ofBits_ninf : Ideal.ofBits .f32 0xFF800000#32 = (⊥ : EReal) := by simp [Ideal.ofBits, Ideal.ieee]
theorem ofBits_pinf : Ideal.ofBits .f32 0x7F800000#32 = (⊤ : EReal) := by simp [Ideal.ofBits, Ideal.ieee]

/-- A fold of `max` from minus infinity over every coordinate of an axis is the supremum over the axis. -/
theorem fold_max_bot {n : Nat} (f : Fin n → EReal) :
    (Finset.univ : Finset (Fin n)).fold max (Ideal.ofBits .f32 0xFF800000#32) f = Finset.univ.sup f := by
  rw [ofBits_ninf]; rfl

/-- A fold of `min` from plus infinity over every coordinate of an axis is the infimum over the axis. -/
theorem fold_min_top {n : Nat} (f : Fin n → EReal) :
    (Finset.univ : Finset (Fin n)).fold min (Ideal.ofBits .f32 0x7F800000#32) f = Finset.univ.inf f := by
  rw [ofBits_pinf]; rfl

/-! ## Heads: the reshape, transpose, reshape that splits the model axis into 8 heads of 64 features. -/

/-- Which of the 8 heads of its batch a head of 16 is. -/
def hh (h : Fin 16) : Fin 8 := ⟨h.val % 8, by omega⟩

theorem idx7 (h : Fin 16) (l : Fin 256) (d : Fin 64) :
    idx_main_v7 (ix3 h l d) = ix4 (Cert.Spec.hb h) (hh h) l d := by
  funext a
  apply Fin.ext
  have b0 := h.isLt; have b1 := l.isLt; have b2 := d.isLt
  match a with
  | ⟨0, _⟩ => show ((h.val * 256 + l.val) * 64 + d.val) / 131072 = h.val / 8; omega
  | ⟨1, _⟩ => show ((h.val * 256 + l.val) * 64 + d.val) / 16384 % 8 = h.val % 8; omega
  | ⟨2, _⟩ => show ((h.val * 256 + l.val) * 64 + d.val) / 64 % 256 = l.val; omega
  | ⟨3, _⟩ => show ((h.val * 256 + l.val) * 64 + d.val) % 64 = d.val; omega

theorem idx6 (b : Fin 2) (e : Fin 8) (l : Fin 256) (d : Fin 64) : idx_main_v6 (ix4 b e l d) = ix4 b l e d := by
  funext a
  match a with
  | ⟨0, _⟩ => rfl
  | ⟨1, _⟩ => rfl
  | ⟨2, _⟩ => rfl
  | ⟨3, _⟩ => rfl

theorem idx5 (b : Fin 2) (l : Fin 256) (e : Fin 8) (d : Fin 64) :
    idx_main_v5 (ix4 b l e d) = ix3 b l (⟨e.val * 64 + d.val, by omega⟩ : Fin 512) := by
  funext a
  apply Fin.ext
  have b0 := b.isLt; have b1 := l.isLt; have b2 := e.isLt; have b3 := d.isLt
  match a with
  | ⟨0, _⟩ => show (((b.val * 256 + l.val) * 8 + e.val) * 64 + d.val) / 131072 = b.val; omega
  | ⟨1, _⟩ => show (((b.val * 256 + l.val) * 8 + e.val) * 64 + d.val) / 512 % 256 = l.val; omega
  | ⟨2, _⟩ => show (((b.val * 256 + l.val) * 8 + e.val) * 64 + d.val) % 512 = e.val * 64 + d.val; omega

/-- Head `h`, row `l`, feature `d` of the split-heads array is entry `(h / 8, l, (h % 8) * 64 + d)` of the model-axis array. -/
theorem headIdx (h : Fin 16) (l : Fin 256) (d : Fin 64) :
    idx_main_v5 (idx_main_v6 (idx_main_v7 (ix3 h l d))) = ix3 (Cert.Spec.hb h) l (Cert.Spec.hcol h d) := by
  rw [idx7, idx6, idx5]; rfl

/-! ## The projection `log1p(relu(x · Wᵀ)) - lam`, at an entry. -/

theorem proj_at (x0 : (⟨S2x256x512, .f32⟩ : BufTy).Contents (Elt Ideal)) (x1 : (⟨S512x512, .f32⟩ : BufTy).Contents (Elt Ideal)) (x5 : (⟨S1x1x512, .f32⟩ : BufTy).Contents (Elt Ideal)) (b : Fin 2) (l : Fin 256) (o : Fin 512) :
    val_main_v4 (F := Ideal) x0 x1 x5 (ix3 b l o)
      = Cert.Spec.proj (fun b l k => x0 (ix3 b l k)) (fun o k => x1 (ix2 o k)) (fun o => x5 (ix3 (0 : Fin 1) (0 : Fin 1) o)) b l o := by
  have el : ∀ k : Fin 512, lidx_main_v0 (ix3 b l o) k = ix3 b l k := fun k => funext fun a => by
    match a with
    | ⟨0, _⟩ => rfl
    | ⟨1, _⟩ => rfl
    | ⟨2, _⟩ => rfl
  have er : ∀ k : Fin 512, ridx_main_v0 (ix3 b l o) k = ix2 o k := fun k => funext fun a => by
    match a with
    | ⟨0, _⟩ => rfl
    | ⟨1, _⟩ => rfl
  have e3 : idx_main_v3 (ix3 b l o) = ix3 (0 : Fin 1) (0 : Fin 1) o := funext fun a => by
    match a with
    | ⟨0, _⟩ => rfl
    | ⟨1, _⟩ => rfl
    | ⟨2, _⟩ => rfl
  rw [val_main_v4_apply, val_main_v2_apply, val_main_v1_apply, val_main_v0_apply, val_main_call0_v0_apply,
    val_main_call0_cst_apply, val_main_v3_apply, e3]
  simp only [el, er]
  unfold Cert.Spec.proj
  simp only [Ideal.subf_def, Ideal.hostUnary_log1p_def, Ideal.maximumf_def, Ideal.ofBits_def, Ideal.ofBits_zero_f32]

/-- A head's projected row. -/
theorem heads_at (x0 : (⟨S2x256x512, .f32⟩ : BufTy).Contents (Elt Ideal)) (x1 : (⟨S512x512, .f32⟩ : BufTy).Contents (Elt Ideal)) (x5 : (⟨S1x1x512, .f32⟩ : BufTy).Contents (Elt Ideal)) (h : Fin 16) (l : Fin 256) (d : Fin 64) :
    val_main_v7 (F := Ideal) x0 x1 x5 (ix3 h l d)
      = Cert.Spec.proj (fun b l k => x0 (ix3 b l k)) (fun o k => x1 (ix2 o k)) (fun o => x5 (ix3 (0 : Fin 1) (0 : Fin 1) o))
          (Cert.Spec.hb h) l (Cert.Spec.hcol h d) := by
  rw [val_main_v7_apply, val_main_v6_apply, val_main_v5_apply, headIdx, proj_at]

/-! ## A maximum (minimum) over one axis, from minus (plus) infinity, is the supremum (infimum) over that axis's coordinates. -/

theorem reduce_max_eq_sup {s t u : Shape} {a : Fin s.rank} (x : s.Idx → EReal) (init : u.Idx → EReal)
    (h' : s.ReducesTo [a] t) (h : s.Reduces [a] t) (hu : 0 < u.numel) (j : t.Idx) {n : Nat} (hn : s.size a = n)
    (G : Fin n → EReal) (hinit : init (Shape.Idx.first hu) = Ideal.ofBits .f32 0xFF800000#32)
    (hG : ∀ k : Fin n, x (h.lift j (k.cast hn.symm)) = G k) :
    Host.reduce (max : EReal → EReal → EReal) x init h' hu j = Finset.univ.sup G := by
  subst hn
  rw [Host.reduce_eq_fold_single (max : EReal → EReal → EReal) x init h' h hu j, hinit]
  have e : x ∘ h.lift j = G := funext fun k => hG k
  rw [e]
  exact fold_max_bot G

theorem reduce_min_eq_inf {s t u : Shape} {a : Fin s.rank} (x : s.Idx → EReal) (init : u.Idx → EReal)
    (h' : s.ReducesTo [a] t) (h : s.Reduces [a] t) (hu : 0 < u.numel) (j : t.Idx) {n : Nat} (hn : s.size a = n)
    (G : Fin n → EReal) (hinit : init (Shape.Idx.first hu) = Ideal.ofBits .f32 0x7F800000#32)
    (hG : ∀ k : Fin n, x (h.lift j (k.cast hn.symm)) = G k) :
    Host.reduce (min : EReal → EReal → EReal) x init h' hu j = Finset.univ.inf G := by
  subst hn
  rw [Host.reduce_eq_fold_single (min : EReal → EReal → EReal) x init h' h hu j, hinit]
  have e : x ∘ h.lift j = G := funext fun k => hG k
  rw [e]
  exact fold_min_top G

end Cert.ReferenceIdeal.RefValue

end
-- ==== Proof.RefValue.Trop.lean ====
/-
  The reference, stage by stage, at an index (second part): the max-plus stages.
  * The tropical linear map `y[o] = max_i (x[i] + W[o, i])` of a head's projected row; the key and value chains are the
    query chain on other weights.
  * The score of query row `i` against key row `j`: minus the spread `max_d (q[d] - k[d]) - min_d (q[d] - k[d])`.
  * The context `max_j (s[j] + v[j, d])`.
  * Heads merged back: entry `(b, l, o)` of the model-axis array is feature `o % 64` of head `b * 8 + o / 64`.
  * The output: the sum over `k` of `(exp(merged[b, l, k]) - 1) * Wo[o, k]`.
-/
import proofs.«421917_j23888608101009_3_alg».proof.Proof.RefValue.Proj

noncomputable section

namespace Cert.ReferenceIdeal.RefValue

open Cert.ReferenceIdeal Cert.ReferenceIdeal.Gen Cert.ReferenceIdeal.Read Idealize.ShloMosaic Idealize.ShloMosaic.ValueIdx Idealize.SL.Sem

/-! ## The tropical linear map: a maximum over the last of four axes. -/

theorem red3 : S16x256x64x64.Reduces [3] S16x256x64 := by decide

theorem lift3 (h : Fin 16) (l : Fin 256) (o : Fin 64) (k : Fin 64) :
    red3.lift (ix3 h l o) (k.cast (rfl : 64 = S16x256x64x64.size 3)) = ix4 h l o k := by
  funext c; apply Fin.ext
  fin_cases c <;> rfl

/-- The sum array at an entry: feature `k` of the head's row plus the weight `W[o, k]`. -/
theorem sum_at (x0 : (⟨S2x256x512, .f32⟩ : BufTy).Contents (Elt Ideal)) (x1 : (⟨S512x512, .f32⟩ : BufTy).Contents (Elt Ideal)) (x5 : (⟨S1x1x512, .f32⟩ : BufTy).Contents (Elt Ideal)) (x6 : (⟨S64x64, .f32⟩ : BufTy).Contents (Elt Ideal)) (h : Fin 16) (l : Fin 256) (o k : Fin 64) :
    val_main_v28 (F := Ideal) x0 x1 x5 x6 (ix4 h l o k)
      = Cert.Spec.proj (fun b l k => x0 (ix3 b l k)) (fun o k => x1 (ix2 o k)) (fun o => x5 (ix3 (0 : Fin 1) (0 : Fin 1) o)) (Cert.Spec.hb h) l (Cert.Spec.hcol h k) + x6 (ix2 o k) := by
  have e1 : idx_main_v24 (idx_main_v26 (ix4 h l o k)) = ix3 h l k := funext fun a => by
    match a with
    | ⟨0, _⟩ => rfl
    | ⟨1, _⟩ => rfl
    | ⟨2, _⟩ => rfl
  have e2 : idx_main_v25 (idx_main_v27 (ix4 h l o k)) = ix2 o k := funext fun a => by
    match a with
    | ⟨0, _⟩ => rfl
    | ⟨1, _⟩ => rfl
  rw [val_main_v28_apply, val_main_v26_apply, val_main_v24_apply, val_main_v27_apply, val_main_v25_apply, e1, e2, heads_at,
    Ideal.addf_def]

theorem tl_at (x0 : (⟨S2x256x512, .f32⟩ : BufTy).Contents (Elt Ideal)) (x1 : (⟨S512x512, .f32⟩ : BufTy).Contents (Elt Ideal)) (x5 : (⟨S1x1x512, .f32⟩ : BufTy).Contents (Elt Ideal)) (x6 : (⟨S64x64, .f32⟩ : BufTy).Contents (Elt Ideal)) (h : Fin 16) (l : Fin 256) (o : Fin 64) :
    val_main_v29 (F := Ideal) x0 x1 x5 x6 (ix3 h l o)
      = Cert.Spec.tl (fun i => Cert.Spec.proj (fun b l k => x0 (ix3 b l k)) (fun o k => x1 (ix2 o k)) (fun o => x5 (ix3 (0 : Fin 1) (0 : Fin 1) o)) (Cert.Spec.hb h) l (Cert.Spec.hcol h i)) (fun o i => x6 (ix2 o i)) o := by
  unfold val_main_v29 Cert.Spec.tl
  exact reduce_max_eq_sup (val_main_v28 (F := Ideal) x0 x1 x5 x6) (val_main_cst (F := Ideal))
    reducesTo_S16x256x64x64_S16x256x64_d3 red3 h_S_ (ix3 h l o) (n := 64) rfl
    (fun k : Fin 64 => Cert.Spec.proj (fun b l k => x0 (ix3 b l k)) (fun o k => x1 (ix2 o k)) (fun o => x5 (ix3 (0 : Fin 1) (0 : Fin 1) o)) (Cert.Spec.hb h) l (Cert.Spec.hcol h k) + x6 (ix2 o k)) rfl
    (fun k => (congrArg (val_main_v28 (F := Ideal) x0 x1 x5 x6) (lift3 h l o k)).trans (sum_at x0 x1 x5 x6 h l o k))

/-! ## Key and value chains: the same operations as the query chain, on other weights. -/

theorem v35_eq (x0 : (⟨S2x256x512, .f32⟩ : BufTy).Contents (Elt Ideal)) (x2 : (⟨S512x512, .f32⟩ : BufTy).Contents (Elt Ideal)) (x5 : (⟨S1x1x512, .f32⟩ : BufTy).Contents (Elt Ideal)) (x7 : (⟨S64x64, .f32⟩ : BufTy).Contents (Elt Ideal)) :
    val_main_v35 (F := Ideal) x0 x2 x5 x7 = val_main_v29 (F := Ideal) x0 x2 x5 x7 := rfl
theorem v41_eq (x0 : (⟨S2x256x512, .f32⟩ : BufTy).Contents (Elt Ideal)) (x3 : (⟨S512x512, .f32⟩ : BufTy).Contents (Elt Ideal)) (x5 : (⟨S1x1x512, .f32⟩ : BufTy).Contents (Elt Ideal)) (x8 : (⟨S64x64, .f32⟩ : BufTy).Contents (Elt Ideal)) :
    val_main_v41 (F := Ideal) x0 x3 x5 x8 = val_main_v29 (F := Ideal) x0 x3 x5 x8 := rfl

/-! ## Scores: minus the spread of the difference of a query row and a key row. -/

theorem red3s : S16x256x256x64.Reduces [3] S16x256x256 := by decide

theorem lift3s (h : Fin 16) (i j : Fin 256) (k : Fin 64) :
    red3s.lift (ix3 h i j) (k.cast (rfl : 64 = S16x256x256x64.size 3)) = ix4 h i j k := by
  funext c; apply Fin.ext
  fin_cases c <;> rfl

/-- The difference array at an entry: query row `i` minus key row `j`, feature `d`. -/
theorem diff_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (h : Fin 16) (i j : Fin 256) (d : Fin 64) :
    val_main_v46 (F := Ideal) x0 x1 x2 x5 x6 x7 (ix4 h i j d)
      = val_main_v29 (F := Ideal) x0 x1 x5 x6 (ix3 h i d) - val_main_v29 (F := Ideal) x0 x2 x5 x7 (ix3 h j d) := by
  have e1 : idx_main_v42 (idx_main_v44 (ix4 h i j d)) = ix3 h i d := funext fun a => by
    match a with
    | ⟨0, _⟩ => rfl
    | ⟨1, _⟩ => rfl
    | ⟨2, _⟩ => rfl
  have e2 : idx_main_v43 (idx_main_v45 (ix4 h i j d)) = ix3 h j d := funext fun a => by
    match a with
    | ⟨0, _⟩ => rfl
    | ⟨1, _⟩ => rfl
    | ⟨2, _⟩ => rfl
  rw [val_main_v46_apply, val_main_v44_apply, val_main_v42_apply, val_main_v45_apply, val_main_v43_apply, e1, e2, v35_eq,
    Ideal.subf_def]

theorem max_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (h : Fin 16) (i j : Fin 256) :
    val_main_v47 (F := Ideal) x0 x1 x2 x5 x6 x7 (ix3 h i j) = Finset.univ.sup (fun d : Fin 64 => val_main_v29 (F := Ideal) x0 x1 x5 x6 (ix3 h i d) - val_main_v29 (F := Ideal) x0 x2 x5 x7 (ix3 h j d)) := by
  unfold val_main_v47
  exact reduce_max_eq_sup (val_main_v46 (F := Ideal) x0 x1 x2 x5 x6 x7) (val_main_cst_2 (F := Ideal))
    reducesTo_S16x256x256x64_S16x256x256_d3 red3s h_S_ (ix3 h i j) (n := 64) rfl (fun d : Fin 64 => val_main_v29 (F := Ideal) x0 x1 x5 x6 (ix3 h i d) - val_main_v29 (F := Ideal) x0 x2 x5 x7 (ix3 h j d)) rfl
    (fun k => (congrArg (val_main_v46 (F := Ideal) x0 x1 x2 x5 x6 x7) (lift3s h i j k)).trans (diff_at x0 x1 x2 x5 x6 x7 h i j k))

theorem min_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (h : Fin 16) (i j : Fin 256) :
    val_main_v48 (F := Ideal) x0 x1 x2 x5 x6 x7 (ix3 h i j) = Finset.univ.inf (fun d : Fin 64 => val_main_v29 (F := Ideal) x0 x1 x5 x6 (ix3 h i d) - val_main_v29 (F := Ideal) x0 x2 x5 x7 (ix3 h j d)) := by
  unfold val_main_v48
  exact reduce_min_eq_inf (val_main_v46 (F := Ideal) x0 x1 x2 x5 x6 x7) (val_main_cst_3 (F := Ideal))
    reducesTo_S16x256x256x64_S16x256x256_d3 red3s h_S_ (ix3 h i j) (n := 64) rfl (fun d : Fin 64 => val_main_v29 (F := Ideal) x0 x1 x5 x6 (ix3 h i d) - val_main_v29 (F := Ideal) x0 x2 x5 x7 (ix3 h j d)) rfl
    (fun k => (congrArg (val_main_v46 (F := Ideal) x0 x1 x2 x5 x6 x7) (lift3s h i j k)).trans (diff_at x0 x1 x2 x5 x6 x7 h i j k))

theorem score_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (h : Fin 16) (i j : Fin 256) :
    val_main_v50 (F := Ideal) x0 x1 x2 x5 x6 x7 (ix3 h i j)
      = -(Finset.univ.sup (fun d : Fin 64 => val_main_v29 (F := Ideal) x0 x1 x5 x6 (ix3 h i d) - val_main_v29 (F := Ideal) x0 x2 x5 x7 (ix3 h j d)) - Finset.univ.inf (fun d : Fin 64 => val_main_v29 (F := Ideal) x0 x1 x5 x6 (ix3 h i d) - val_main_v29 (F := Ideal) x0 x2 x5 x7 (ix3 h j d))) := by
  rw [val_main_v50_apply, val_main_v49_apply, max_at, min_at, Ideal.hostNegf_def, Ideal.negf_def, Ideal.subf_def]

/-! ## The max-plus context: a maximum over the key axis, the third of four. -/

theorem red2 : S16x256x256x64.Reduces [2] S16x256x64 := by decide

theorem lift2 (h : Fin 16) (i : Fin 256) (d : Fin 64) (k : Fin 256) :
    red2.lift (ix3 h i d) (k.cast (rfl : 256 = S16x256x256x64.size 2)) = ix4 h i k d := by
  funext c; apply Fin.ext
  fin_cases c <;> rfl

/-- The sum array at an entry: the score of query row `i` against key row `j`, plus feature `d` of value row `j`. -/
theorem csum_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (i j : Fin 256) (d : Fin 64) :
    val_main_v55 (F := Ideal) x0 x1 x2 x3 x5 x6 x7 x8 (ix4 h i j d)
      = val_main_v50 (F := Ideal) x0 x1 x2 x5 x6 x7 (ix3 h i j) + val_main_v29 (F := Ideal) x0 x3 x5 x8 (ix3 h j d) := by
  have e1 : idx_main_v51 (idx_main_v53 (ix4 h i j d)) = ix3 h i j := funext fun a => by
    match a with
    | ⟨0, _⟩ => rfl
    | ⟨1, _⟩ => rfl
    | ⟨2, _⟩ => rfl
  have e2 : idx_main_v52 (idx_main_v54 (ix4 h i j d)) = ix3 h j d := funext fun a => by
    match a with
    | ⟨0, _⟩ => rfl
    | ⟨1, _⟩ => rfl
    | ⟨2, _⟩ => rfl
  rw [val_main_v55_apply, val_main_v53_apply, val_main_v51_apply, val_main_v54_apply, val_main_v52_apply, e1, e2, v41_eq,
    Ideal.addf_def]

theorem ctx_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (i : Fin 256) (d : Fin 64) :
    val_main_v56 (F := Ideal) x0 x1 x2 x3 x5 x6 x7 x8 (ix3 h i d) = Finset.univ.sup (fun j : Fin 256 => val_main_v50 (F := Ideal) x0 x1 x2 x5 x6 x7 (ix3 h i j) + val_main_v29 (F := Ideal) x0 x3 x5 x8 (ix3 h j d)) := by
  unfold val_main_v56
  exact reduce_max_eq_sup (val_main_v55 (F := Ideal) x0 x1 x2 x3 x5 x6 x7 x8) (val_main_cst_4 (F := Ideal))
    reducesTo_S16x256x256x64_S16x256x64_d2 red2 h_S_ (ix3 h i d) (n := 256) rfl (fun j : Fin 256 => val_main_v50 (F := Ideal) x0 x1 x2 x5 x6 x7 (ix3 h i j) + val_main_v29 (F := Ideal) x0 x3 x5 x8 (ix3 h j d)) rfl
    (fun k => (congrArg (val_main_v55 (F := Ideal) x0 x1 x2 x3 x5 x6 x7 x8) (lift2 h i d k)).trans (csum_at x0 x1 x2 x3 x5 x6 x7 x8 h i k d))

/-! ## Heads merged back: the reshape, transpose, reshape in the other direction. -/

/-- The head within its batch, and the feature within its head, that a column of the model axis is; and the head of 16 that head `e` of batch `b` is. -/
def oh (o : Fin 512) : Fin 8 := ⟨o.val / 64, by omega⟩
def od (o : Fin 512) : Fin 64 := ⟨o.val % 64, by omega⟩
def hd (b : Fin 2) (e : Fin 8) : Fin 16 := ⟨b.val * 8 + e.val, by omega⟩

theorem idx59 (b : Fin 2) (l : Fin 256) (o : Fin 512) : idx_main_v59 (ix3 b l o) = ix4 b l (oh o) (od o) := by
  funext a
  apply Fin.ext
  have b0 := b.isLt; have b1 := l.isLt; have b2 := o.isLt
  match a with
  | ⟨0, _⟩ => show ((b.val * 256 + l.val) * 512 + o.val) / 131072 = b.val; omega
  | ⟨1, _⟩ => show ((b.val * 256 + l.val) * 512 + o.val) / 512 % 256 = l.val; omega
  | ⟨2, _⟩ => show ((b.val * 256 + l.val) * 512 + o.val) / 64 % 8 = o.val / 64; omega
  | ⟨3, _⟩ => show ((b.val * 256 + l.val) * 512 + o.val) % 64 = o.val % 64; omega

theorem idx58 (b : Fin 2) (l : Fin 256) (e : Fin 8) (d : Fin 64) : idx_main_v58 (ix4 b l e d) = ix4 b e l d := by
  funext a
  match a with
  | ⟨0, _⟩ => rfl
  | ⟨1, _⟩ => rfl
  | ⟨2, _⟩ => rfl
  | ⟨3, _⟩ => rfl

theorem idx57 (b : Fin 2) (e : Fin 8) (l : Fin 256) (d : Fin 64) : idx_main_v57 (ix4 b e l d) = ix3 (hd b e) l d := by
  funext a
  apply Fin.ext
  have b0 := b.isLt; have b1 := e.isLt; have b2 := l.isLt; have b3 := d.isLt
  match a with
  | ⟨0, _⟩ => show (((b.val * 8 + e.val) * 256 + l.val) * 64 + d.val) / 16384 = b.val * 8 + e.val; omega
  | ⟨1, _⟩ => show (((b.val * 8 + e.val) * 256 + l.val) * 64 + d.val) / 64 % 256 = l.val; omega
  | ⟨2, _⟩ => show (((b.val * 8 + e.val) * 256 + l.val) * 64 + d.val) % 64 = d.val; omega

/-- Entry `(b, l, o)` of the merged array is feature `o % 64` of head `b * 8 + o / 64`, row `l`. -/
theorem merged_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (b : Fin 2) (l : Fin 256) (o : Fin 512) :
    val_main_v59 (F := Ideal) x0 x1 x2 x3 x5 x6 x7 x8 (ix3 b l o)
      = val_main_v56 (F := Ideal) x0 x1 x2 x3 x5 x6 x7 x8 (ix3 (hd b (oh o)) l (od o)) := by
  rw [val_main_v59_apply, val_main_v58_apply, val_main_v57_apply, idx59, idx58, idx57]

/-! ## The output: `exp(·) - 1` of the merged array, times `Woᵀ`. -/

theorem out_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (b : Fin 2) (l : Fin 256) (o : Fin 512) :
    val_main_v61 (F := Ideal) x0 x1 x2 x3 x4 x5 x6 x7 x8 (ix3 b l o)
      = ∑ k : Fin 512, (Ideal.exp (val_main_v59 (F := Ideal) x0 x1 x2 x3 x5 x6 x7 x8 (ix3 b l k)) - 1) * x4 (ix2 o k) := by
  have el : ∀ k : Fin 512, lidx_main_v61 (ix3 b l o) k = ix3 b l k := fun k => funext fun a => by
    match a with
    | ⟨0, _⟩ => rfl
    | ⟨1, _⟩ => rfl
    | ⟨2, _⟩ => rfl
  have er : ∀ k : Fin 512, ridx_main_v61 (ix3 b l o) k = ix2 o k := fun k => funext fun a => by
    match a with
    | ⟨0, _⟩ => rfl
    | ⟨1, _⟩ => rfl
  refine (val_main_v61_apply x0 x1 x2 x3 x4 x5 x6 x7 x8 (ix3 b l o)).trans ?_
  refine Finset.sum_congr rfl fun k _ => ?_
  show val_main_v60 (F := Ideal) x0 x1 x2 x3 x5 x6 x7 x8 (lidx_main_v61 (ix3 b l o) k) * x4 (ridx_main_v61 (ix3 b l o) k)
    = (Ideal.exp (val_main_v59 (F := Ideal) x0 x1 x2 x3 x5 x6 x7 x8 (ix3 b l k)) - 1) * x4 (ix2 o k)
  rw [el k, er k, val_main_v60_apply, Ideal.hostUnary_expm1_def]

end Cert.ReferenceIdeal.RefValue

end
-- ==== Proof.RefValue.lean ====
/-
  The reference's two results are the specification's arrays: every stage read at an index is the specification's
  function of the nine arguments (query, key and value rows; scores; context; merged heads; output), so the output
  array is `Spec.outArr` and the score array `Spec.attnArr` of the arguments read off the memory.
-/
import proofs.«421917_j23888608101009_3_alg».proof.Proof.RefValue.Trop

noncomputable section

namespace Cert.ReferenceIdeal.RefValue

open Cert.ReferenceIdeal Cert.ReferenceIdeal.Gen Cert.ReferenceIdeal.Read Idealize.ShloMosaic Idealize.ShloMosaic.ValueIdx Idealize.SL.Sem

/-! ## The stages as the specification's functions of the nine arguments. -/

theorem q_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (l : Fin 256) (o : Fin 64) :
    val_main_v29 (F := Ideal) x0 x1 x5 x6 (ix3 h l o) = Cert.Spec.qh (Cert.Spec.ofArrays x0 x1 x2 x3 x4 x5 x6 x7 x8) h l o :=
  tl_at x0 x1 x5 x6 h l o

theorem k_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (l : Fin 256) (o : Fin 64) :
    val_main_v29 (F := Ideal) x0 x2 x5 x7 (ix3 h l o) = Cert.Spec.kh (Cert.Spec.ofArrays x0 x1 x2 x3 x4 x5 x6 x7 x8) h l o :=
  tl_at x0 x2 x5 x7 h l o

theorem v_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (l : Fin 256) (o : Fin 64) :
    val_main_v29 (F := Ideal) x0 x3 x5 x8 (ix3 h l o) = Cert.Spec.vh (Cert.Spec.ofArrays x0 x1 x2 x3 x4 x5 x6 x7 x8) h l o :=
  tl_at x0 x3 x5 x8 h l o

theorem attn_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (i j : Fin 256) :
    val_main_v50 (F := Ideal) x0 x1 x2 x5 x6 x7 (ix3 h i j) = Cert.Spec.attn (Cert.Spec.ofArrays x0 x1 x2 x3 x4 x5 x6 x7 x8) h i j := by
  have e : (fun d : Fin 64 => val_main_v29 (F := Ideal) x0 x1 x5 x6 (ix3 h i d) - val_main_v29 (F := Ideal) x0 x2 x5 x7 (ix3 h j d))
      = fun d : Fin 64 => Cert.Spec.qh (Cert.Spec.ofArrays x0 x1 x2 x3 x4 x5 x6 x7 x8) h i d - Cert.Spec.kh (Cert.Spec.ofArrays x0 x1 x2 x3 x4 x5 x6 x7 x8) h j d :=
    funext fun d => by rw [q_at x0 x1 x2 x3 x4 x5 x6 x7 x8, k_at x0 x1 x2 x3 x4 x5 x6 x7 x8]
  rw [score_at, e]
  rfl

theorem context_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (h : Fin 16) (i : Fin 256) (d : Fin 64) :
    val_main_v56 (F := Ideal) x0 x1 x2 x3 x5 x6 x7 x8 (ix3 h i d) = Cert.Spec.context (Cert.Spec.ofArrays x0 x1 x2 x3 x4 x5 x6 x7 x8) h i d := by
  have e : (fun j : Fin 256 => val_main_v50 (F := Ideal) x0 x1 x2 x5 x6 x7 (ix3 h i j) + val_main_v29 (F := Ideal) x0 x3 x5 x8 (ix3 h j d))
      = fun j : Fin 256 => Cert.Spec.attn (Cert.Spec.ofArrays x0 x1 x2 x3 x4 x5 x6 x7 x8) h i j + Cert.Spec.vh (Cert.Spec.ofArrays x0 x1 x2 x3 x4 x5 x6 x7 x8) h j d :=
    funext fun j => by rw [attn_at x0 x1 x2 x3 x4 x5 x6 x7 x8, v_at x0 x1 x2 x3 x4 x5 x6 x7 x8]
  rw [ctx_at, e]
  rfl

theorem mergedS_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (b : Fin 2) (l : Fin 256) (o : Fin 512) :
    val_main_v59 (F := Ideal) x0 x1 x2 x3 x5 x6 x7 x8 (ix3 b l o) = Cert.Spec.merged (Cert.Spec.ofArrays x0 x1 x2 x3 x4 x5 x6 x7 x8) b l o := by
  rw [merged_at, context_at x0 x1 x2 x3 x4 x5 x6 x7 x8]
  rfl

theorem outS_at (x0 : (⟨S2x256x512, .f32⟩ : BufTy).Contents (Elt Ideal)) (x1 : (⟨S512x512, .f32⟩ : BufTy).Contents (Elt Ideal)) (x2 : (⟨S512x512, .f32⟩ : BufTy).Contents (Elt Ideal)) (x3 : (⟨S512x512, .f32⟩ : BufTy).Contents (Elt Ideal)) (x4 : (⟨S512x512, .f32⟩ : BufTy).Contents (Elt Ideal)) (x5 : (⟨S1x1x512, .f32⟩ : BufTy).Contents (Elt Ideal)) (x6 : (⟨S64x64, .f32⟩ : BufTy).Contents (Elt Ideal)) (x7 : (⟨S64x64, .f32⟩ : BufTy).Contents (Elt Ideal)) (x8 : (⟨S64x64, .f32⟩ : BufTy).Contents (Elt Ideal)) (b : Fin 2) (l : Fin 256) (o : Fin 512) :
    val_main_v61 (F := Ideal) x0 x1 x2 x3 x4 x5 x6 x7 x8 (ix3 b l o) = Cert.Spec.out (Cert.Spec.ofArrays x0 x1 x2 x3 x4 x5 x6 x7 x8) b l o := by
  rw [out_at]
  unfold Cert.Spec.out
  refine Finset.sum_congr rfl fun k _ => ?_
  rw [mergedS_at x0 x1 x2 x3 x4 x5 x6 x7 x8]
  rfl

/-! ## The two results. -/

/-- The reference's arguments, read off a memory, as the specification's inputs. -/
def inputs (m : (ℓ : Loc nD τ sig) → Buf (Elt Ideal) ℓ) (c : Dev nD) : Cert.Spec.Inputs :=
  Cert.Spec.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

theorem res_main_v61_eq (m : (ℓ : Loc nD τ sig) → Buf (Elt Ideal) ℓ) (c : Dev nD) :
    Cert.ReferenceIdeal.Value.res_main_v61 (F := Ideal) m c = Cert.Spec.outArr (inputs m c) := by
  rw [Read.val_main_v61_eq]
  funext j
  obtain ⟨b, l, o, rfl⟩ : ∃ (b : Fin 2) (l : Fin 256) (o : Fin 512), j = ix3 b l o := ⟨j 0, j 1, j 2, eq_ix3 j⟩
  exact outS_at _ _ _ _ _ _ _ _ _ b l o

theorem res_main_v50_eq (m : (ℓ : Loc nD τ sig) → Buf (Elt Ideal) ℓ) (c : Dev nD) :
    Cert.ReferenceIdeal.Value.res_main_v50 (F := Ideal) m c = Cert.Spec.attnArr (inputs m c) := by
  rw [Read.val_main_v50_eq]
  funext j
  obtain ⟨h, i, k, rfl⟩ : ∃ (h : Fin 16) (i k : Fin 256), j = ix3 h i k := ⟨j 0, j 1, j 2, eq_ix3 j⟩
  exact attn_at _ _ _ (m ((c.tc : Thread nD τ).loc main_arg3)) (m ((c.tc : Thread nD τ).loc main_arg4)) _ _ _ (m ((c.tc : Thread nD τ).loc main_arg8)) h i k

end Cert.ReferenceIdeal.RefValue

end
-- ==== Proof.lean ====
/-
  The certificate's claims assembled. Both programs compute, over the extended reals, the same tropical
  attention: three projections `log(1 + max(x·Wᵀ, 0)) - lam`, split into 16 heads; each head's rows under a
  max-plus linear map; the scores `-(max_d (q-k) - min_d (q-k))`; the max-plus context; heads merged,
  `exp(·) - 1`, and a last product with `Wo`. The kernel program's five regions and three host stretches are
  run segment by segment and every buffer named at the end; the two results are read back region by region
  to the specification's functions of the nine arguments, and the reference's generated run is read to the
  same functions. The kernel's running maxima (64 unrolled steps from -∞, and over the two key blocks) are the
  reference's whole maxima because `max` is associative, commutative and has -∞ as its unit; nothing needs
  the inputs' finiteness.
-/
import proofs.«421917_j23888608101009_3_alg».proof.Defs
import proofs.«421917_j23888608101009_3_alg».proof.Proof.Gen.Kernel
import proofs.«421917_j23888608101009_3_alg».proof.Proof.Gen.KernelIdeal
import proofs.«421917_j23888608101009_3_alg».proof.Proof.Gen.ReferenceIdeal
import proofs.«421917_j23888608101009_3_alg».proof.Proof.Gen.Pre_finite_inputs
import proofs.«421917_j23888608101009_3_alg».proof.Proof.Gen.ReferenceIdeal.Run
import proofs.«421917_j23888608101009_3_alg».proof.Proof.Gen.ReferenceIdeal.Read
import proofs.«421917_j23888608101009_3_alg».proof.Proof.Kernel.Run
import proofs.«421917_j23888608101009_3_alg».proof.Proof.KernelIdeal.Run
import proofs.«421917_j23888608101009_3_alg».proof.Proof.Val.Final
import proofs.«421917_j23888608101009_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

/-- The two programs' arguments agree, so they are the same inputs of the specification. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefValue.inputs m' c = Cert.KernelIdeal.Val.kinputs m c := by
  unfold Cert.ReferenceIdeal.RefValue.inputs Cert.KernelIdeal.Val.kinputs
  rw [h.1, h.2.1, h.2.2.1, h.2.2.2.1, h.2.2.2.2.1, h.2.2.2.2.2.1, h.2.2.2.2.2.2.1, h.2.2.2.2.2.2.2.1, h.2.2.2.2.2.2.2.2]

theorem algebraic : Cert.algebraic_KernelIdeal_ReferenceIdeal := by
  intro m ρ m' ρ' _ hagree
  refine ⟨fun c => Cert.Spec.outArr (Cert.KernelIdeal.Val.kinputs m c), fun c => Cert.Spec.attnArr (Cert.KernelIdeal.Val.kinputs m c), ?_, ?_⟩
  · refine (θ_run Cert.KernelIdeal.defs _ _).mono (fun r h c => ?_) (Cert.KernelIdeal.Frm.run_main (F := Ideal) m ρ)
    exact ⟨(h c _ (Cert.KernelIdeal.Frm.mem_uc Cert.KernelIdeal.main_v18 (by decide))).trans (Cert.KernelIdeal.Val.kernel_out m ρ c),
      (h c _ (Cert.KernelIdeal.Frm.mem_uc Cert.KernelIdeal.main_v13_1 (by decide))).trans (Cert.KernelIdeal.Val.kernel_attn m ρ c),
      (h c _ (Cert.KernelIdeal.Frm.mem_uc Cert.KernelIdeal.main_arg0 (by decide))).trans (Cert.KernelIdeal.Frm.W8_main_arg0 m ρ c),
      (h c _ (Cert.KernelIdeal.Frm.mem_uc Cert.KernelIdeal.main_arg1 (by decide))).trans (Cert.KernelIdeal.Frm.W8_main_arg1 m ρ c),
      (h c _ (Cert.KernelIdeal.Frm.mem_uc Cert.KernelIdeal.main_arg2 (by decide))).trans (Cert.KernelIdeal.Frm.W8_main_arg2 m ρ c),
      (h c _ (Cert.KernelIdeal.Frm.mem_uc Cert.KernelIdeal.main_arg3 (by decide))).trans (Cert.KernelIdeal.Frm.W8_main_arg3 m ρ c),
      (h c _ (Cert.KernelIdeal.Frm.mem_uc Cert.KernelIdeal.main_arg4 (by decide))).trans (Cert.KernelIdeal.Frm.W8_main_arg4 m ρ c),
      (h c _ (Cert.KernelIdeal.Frm.mem_uc Cert.KernelIdeal.main_arg5 (by decide))).trans (Cert.KernelIdeal.Frm.W8_main_arg5 m ρ c),
      (h c _ (Cert.KernelIdeal.Frm.mem_uc Cert.KernelIdeal.main_arg6 (by decide))).trans (Cert.KernelIdeal.Frm.W8_main_arg6 m ρ c),
      (h c _ (Cert.KernelIdeal.Frm.mem_uc Cert.KernelIdeal.main_arg7 (by decide))).trans (Cert.KernelIdeal.Frm.W8_main_arg7 m ρ c),
      (h c _ (Cert.KernelIdeal.Frm.mem_uc Cert.KernelIdeal.main_arg8 (by decide))).trans (Cert.KernelIdeal.Frm.W8_main_arg8 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.res_main_v61_eq, inputs_eq m m' c (hagree c)]
    · rw [Cert.ReferenceIdeal.RefValue.res_main_v50_eq, inputs_eq m m' c (hagree c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
